-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![6144, 768]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S6144x768 : Shape := ⟨2, ![6144, 768]⟩
abbrev S_ : Shape := ⟨0, ![]⟩

class Facts : Prop where
  bcast_S_S6144x768 : S_.BroadcastsInDim S6144x768 (![] : Fin 0 → Fin S6144x768.rank)
  reducesTo_S6144x768_S_d0_1 : S6144x768.ReducesTo [0, 1] S_
  h_S_ : 0 < S_.numel

variable [Facts]

def fn {F : FTy → Type} [FloatOps F] (main_arg0 : FVec F S6144x768 .f32) : IVec S_ 1 :=
  let main_v0 : FVec F S6144x768 .f32 := Host.absf main_arg0
  let main_cst : FVec F S_ .f32 := constant S_ .f32 0x7F800000#32
  let main_v1 : FVec F S6144x768 .f32 := broadcastInDim S6144x768 ![] bcast_S_S6144x768 main_cst
  let main_v2 : IVec S6144x768 1 := cmpf .olt main_v0 main_v1
  let main_c : IVec S_ 1 := constantI S_ 1 1#1
  let main_v3 : IVec S_ 1 := (fun x v => Host.reduce IntOp.andi x v reducesTo_S6144x768_S_d0_1 h_S_) main_v2 main_c
  main_v3
-- ==== Kernel.lean ====
abbrev S1536x768 : Shape := ⟨2, ![1536, 768]⟩
abbrev S1x768 : Shape := ⟨2, ![1, 768]⟩
abbrev S3x1x768 : Shape := ⟨3, ![3, 1, 768]⟩
abbrev S3 : Shape := ⟨1, ![3]⟩
abbrev S_ : Shape := ⟨0, ![]⟩
abbrev S768 : Shape := ⟨1, ![768]⟩
abbrev S1 : Shape := ⟨1, ![1]⟩
abbrev S1x1x768 : Shape := ⟨3, ![1, 1, 768]⟩

abbrev nBuf : Space → Nat
  | .hbm => 2
  | .vmem => 4
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1536x768, .f32⟩
  | .local _ .vmem, ⟨1, _⟩ => ⟨S1x768, .f32⟩
  | .local _ .vmem, ⟨2, _⟩ => ⟨S1x768, .f32⟩
  | .local _ .vmem, ⟨3, _⟩ => ⟨S3x1x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_31 : BitVec 32 := 2#32
  let v50 : BitVec 32 := Scalar.addi v2 c2_i32_31
  let c4_i32_32 : BitVec 32 := 4#32
  let c0_i32_33 : BitVec 32 := 0#32
  let v51 : BitVec 1 := Scalar.cmpi .eq c4_i32_32 c0_i32_33
  let c1_i32_34 : BitVec 32 := 1#32
  let v52 : BitVec 32 := Scalar.select v51 c1_i32_34 c4_i32_32
  let v53 : BitVec 32 := Scalar.remsi v50 v52
  let c0_i32_36 : BitVec 32 := 0#32
  let v55 : BitVec 1 := Scalar.cmpi .slt v53 c0_i32_36
  let c0_i32_37 : BitVec 32 := 0#32
  let v56 : BitVec 1 := Scalar.cmpi .slt v52 c0_i32_37
  let v57 : BitVec 1 := Scalar.xori v55 v56
  let c0_i32_35 : BitVec 32 := 0#32
  let v54 : BitVec 1 := Scalar.cmpi .ne v53 c0_i32_35
  let v58 : BitVec 1 := Scalar.andi v57 v54
  let v59 : BitVec 32 := Scalar.addi v53 v52
  let v60 : BitVec 32 := Scalar.select v58 v59 v53
  let c1_i32_41 : BitVec 32 := 1#32
  let v61 : BitVec 32 := Scalar.muli v60 c1_i32_41
  let v62 : BitVec 32 := Scalar.addi c0_i32_42 v61
  v62.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_45 : BitVec 32 := 1#32
  let v69 : BitVec 32 := Scalar.addi v2 c1_i32_45
  let c4_i32_46 : BitVec 32 := 4#32
  let c0_i32_47 : BitVec 32 := 0#32
  let v70 : BitVec 1 := Scalar.cmpi .eq c4_i32_46 c0_i32_47
  let c1_i32_48 : BitVec 32 := 1#32
  let v71 : BitVec 32 := Scalar.select v70 c1_i32_48 c4_i32_46
  let v72 : BitVec 32 := Scalar.remsi v69 v71
  let c0_i32_50 : BitVec 32 := 0#32
  let v74 : BitVec 1 := Scalar.cmpi .slt v72 c0_i32_50
  let c0_i32_51 : BitVec 32 := 0#32
  let v75 : BitVec 1 := Scalar.cmpi .slt v71 c0_i32_51
  let v76 : BitVec 1 := Scalar.xori v74 v75
  let c0_i32_49 : BitVec 32 := 0#32
  let v73 : BitVec 1 := Scalar.cmpi .ne v72 c0_i32_49
  let v77 : BitVec 1 := Scalar.andi v76 v73
  let v78 : BitVec 32 := Scalar.addi v72 v71
  let v79 : BitVec 32 := Scalar.select v77 v78 v72
  let c1_i32_55 : BitVec 32 := 1#32
  let v80 : BitVec 32 := Scalar.muli v79 c1_i32_55
  let v81 : BitVec 32 := Scalar.addi c0_i32_56 v80
  v81.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_59 : BitVec 32 := 3#32
  let v88 : BitVec 32 := Scalar.addi v2 c3_i32_59
  let c4_i32_60 : BitVec 32 := 4#32
  let c0_i32_61 : BitVec 32 := 0#32
  let v89 : BitVec 1 := Scalar.cmpi .eq c4_i32_60 c0_i32_61
  let c1_i32_62 : BitVec 32 := 1#32
  let v90 : BitVec 32 := Scalar.select v89 c1_i32_62 c4_i32_60
  let v91 : BitVec 32 := Scalar.remsi v88 v90
  let c0_i32_64 : BitVec 32 := 0#32
  let v93 : BitVec 1 := Scalar.cmpi .slt v91 c0_i32_64
  let c0_i32_65 : BitVec 32 := 0#32
  let v94 : BitVec 1 := Scalar.cmpi .slt v90 c0_i32_65
  let v95 : BitVec 1 := Scalar.xori v93 v94
  let c0_i32_63 : BitVec 32 := 0#32
  let v92 : BitVec 1 := Scalar.cmpi .ne v91 c0_i32_63
  let v96 : BitVec 1 := Scalar.andi v95 v92
  let v97 : BitVec 32 := Scalar.addi v91 v90
  let v98 : BitVec 32 := Scalar.select v96 v97 v91
  let c1_i32_69 : BitVec 32 := 1#32
  let v99 : BitVec 32 := Scalar.muli v98 c1_i32_69
  let v100 : BitVec 32 := Scalar.addi c0_i32_70 v99
  v100.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  reduces_S1536x768_S768 : S1536x768.Reduces [0] S768
  shapeCasts_S768_S1x768 : S768.ShapeCasts S1x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  hamt_3 : (3#32 : BitVec 32).msb = false
  inb_S3_S1_1 : ∀ a, (![1] : Fin 1 → Nat) a + S1.size a ≤ S3.size a
  squeezes_S1_S_ : S1.Squeezes S_
  inb_S3x1x768_S1x1x768_1_0_0 : ∀ a, (![1, 0, 0] : Fin 3 → Nat) a + S1x1x768.size a ≤ S3x1x768.size a
  squeezes_S1x1x768_S1x768 : S1x1x768.Squeezes S1x768
  inb_S3_S1_0 : ∀ a, (![0] : Fin 1 → Nat) a + S1.size a ≤ S3.size a
  inb_S3x1x768_S1x1x768_0_0_0 : ∀ a, (![0, 0, 0] : Fin 3 → Nat) a + S1x1x768.size a ≤ S3x1x768.size a
  inb_S3_S1_2 : ∀ a, (![2] : Fin 1 → Nat) a + S1.size a ≤ S3.size a
  inb_S3x1x768_S1x1x768_2_0_0 : ∀ a, (![2, 0, 0] : Fin 3 → Nat) a + S1x1x768.size a ≤ S3x1x768.size a
  h_S1x1x768 : 0 < S1x1x768.numel
  shapeCasts_S1x1x768_S1x768 : S1x1x768.ShapeCasts S1x768
  hcc0_scratch2 : 2 + S3.numel ≤ 8
  hcc0_scratch3 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch2 : DmaSems sig S3 := SemArray.consecutive 2 S3 hcc0_scratch2
abbrev cc0_scratch3 : DmaSems sig S3 := SemArray.consecutive 5 S3 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S6144x768 : Shape := ⟨2, ![6144, 768]⟩
abbrev S_ : Shape := ⟨0, ![]⟩
abbrev S768 : Shape := ⟨1, ![768]⟩
abbrev S1x768 : Shape := ⟨2, ![1, 768]⟩

abbrev nBuf : Space → Nat
  | .hbm => 4
  | .vmem => 0
  | .smem => 0
  | _ => 0

abbrev bufTy : (tb : Table) → Fin (tcTables nBuf tb) → BufTy
  | .hbm, ⟨0, _⟩ => ⟨S6144x768, .f32⟩
  | .hbm, ⟨1, _⟩ => ⟨S_, .f32⟩
  | .hbm, ⟨2, _⟩ => ⟨S768, .f32⟩
  | .hbm, ⟨3, _⟩ => ⟨S1x768, .f32⟩
  | _, _ => ⟨S6144x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S6144x768_S768_d0 : S6144x768.ReducesTo [0] S768
  h_S_ : 0 < S_.numel
  bcast_S768_S1x768_1 : S768.BroadcastsInDim S1x768 (![1] : Fin 1 → Fin S1x768.rank)

variable [Facts₀]

class Facts : Prop extends Facts₀ where

variable [Facts]
-- ==== Proof.Kernel.Proto.lean ====
import proofs.«901080_g7700000000001081_dist_sum_ax0_shard0_i_m1536_n768_v7x_i4_f32_1_alg».proof.Proof.Gen.Kernel
import proofs.«901080_g7700000000001081_dist_sum_ax0_shard0_i_m1536_n768_v7x_i4_f32_1_alg».proof.Proof.Gen.Kernel.Skeleton
import proofs.«901080_g7700000000001081_dist_sum_ax0_shard0_i_m1536_n768_v7x_i4_f32_1_alg».proof.Proof.Gen.Kernel.Launch
import proofs.«901080_g7700000000001081_dist_sum_ax0_shard0_i_m1536_n768_v7x_i4_f32_1_alg».proof.Proof.Gen.Kernel.Points
import Idealize.ShloMosaic.Lib.Pipeline.Launch
import Idealize.ShloMosaic.Lib.Pipeline.Kit
import Idealize.ShloMosaic.Lib.Transfers
import Idealize.ShloMosaic.Lib.Tactic

/-!
# The all-to-all sum on four devices: cells, contents and the schedule of one round

Every device `c` signals the barrier semaphore of its three peers, stores the column sums of its block of rows
(its *part*) in a one-row buffer, waits for the three signals addressed to it, and copies its part into one slot of
each peer's three-slot landing buffer: slot `k` of the device `k + 1` places further round the ring. It then adds
the three parts that landed in its own slots to its own part. A signal from a peer tells a device that the peer is
inside the kernel and hands it the slot it is about to fill; a landing hands the slot back filled.

Each semaphore has one round. A barrier semaphore has three duties of one unit, one per peer; each of the three send
and three receive semaphores one duty of a row's credit.
-/

noncomputable section

namespace Cert.Kernel.Coll

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The ring of four -/

/-- The device `d` places further round the ring. -/
def rot (d : ℕ) (c : Dev nD) : Dev nD := ⟨(c.val + d) % 4, Nat.mod_lt _ (by decide)⟩

theorem rot_rot (a b : ℕ) (c : Dev nD) : rot a (rot b c) = rot (a + b) c :=
  Fin.ext (by show ((c.val + b) % 4 + a) % 4 = (c.val + (a + b)) % 4; omega)
theorem rot_four (c : Dev nD) : rot 4 c = c := Fin.ext (by show (c.val + 4) % 4 = c.val; have h : c.val < 4 := c.isLt; omega)
theorem rot_inv (a b : ℕ) (h : a + b = 4) (c : Dev nD) : rot a (rot b c) = c := by rw [rot_rot, h, rot_four]
theorem rot_ne (a : ℕ) (h : a % 4 ≠ 0) (c : Dev nD) : rot a c ≠ c := fun e => by
  have h1 : (c.val + a) % 4 = c.val := congrArg Fin.val e; have h2 : c.val < 4 := c.isLt; omega

def rotE (a b : ℕ) (h : a + b = 4) : Dev nD ≃ Dev nD := ⟨rot a, rot b, rot_inv b a (by omega), rot_inv a b h⟩

/-- The kernel's device chains: the signals go one, two and three places on; the copies two places on (slot 1), one
    (slot 0) and three (slot 2). -/
theorem dev1_eq (c : Dev nD) : (⟨k0_dev1 c, k0_dev1_lt c⟩ : Dev nD) = rot 1 c := Fin.ext ((by decide +kernel : ∀ c : Dev nD, k0_dev1 c = (c.val + 1) % 4) c)
theorem dev2_eq (c : Dev nD) : (⟨k0_dev2 c, k0_dev2_lt c⟩ : Dev nD) = rot 2 c := Fin.ext ((by decide +kernel : ∀ c : Dev nD, k0_dev2 c = (c.val + 2) % 4) c)
theorem dev3_eq (c : Dev nD) : (⟨k0_dev3 c, k0_dev3_lt c⟩ : Dev nD) = rot 3 c := Fin.ext ((by decide +kernel : ∀ c : Dev nD, k0_dev3 c = (c.val + 3) % 4) c)
theorem dev4_eq (c : Dev nD) : (⟨k0_dev4 c, k0_dev4_lt c⟩ : Dev nD) = rot 2 c := Fin.ext ((by decide +kernel : ∀ c : Dev nD, k0_dev4 c = (c.val + 2) % 4) c)
theorem dev5_eq (c : Dev nD) : (⟨k0_dev5 c, k0_dev5_lt c⟩ : Dev nD) = rot 1 c := Fin.ext ((by decide +kernel : ∀ c : Dev nD, k0_dev5 c = (c.val + 1) % 4) c)
theorem dev6_eq (c : Dev nD) : (⟨k0_dev6 c, k0_dev6_lt c⟩ : Dev nD) = rot 3 c := Fin.ext ((by decide +kernel : ∀ c : Dev nD, k0_dev6 c = (c.val + 3) % 4) c)

/-! ## The memrefs and cells -/

abbrev xM : Memref sig .tc .vmem S1536x768 .f32 := Memref.whole cc0_stg0_0
abbrev oM : Memref sig .tc .vmem S1x768 .f32 := Memref.whole cc0_stg1_0
/-- The one-row buffer a device's part is stored in, and the landing buffer of three one-row slots. -/
abbrev partM : Memref sig .tc .vmem S1x768 .f32 := Memref.whole cc0_scratch0
abbrev commM : Memref sig .tc .vmem S3x1x768 .f32 := Memref.whole cc0_scratch1

abbrev slotR : (k : Fin 3) → Rect S3x1x768
  | 0 => Rect.unit (s := S3x1x768) ![0, 0, 0] S1x1x768.size inb_S3x1x768_S1x1x768_0_0_0
  | 1 => Rect.unit (s := S3x1x768) ![1, 0, 0] S1x1x768.size inb_S3x1x768_S1x1x768_1_0_0
  | 2 => Rect.unit (s := S3x1x768) ![2, 0, 0] S1x1x768.size inb_S3x1x768_S1x1x768_2_0_0

/-- Slot `k` of the landing buffer, as the kernel's copies and waits name it. -/
abbrev slotM : Fin 3 → Memref sig .tc .vmem S1x768 .f32
  | 0 => (commM.slice (Rect.unit (s := S3x1x768) ![0, 0, 0] S1x1x768.size inb_S3x1x768_S1x1x768_0_0_0) (fun _ => rfl)).squeeze S1x768 squeezes_S1x1x768_S1x768
  | 1 => (commM.slice (Rect.unit (s := S3x1x768) ![1, 0, 0] S1x1x768.size inb_S3x1x768_S1x1x768_1_0_0) (fun _ => rfl)).squeeze S1x768 squeezes_S1x1x768_S1x768
  | 2 => (commM.slice (Rect.unit (s := S3x1x768) ![2, 0, 0] S1x1x768.size inb_S3x1x768_S1x1x768_2_0_0) (fun _ => rfl)).squeeze S1x768 squeezes_S1x1x768_S1x768

abbrev sendSem : Fin 3 → DmaSem sig
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem
abbrev recvSem : Fin 3 → DmaSem sig
  | 0 => ((cc0_scratch3.slice (Rect.unit (s := S3) ![0] S1.size inb_S3_S1_0)).squeeze S_ squeezes_S1_S_).sem
  | 1 => ((cc0_scratch3.slice (Rect.unit (s := S3) ![1] S1.size inb_S3_S1_1)).squeeze S_ squeezes_S1_S_).sem
  | 2 => ((cc0_scratch3.slice (Rect.unit (s := S3) ![2] S1.size inb_S3_S1_2)).squeeze S_ squeezes_S1_S_).sem
/-- The runtime's barrier semaphore of collective id 0. -/
abbrev barS : Sem sig := (SemArray.scalar (sig.barrier 0 rfl) : Sems sig S_).sem

theorem sendSem_val : ∀ k : Fin 3, (sendSem k).val = 2 + k.val := by decide
theorem recvSem_val : ∀ k : Fin 3, (recvSem k).val = 5 + k.val := by decide

abbrev barCell (c : Dev nD) : GSem nD τ sig := ((c : Thread nD τ), .reg barS)
abbrev sendCell (c : Dev nD) (k : Fin 3) : GSem nD τ sig := ((c : Thread nD τ), .dma (sendSem k))
abbrev recvCell (c : Dev nD) (k : Fin 3) : GSem nD τ sig := ((c : Thread nD τ), .dma (recvSem k))

/-- The kernel's own (scoped) semaphores as the launch indexes them: the three send, then the three receive; -/
abbrev osem : Fin 6 → SemLoc sig := fun | 0 => .dma (sendSem 0) | 1 => .dma (sendSem 1) | 2 => .dma (sendSem 2) | 3 => .dma (recvSem 0) | 4 => .dma (recvSem 1) | 5 => .dma (recvSem 2)
/-- all seven of the protocol's: the barrier first. -/
abbrev csem : Fin 7 → SemLoc sig := fun | 0 => .reg barS | 1 => .dma (sendSem 0) | 2 => .dma (sendSem 1) | 3 => .dma (sendSem 2) | 4 => .dma (recvSem 0) | 5 => .dma (recvSem 1) | 6 => .dma (recvSem 2)
abbrev kcell (ck : Dev nD × Fin 7) : GSem nD τ sig := ((ck.1 : Thread nD τ), csem ck.2)
/-- Where a send cell and a receive cell sit among the seven. -/
abbrev sIx (k : Fin 3) : Fin 7 := ⟨1 + k.val, by omega⟩
abbrev rIx (k : Fin 3) : Fin 7 := ⟨4 + k.val, by omega⟩
theorem csem_sIx : ∀ k : Fin 3, csem (sIx k) = .dma (sendSem k) := by decide
theorem csem_rIx : ∀ k : Fin 3, csem (rIx k) = .dma (recvSem k) := by decide

/-- A row's credit: the amount of every copy. -/
abbrev N : ℕ := (partM : Memref sig .tc .vmem S1x768 .f32).view.dmaCredit
theorem N_pos : 0 < N := View.dmaCredit_pos _ (by decide)
theorem slot_credit : ∀ k : Fin 3, (slotM k).view.dmaCredit = N := by decide

theorem send_ne_bar (k : Fin 3) : (SemLoc.dma (sendSem k) : SemLoc sig) ≠ .reg barS := fun h => by cases h
theorem recv_ne_bar (k : Fin 3) : (SemLoc.dma (recvSem k) : SemLoc sig) ≠ .reg barS := fun h => by cases h
theorem send_ne_recv : ∀ k k' : Fin 3, (SemLoc.dma (sendSem k) : SemLoc sig) ≠ .dma (recvSem k') := by decide
theorem send_inj : ∀ k k' : Fin 3, (SemLoc.dma (sendSem k) : SemLoc sig) = .dma (sendSem k') → k = k' := by decide
theorem recv_inj : ∀ k k' : Fin 3, (SemLoc.dma (recvSem k) : SemLoc sig) = .dma (recvSem k') → k = k' := by decide

/-! ## Contents -/

/-- Device `c`'s block of rows, as staged for the kernel. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s part: the column sums of its block. -/
def partVal (c : Dev nD) : (cc0_scratch0 : Ref sig .tc).ty.Contents (Elt F) := k0_pay1 (xstg m ρ c)

/-- Row 0, column `j`. -/
def rowIx (j : Fin 768) : S1x768.Idx := fun a => match a with
  | ⟨0, _⟩ => ⟨0, Nat.zero_lt_one⟩
  | ⟨1, _⟩ => j

/-- Device `c`'s landing buffer once the three copies addressed to it have landed: slot `k` holds the part of the
    device `3 - k` places on (the one whose copy `k + 1` places on arrives here). -/
def landed (c : Dev nD) : (cc0_scratch1 : Ref sig .tc).ty.Contents (Elt F) :=
  fun i => partVal m ρ (rot (3 - (i 0).val) c) (rowIx ⟨(i 2).val, (i 2).isLt⟩)

abbrev partLoc (c : Dev nD) : Loc nD τ sig := (c : Thread nD τ).loc cc0_scratch0
abbrev commLoc (c : Dev nD) : Loc nD τ sig := (c : Thread nD τ).loc cc0_scratch1

/-- The elements of slot `k` in the landing buffer. -/
abbrev slotSet (c : Dev nD) : (k : Fin 3) → Finset (Idx (commLoc c))
  | 0 => (slotM 0).view.set
  | 1 => (slotM 1).view.set
  | 2 => (slotM 2).view.set

/-- Slot `k` of `c`'s landing buffer at contents `f`; `c`'s part buffer at share `q`. -/
def slotPts (c : Dev nD) (k : Fin 3) (f : Buf (Elt F) (commLoc c)) : sProp 𝕄 := commLoc c ↦[slotSet c k]{fullShare} f
def partPts (c : Dev nD) (q : PosShare TreeShare) : sProp 𝕄 := partLoc c ↦[(partM : Memref sig .tc .vmem S1x768 .f32).view.set]{q} partVal m ρ c

omit [FloatOps F] in
instance slotPts_storable (c : Dev nD) (k : Fin 3) (f) : BI.Storable (upEmb : UEmb _ 𝕄) (slotPts (F := F) c k f) := by unfold slotPts; infer_instance
instance partPts_storable (c : Dev nD) (q) : BI.Storable (upEmb : UEmb _ 𝕄) (partPts (F := F) m ρ c q) := by unfold partPts; infer_instance

/-- The read share of the part buffer lent to the copy into slot `k`, and the share kept for the kernel's own load. -/
abbrev tokQ (k : Fin 3) : PosShare TreeShare := Transfers.shareTok fullShare 3 k
abbrev keepQ : PosShare TreeShare := Transfers.shareDrop fullShare 3

/-! ## The schedule -/

/-- What the signal that pays duty `j` of `x`'s barrier cell hands `x`: the payer — the device `3 - j` places on —
    gives up slot `2 - j` of its landing buffer, the one `x` fills, and says it is at round 0 of that slot's receive cell. -/
def barPay (x : Dev nD) (j : Fin 3) : sProp 𝕄 :=
  iprop((∃ f, slotPts (rot (3 - j.val) x) j.rev f) ∗ reached ER (recvCell (rot (3 - j.val) x) j.rev) 0)
/-- A landing in slot `k` hands the slot back filled; a send completed hands back the read share it borrowed. -/
def recvPay (c : Dev nD) (k : Fin 3) : sProp 𝕄 := slotPts c k (landed m ρ c)
def sendPay (c : Dev nD) (k : Fin 3) : sProp 𝕄 := partPts m ρ c (tokQ k)

abbrev xferSems : List (SemLoc sig) := [.dma (sendSem 0), .dma (sendSem 1), .dma (sendSem 2), .dma (recvSem 0), .dma (recvSem 1), .dma (recvSem 2)]
abbrev IsBar (g : GSem nD τ sig) : Prop := g.1.2 = .tc ∧ g.2 = .reg barS
abbrev IsXfer (g : GSem nD τ sig) : Prop := g.1.2 = .tc ∧ g.2 ∈ xferSems

/-- One round: a barrier cell has three duties of one unit each; a send or receive cell the duty `0` of a row's credit. -/
def sched : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (recvSem 0) then recvPay m ρ g.1.1 0
    else if g.2 = .dma (recvSem 1) then recvPay m ρ g.1.1 1
    else if g.2 = .dma (recvSem 2) then recvPay m ρ g.1.1 2
    else if g.2 = .dma (sendSem 0) then sendPay m ρ g.1.1 0
    else if g.2 = .dma (sendSem 1) then sendPay m ρ g.1.1 1
    else if g.2 = .dma (sendSem 2) then sendPay m ρ g.1.1 2
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m ρ).payload g r d) := by
  show BI.Storable upEmb (if g.2 = .reg barS then barPay g.1.1 d
    else if g.2 = .dma (recvSem 0) then recvPay m ρ g.1.1 0
    else if g.2 = .dma (recvSem 1) then recvPay m ρ g.1.1 1
    else if g.2 = .dma (recvSem 2) then recvPay m ρ g.1.1 2
    else if g.2 = .dma (sendSem 0) then sendPay m ρ g.1.1 0
    else if g.2 = .dma (sendSem 1) then sendPay m ρ g.1.1 1
    else if g.2 = .dma (sendSem 2) then sendPay m ρ g.1.1 2
    else iprop(emp))
  unfold barPay recvPay sendPay
  (repeat' split) <;> infer_instance

/-! ## The schedule's tables, cell by cell -/

section Tables
variable (c : Dev nD)

theorem bigSep_fin3 (Φ : Fin 3 → sProp 𝕄) : bigSep Finset.univ Φ = iprop(Φ 0 ∗ Φ 1 ∗ Φ 2) := bigSep_univ_eq_bigSepL [0, 1, 2] (by decide) (by decide) Φ

theorem send_mem : ∀ k : Fin 3, (SemLoc.dma (sendSem k) : SemLoc sig) ∈ xferSems := by decide
theorem recv_mem : ∀ k : Fin 3, (SemLoc.dma (recvSem k) : SemLoc sig) ∈ xferSems := by decide
theorem not_bar_send (k : Fin 3) : ¬ IsBar (sendCell c k) := fun h => send_ne_bar k h.2
theorem not_bar_recv (k : Fin 3) : ¬ IsBar (recvCell c k) := fun h => recv_ne_bar k h.2

theorem duties_bar : (sched (F := F) m ρ).duties (barCell c) 0 = Finset.univ := by dsimp only [sched]; exact if_pos ⟨rfl, rfl, rfl⟩
theorem duties_send (k : Fin 3) : (sched (F := F) m ρ).duties (sendCell c k) 0 = {0} := by
  dsimp only [sched]; rw [if_neg (fun h => not_bar_send c k h.2)]; exact if_pos ⟨rfl, rfl, send_mem k⟩
theorem duties_recv (k : Fin 3) : (sched (F := F) m ρ).duties (recvCell c k) 0 = {0} := by
  dsimp only [sched]; rw [if_neg (fun h => not_bar_recv c k h.2)]; exact if_pos ⟨rfl, rfl, recv_mem k⟩
theorem duties_later (g : GSem nD τ sig) : ∀ r, 1 ≤ r → (sched (F := F) m ρ).duties g r = ∅ :=
  fun r hr => by dsimp only [sched]; rw [if_neg fun h => by omega, if_neg fun h => by omega]

theorem amount_bar (d : Fin 3) : (sched (F := F) m ρ).amount (barCell c) 0 d = 1 := by dsimp only [sched]; exact if_pos rfl
theorem amount_send (k : Fin 3) (d : Fin 3) : (sched (F := F) m ρ).amount (sendCell c k) 0 d = N := by dsimp only [sched]; exact if_neg (send_ne_bar k)
theorem amount_recv (k : Fin 3) (d : Fin 3) : (sched (F := F) m ρ).amount (recvCell c k) 0 d = N := by dsimp only [sched]; exact if_neg (recv_ne_bar k)

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (k : Fin 3) : (sched (F := F) m ρ).expect (sendCell c k) 0 = N := by
  unfold Schedule.expect Schedule.amountOf; rw [duties_send, Finset.sum_singleton, amount_send]
theorem expect_recv (k : Fin 3) : (sched (F := F) m ρ).expect (recvCell c k) 0 = N := by
  unfold Schedule.expect Schedule.amountOf; rw [duties_recv, Finset.sum_singleton, amount_recv]

theorem payload_bar (d : Fin 3) : (sched (F := F) m ρ).payload (barCell c) 0 d = barPay c d := by dsimp only [sched]; rw [if_pos rfl]
theorem payload_recv : ∀ (k : Fin 3) (d : Fin 3), (sched (F := F) m ρ).payload (recvCell c k) 0 d = recvPay m ρ c k
  | 0, _ => by dsimp only [sched]; rw [if_neg (recv_ne_bar 0), if_pos rfl]
  | 1, _ => by dsimp only [sched]; rw [if_neg (recv_ne_bar 1), if_neg (by decide), if_pos rfl]
  | 2, _ => by dsimp only [sched]; rw [if_neg (recv_ne_bar 2), if_neg (by decide), if_neg (by decide), if_pos rfl]
theorem payload_send : ∀ (k : Fin 3) (d : Fin 3), (sched (F := F) m ρ).payload (sendCell c k) 0 d = sendPay m ρ c k
  | 0, _ => by dsimp only [sched]; rw [if_neg (send_ne_bar 0), if_neg (by decide), if_neg (by decide), if_neg (by decide), if_pos rfl]
  | 1, _ => by dsimp only [sched]; rw [if_neg (send_ne_bar 1), if_neg (by decide), if_neg (by decide), if_neg (by decide), if_neg (by decide), if_pos rfl]
  | 2, _ => by dsimp only [sched]; rw [if_neg (send_ne_bar 2), if_neg (by decide), if_neg (by decide), if_neg (by decide), if_neg (by decide), if_neg (by decide), if_pos rfl]

/-- The whole of the barrier cell's round, nothing taken yet: the three peers' slots. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_fin3, payload_bar, payload_bar, payload_bar]
theorem rest_send (k : Fin 3) : bigSep ((sched (F := F) m ρ).duties (sendCell c k) 0 \ ∅) (fun d => (sched (F := F) m ρ).payload (sendCell c k) 0 d) = sendPay m ρ c k := by
  rw [Finset.sdiff_empty, duties_send, bigSep_singleton, payload_send]
theorem rest_recv (k : Fin 3) : bigSep ((sched (F := F) m ρ).duties (recvCell c k) 0 \ ∅) (fun d => (sched (F := F) m ρ).payload (recvCell c k) 0 d) = recvPay m ρ c k := by
  rw [Finset.sdiff_empty, duties_recv, bigSep_singleton, payload_recv]

end Tables

/-! ## What each device owes at launch; the levels -/

/-- What device `c` still owes, latest first: the copy into slot 2 (three places on); before it the copy into slot 0 (one
    place on); before it the copy into slot 1 (two places on) — all three are owed at the barrier wait —; before them the
    three signals, to the devices three, two and one places on. Each step of the body peels the last summand. -/
def O₁ (c : Dev nD) : CellTallies nD τ sig Unit := tallyAt (recvCell (rot 3 c) 2) () N
def O₂ (c : Dev nD) : CellTallies nD τ sig Unit := O₁ c + tallyAt (recvCell (rot 1 c) 0) () N
def O₃ (c : Dev nD) : CellTallies nD τ sig Unit := O₂ c + tallyAt (recvCell (rot 2 c) 1) () N
def O₄ (c : Dev nD) : CellTallies nD τ sig Unit := O₃ c + tallyAt (barCell (rot 3 c)) () 1
def O₅ (c : Dev nD) : CellTallies nD τ sig Unit := O₄ c + tallyAt (barCell (rot 2 c)) () 1
def O₀ (c : Dev nD) : CellTallies nD τ sig Unit := O₅ c + tallyAt (barCell (rot 1 c)) () 1

abbrev recvSems : List (SemLoc sig) := [.dma (recvSem 0), .dma (recvSem 1), .dma (recvSem 2)]
theorem recv_mem' : ∀ k : Fin 3, (SemLoc.dma (recvSem k) : SemLoc sig) ∈ recvSems := by decide
theorem bar_not_recv : (SemLoc.reg barS : SemLoc sig) ∉ recvSems := by decide

def L (g : GSem nD τ sig) : Finset Unit := if g.1.2 = .tc then {()} else ∅
/-- Barrier cells at 1, receive cells at 2, everything else (staging, send) at 0: a device waits on its barrier while it
    owes three landings, and on staging, send and receive cells only while it owes nothing above them. -/
def lv (g : GSem nD τ sig) (_ : Unit) : ℕ := if g.2 = .reg barS then 1 else if g.2 ∈ recvSems then 2 else 0

theorem L_of_ne (g : GSem nD τ sig) (h : g.1.2 ≠ .tc) : L g = ∅ := if_neg h
theorem L_tc (c : Dev nD) (sm : SemLoc sig) : L ((c : Thread nD τ), sm) = {()} := if_pos rfl
theorem mem_L_of_tc {g : GSem nD τ sig} (h : g.1.2 = .tc) (u : Unit) : u ∈ L g := by unfold L; rw [if_pos h]; exact Finset.mem_singleton_self _

/-- Where `O₃` is positive: on a TensorCore's receive cell. -/
theorem O₃_pos {c : Dev nD} {g : GSem nD τ sig} {u : Unit} (h : 0 < O₃ c g u) : g.1.2 = .tc ∧ ∃ k : Fin 3, g.2 = .dma (recvSem k) := by
  unfold O₃ O₂ O₁ at h
  rcases Pipeline.add_pos_cases h with h | h
  · rcases Pipeline.add_pos_cases h with h | h
    · obtain ⟨rfl, -⟩ := Pipeline.tallyAt_pos h; exact ⟨rfl, 2, rfl⟩
    · obtain ⟨rfl, -⟩ := Pipeline.tallyAt_pos h; exact ⟨rfl, 0, rfl⟩
  · obtain ⟨rfl, -⟩ := Pipeline.tallyAt_pos h; exact ⟨rfl, 1, rfl⟩

/-- Where `O₀` is positive: on a TensorCore's barrier or receive cell. -/
theorem O₀_pos {c : Dev nD} {g : GSem nD τ sig} {u : Unit} (h : 0 < O₀ c g u) :
    g.1.2 = .tc ∧ (g.2 = .reg barS ∨ ∃ k : Fin 3, g.2 = .dma (recvSem k)) := by
  unfold O₀ O₅ O₄ at h
  rcases Pipeline.add_pos_cases h with h | h
  · rcases Pipeline.add_pos_cases h with h | h
    · rcases Pipeline.add_pos_cases h with h | h
      · obtain ⟨h1, h2⟩ := O₃_pos h; exact ⟨h1, .inr h2⟩
      · obtain ⟨rfl, -⟩ := Pipeline.tallyAt_pos h; exact ⟨rfl, .inl rfl⟩
    · obtain ⟨rfl, -⟩ := Pipeline.tallyAt_pos h; exact ⟨rfl, .inl rfl⟩
  · obtain ⟨rfl, -⟩ := Pipeline.tallyAt_pos h; exact ⟨rfl, .inl rfl⟩

/-- A wait on a cell of level 0 (a staging or send cell), whatever of `O₀` is still owed. -/
theorem mayWait_low (c : Dev nD) (q : DmaSem sig) (hq : (SemLoc.dma q : SemLoc sig) ∉ recvSems) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    obtain ⟨h1, h2⟩ := O₀_pos hg
    refine ⟨mem_L_of_tc h1 i, ?_⟩
    have h0 : lv ((c : Thread nD τ), SemLoc.dma q) () = 0 := by
      unfold lv; rw [if_neg (fun h => by cases h), if_neg hq]
    rw [h0]
    rcases h2 with h2 | ⟨k, h2⟩
    · unfold lv; rw [if_pos h2]; decide
    · unfold lv; rw [h2, if_neg (recv_ne_bar k), if_pos (recv_mem' k)]; decide
  · rw [MayWait_zero]; iintro -; iempintro

/-- At its barrier wait a device owes the three landings only: receive cells, above its barrier cell. -/
theorem mayWait_bar (c : Dev nD) : (levAts L lv : sProp 𝕄) ⊢ MayWait (c : Thread nD τ) (.reg barS) () (O₃ c) := by
  refine Pipeline.mayWait_of_levAts (by rw [L_tc]; exact Finset.mem_singleton_self _) fun g i hg => ?_
  obtain ⟨h1, k, h2⟩ := O₃_pos hg
  refine ⟨mem_L_of_tc h1 i, ?_⟩
  have h0 : lv ((c : Thread nD τ), SemLoc.reg barS) () = 1 := by unfold lv; rw [if_pos rfl]
  rw [h0]
  unfold lv; rw [h2, if_neg (recv_ne_bar k), if_pos (recv_mem' k)]; decide

end Cert.Kernel.Coll

end
-- ==== Proof.Kernel.Data.lean ====
import proofs.«901080_g7700000000001081_dist_sum_ax0_shard0_i_m1536_n768_v7x_i4_f32_1_alg».proof.Proof.Kernel.Proto

/-!
# What a device holds: the protocol's ghost state, the pipeline's proof data, the body's pre- and postcondition

A device opens thirteen cells' invariants — its own seven, its three peers' barrier cells and the three receive cells its
copies land on —, stands at round 0 of its own seven cells, and pays nine duties: a unit on each peer's barrier cell,
a row's credit on each peer's receive cell it copies onto, and a row's credit on each of its own send cells.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## The persistent part: every cell's invariant under the names the launch allocated, and round 0 of every cell reached -/

def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) : records m ρ K ⊢ cellInv ER (sched m ρ) (K ck) (kcell ck) := by
  unfold records; iintro ⟨HI, -⟩
  iapply (show (bigSep Finset.univ fun ck : Dev nD × Fin 7 => (cellInv ER (sched m ρ) (K ck) (kcell ck) : sProp 𝕄)) ⊢ cellInv ER (sched m ρ) (K ck) (kcell ck)
    from bigSep_elim (Finset.mem_univ ck))
  iexact HI
theorem reached_at (K : Dev nD × Fin 7 → ℕ) (ck : Dev nD × Fin 7) : records m ρ K ⊢ reached ER (kcell ck) 0 := by
  unfold records; iintro ⟨-, HR⟩
  iapply (show (bigSep Finset.univ fun ck : Dev nD × Fin 7 => (reached ER (kcell ck) 0 : sProp 𝕄)) ⊢ reached ER (kcell ck) 0
    from bigSep_elim (Finset.mem_univ ck))
  iexact HR

/-! ## The linear part -/

/-- The tokens of the nine duties device `c` pays. -/
def payToks (c : Dev nD) : sProp 𝕄 :=
  iprop(dutyTok ER (barCell (rot 1 c)) 0 0 ∗ dutyTok ER (barCell (rot 2 c)) 0 1 ∗ dutyTok ER (barCell (rot 3 c)) 0 2
    ∗ dutyTok ER (recvCell (rot 1 c) 0) 0 0 ∗ dutyTok ER (recvCell (rot 2 c) 1) 0 0 ∗ dutyTok ER (recvCell (rot 3 c) 2) 0 0
    ∗ dutyTok ER (sendCell c 0) 0 0 ∗ dutyTok ER (sendCell c 1) 0 0 ∗ dutyTok ER (sendCell c 2) 0 0)

/-- Its positions, at the start of round 0 of its own seven cells, and those tokens. -/
def linear (c : Dev nD) : sProp 𝕄 :=
  iprop((bigSep Finset.univ fun k : Fin 7 => atPos ER (kcell (c, k)) 0 ∅ 0) ∗ payToks c)

def ghost (K : Dev nD × Fin 7 → ℕ) (c : Dev nD) : sProp 𝕄 := iprop(records m ρ K ∗ linear c)

/-- The credit a device waits with: its barrier's three units and a row's credit on each receive cell. -/
def waitCred (c : Dev nD) : sProp 𝕄 :=
  iprop(cred (tallyAt (barCell c) () 3) ∗ cred (tallyAt (recvCell c 0) () N) ∗ cred (tallyAt (recvCell c 1) () N) ∗ cred (tallyAt (recvCell c 2) () N))

/-- What device `c`'s body starts from, beside its buffers. -/
def start (c : Dev nD) : sProp 𝕄 := iprop((∃ K, ghost m ρ K c) ∗ waitCred c ∗ levAts L lv)

/-- The two scratch buffers, whole, at some contents. -/
def scratch (c : Dev nD) : sProp 𝕄 :=
  iprop((∃ f : Buf (Elt F) (partLoc c), partLoc c ↦{fullShare} f) ∗ (∃ f : Buf (Elt F) (commLoc c), commLoc c ↦{fullShare} f))

/-- The six own semaphores back at zero. -/
def semsZero (c : Dev nD) : sProp 𝕄 :=
  iprop(semVal (sendCell c 0) 0 ∗ semVal (sendCell c 1) 0 ∗ semVal (sendCell c 2) 0 ∗ semVal (recvCell c 0) 0 ∗ semVal (recvCell c 1) 0 ∗ semVal (recvCell c 2) 0)

def Φ₀ (c : Dev nD) : sProp 𝕄 := iprop(start m ρ c ∗ scratch c)
def Φ₁ (c : Dev nD) : sProp 𝕄 := iprop(scratch (F := F) c ∗ semsZero c)

/-! ## The values -/

abbrev r1 : Rect S1x768 := Rect.unit (s := S1x768) ![0, 0] S1x768.size inb_S1x768_S1x768_0_0
abbrev rX : Rect S1536x768 := Rect.unit (s := S1536x768) ![0, 0] S1536x768.size inb_S1536x768_S1536x768_0_0

/-- The kernel's result on device `c`: its own part plus the three parts that landed, slot 0, then slot 2, then slot 1. -/
def outAt (c : Dev nD) : (cc0_stg1_0 : Ref sig .tc).ty.Contents (Elt F) :=
  k0_pay3 (k0_pay2 (partVal m ρ c)
      ((commM : Memref sig .tc .vmem S3x1x768 .f32).view.readAt (Elt F) (slotR 0).toLoadRect (landed m ρ c))
      ((commM : Memref sig .tc .vmem S3x1x768 .f32).view.readAt (Elt F) (slotR 2).toLoadRect (landed m ρ c)))
    ((commM : Memref sig .tc .vmem S3x1x768 .f32).view.readAt (Elt F) (slotR 1).toLoadRect (landed m ρ c))

/-! ## The pipeline's proof data: one grid point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 7 → ℕ) (c : Dev nD) : sProp 𝕄 :=
  iprop((ghost m ρ K c ∗ waitCred c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- The kernel body as the pipeline calls it at the one grid point. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3

/-! ## What the run ends with -/

/-- Each window's array on device `c` after the one grid point. -/
def finalA (c : Dev nD) (w : Fin cfg0.W) : Buf (Elt F) ((cfg0.win w).arr.view.loc (c : Thread nD τ)) := (dats m ρ 0 c).arrAt w cfg0.N

/-- Every device's arrays are those. -/
def QC : PUnit × MemSt nD τ sig (Elt F) → Prop := fun r =>
  ∀ c : Dev nD, ∀ w : Fin cfg0.W, r.2.mem ((cfg0.win w).arr.view.loc (c : Thread nD τ)) = finalA m ρ c w

end Cert.Kernel.Coll

end
-- ==== Proof.Kernel.Launch.lean ====
import proofs.«901080_g7700000000001081_dist_sum_ax0_shard0_i_m1536_n768_v7x_i4_f32_1_alg».proof.Proof.Kernel.Data
import proofs.«901080_g7700000000001081_dist_sum_ax0_shard0_i_m1536_n768_v7x_i4_f32_1_alg».proof.Proof.Gen.Kernel.Frame

/-!
# The launch: from every device's body to the run of the program

The protocol's ghost state is allocated for all four devices under one update — a barrier cell's invariant is shared by
the device that waits on it and the three that signal it —, each device is dealt the tokens of the duties it pays and the
credit of the duties paid to it, and the one-region launch theorem turns the four bodies into the run.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

/-- The seven semaphores of the protocol are pairwise distinct, -/
theorem csem_inj : ∀ k k' : Fin 7, csem k = csem k' → k = k' := by decide

/-- so the twenty-eight cells are. -/
theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_inj k k' h2
  subst this; rfl
def allCells : Finset (GSem nD τ sig) := Finset.univ.map ⟨kcell, kcell_injective⟩

/-- The nine duties on a device's own cells — semaphore and duty name —: its barrier's three, then duty 0 of its three
    receive cells, then duty 0 of its three send cells. -/
abbrev tsem : Fin 9 → SemLoc sig × Fin 3 := fun
  | 0 => (.reg barS, 0) | 1 => (.reg barS, 1) | 2 => (.reg barS, 2)
  | 3 => (.dma (recvSem 0), 0) | 4 => (.dma (recvSem 1), 0) | 5 => (.dma (recvSem 2), 0)
  | 6 => (.dma (sendSem 0), 0) | 7 => (.dma (sendSem 1), 0) | 8 => (.dma (sendSem 2), 0)
theorem tsem_inj : ∀ j j' : Fin 9, tsem j = tsem j' → j = j' := by decide

/-- A device's own cells' duty tokens as minted: (device, which of the nine). -/
abbrev tokOf (cj : Dev nD × Fin 9) : GSem nD τ sig × ℕ × Fin 3 := (((cj.1 : Thread nD τ), (tsem cj.2).1), 0, (tsem cj.2).2)
theorem tokOf_injective : Function.Injective (tokOf : Dev nD × Fin 9 → GSem nD τ sig × ℕ × Fin 3) := by
  rintro ⟨c, j⟩ ⟨c', j'⟩ h
  have h1 : c = c' := by have := congrArg (fun x : GSem nD τ sig × ℕ × Fin 3 => x.1.1.1) h; exact this
  subst h1
  have h2 : (tsem j).1 = (tsem j').1 := congrArg (fun x : GSem nD τ sig × ℕ × Fin 3 => x.1.2) h
  have h3 : (tsem j).2 = (tsem j').2 := congrArg (fun x : GSem nD τ sig × ℕ × Fin 3 => x.2.2) h
  have : j = j' := tsem_inj j j' (Prod.ext h2 h3)
  subst this; rfl
def allToks : Finset (GSem nD τ sig × ℕ × Fin 3) := Finset.univ.map ⟨tokOf, tokOf_injective⟩

/-- The launch element: the pipeline's cells and tokens in the first copy of the algebra, the protocol's in the second. -/
def u₀ : UU :=
  (initOf (Pipeline.cells cfgs cellOf_inj) (Pipeline.launchToks cfgs cellOf_inj), initOf allCells allToks)

/-- The duty tokens of device c's own cells. -/
def toks (c : Dev nD) : sProp 𝕄 :=
  iprop(dutyTok ER (barCell c) 0 0 ∗ dutyTok ER (barCell c) 0 1 ∗ dutyTok ER (barCell c) 0 2
    ∗ dutyTok ER (recvCell c 0) 0 0 ∗ dutyTok ER (recvCell c 1) 0 0 ∗ dutyTok ER (recvCell c 2) 0 0
    ∗ dutyTok ER (sendCell c 0) 0 0 ∗ dutyTok ER (sendCell c 1) 0 0 ∗ dutyTok ER (sendCell c 2) 0 0)

/-- What the launch element deals device c: the round state of its seven cells at counter zero, its position at the
    start of round 0 of each and that round reached, and the tokens of its own cells' duties. -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ toks c)

/-- What the global step makes of it: the device's ghost state under some names of the invariants. -/
def G' (c : Dev nD) : sProp 𝕄 := iprop(∃ K, ghost m ρ K c)

theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The protocol's launch element, device by device. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin9]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The three send and the three receive semaphores are the kernel's own six; -/
theorem ownSems0_eq (c : Dev nD) : (Pipeline.ownSems0 (Ix := Unit) (Name := ℕ) (U := UU) (Lvl := ℕ) (Val := Elt F) (τ := τ) osem c : sProp 𝕄)
    = semsZero c := by
  rw [Pipeline.ownSems0_eq_of_list c osem [0, 1, 2, 3, 4, 5] (by decide) (by decide)]; rfl
/-- the barrier semaphore the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  unfold semsZero
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

/-- One device's seven invariants allocated, from its seven counters at zero and what it was dealt. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k : Fin 7 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 7 → ℕ) (c : Dev nD) : iprop(records m ρ K ∗ linear c) ⊢ G' m ρ c := by
  unfold G' ghost
  iintro H
  iexists K
  iexact H

/-- The tokens dealt round the ring: duty j of a barrier cell goes to the device j + 1 places before the cell's, duty 0
    of receive cell k to the device k + 1 places before; a send cell's stays. -/
theorem toks_around : (bigSep Finset.univ fun c : Dev nD => (toks c : sProp 𝕄)) ⊢ bigSep Finset.univ fun c : Dev nD => payToks c := by
  unfold toks payToks
  simp only [bigSep_sep']
  rw [bigSep_univ_equiv (rotE 1 3 rfl) (fun c : Dev nD => (dutyTok ER (barCell c) 0 0 : sProp 𝕄)),
    bigSep_univ_equiv (rotE 2 2 rfl) (fun c : Dev nD => (dutyTok ER (barCell c) 0 1 : sProp 𝕄)),
    bigSep_univ_equiv (rotE 3 1 rfl) (fun c : Dev nD => (dutyTok ER (barCell c) 0 2 : sProp 𝕄)),
    bigSep_univ_equiv (rotE 1 3 rfl) (fun c : Dev nD => (dutyTok ER (recvCell c 0) 0 0 : sProp 𝕄)),
    bigSep_univ_equiv (rotE 2 2 rfl) (fun c : Dev nD => (dutyTok ER (recvCell c 1) 0 0 : sProp 𝕄)),
    bigSep_univ_equiv (rotE 3 1 rfl) (fun c : Dev nD => (dutyTok ER (recvCell c 2) 0 0 : sProp 𝕄))]
  iintro ⟨H1, H2, H3, H4, H5, H6, H7, H8, H9⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' allocations regrouped: the names chosen for all twenty-eight cells at once, the records made once and
    handed to every device with its positions and the tokens of the duties it pays. -/
theorem regroup :
    (bigSep Finset.univ fun c : Dev nD => iprop((bigSep Finset.univ fun k => iprop(∃ κ : ℕ, cellInv ER (sched m ρ) κ (kcell (c, k))))
          ∗ (bigSep Finset.univ fun k : Fin 7 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: the own and the barrier semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- Three units on one cell are one credit of three. -/
theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  iintro ⟨H1, H2, H3⟩
  iapply (cred_add _ _).2
  isplitl [H1]; · iexact H1
  iapply (cred_add _ _).2
  isplitl [H2] <;> iassumption

/-- What the devices owe at launch is, summed, each device's waits' credit: every summand of the six is one tally on a
    cell of the device some fixed number of places on, and going round the ring is a bijection. -/
theorem creds (c : Dev nD) : (Pipeline.launchCred O₀ c : sProp 𝕄) ⊢ waitCred c := by
  rw [show (O₀ : Dev nD → CellTallies nD τ sig Unit) = fun d => O₅ d + tallyAt (barCell (rot 1 d)) () 1 from rfl, Pipeline.launchCred_add,
    show (O₅ : Dev nD → CellTallies nD τ sig Unit) = fun d => O₄ d + tallyAt (barCell (rot 2 d)) () 1 from rfl, Pipeline.launchCred_add,
    show (O₄ : Dev nD → CellTallies nD τ sig Unit) = fun d => O₃ d + tallyAt (barCell (rot 3 d)) () 1 from rfl, Pipeline.launchCred_add,
    show (O₃ : Dev nD → CellTallies nD τ sig Unit) = fun d => O₂ d + tallyAt (recvCell (rot 2 d) 1) () N from rfl, Pipeline.launchCred_add,
    show (O₂ : Dev nD → CellTallies nD τ sig Unit) = fun d => O₁ d + tallyAt (recvCell (rot 1 d) 0) () N from rfl, Pipeline.launchCred_add,
    show (O₁ : Dev nD → CellTallies nD τ sig Unit) = fun d => tallyAt (recvCell (rot 3 d) 2) () N from rfl]
  iintro ⟨⟨⟨⟨⟨H2, H0⟩, H1⟩, B3⟩, B2⟩, B1⟩
  ihave C2 := (Pipeline.launchCred_tallyAt (.dma (recvSem 2)) (rot 3) (rot 1) (rot_inv 3 1 rfl) (rot_inv 1 3 rfl) () N c) $$ H2
  ihave C0 := (Pipeline.launchCred_tallyAt (.dma (recvSem 0)) (rot 1) (rot 3) (rot_inv 1 3 rfl) (rot_inv 3 1 rfl) () N c) $$ H0
  ihave C1 := (Pipeline.launchCred_tallyAt (.dma (recvSem 1)) (rot 2) (rot 2) (rot_inv 2 2 rfl) (rot_inv 2 2 rfl) () N c) $$ H1
  ihave D3 := (Pipeline.launchCred_tallyAt (.reg barS) (rot 3) (rot 1) (rot_inv 3 1 rfl) (rot_inv 1 3 rfl) () 1 c) $$ B3
  ihave D2 := (Pipeline.launchCred_tallyAt (.reg barS) (rot 2) (rot 2) (rot_inv 2 2 rfl) (rot_inv 2 2 rfl) () 1 c) $$ B2
  ihave D1 := (Pipeline.launchCred_tallyAt (.reg barS) (rot 1) (rot 3) (rot_inv 1 3 rfl) (rot_inv 3 1 rfl) () 1 c) $$ B1
  unfold waitCred
  isplitl [D1 D2 D3]
  · iapply (cred_three (F := F) (barCell c))
    isplitl [D1]; · iexact D1
    isplitl [D2] <;> iassumption
  isplitl [C0]; · iexact C0
  isplitl [C1] <;> iassumption

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

/-- The pipeline's own waits, on the two staging cells: level 0, below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ### The run -/

set_option maxRecDepth 8000 in
/-- At the compiled mesh of four devices, for any float values, from any memory with zero counters: if every device's
    body meets its obligation, every weakly fair execution of the program terminates, nothing faulting, and every final
    state has each device's arrays at the proof data's final contents. -/
theorem run_main_of (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Coll.run_main_of' depends on axioms: [propext, Classical.choice, Quot.sound] -/
#guard_msgs in #print axioms run_main_of

end Cert.Kernel.Coll

end
-- ==== Proof.Kernel.Final.lean ====
import proofs.«901080_g7700000000001081_dist_sum_ax0_shard0_i_m1536_n768_v7x_i4_f32_1_alg».proof.Proof.Kernel.Launch

/-!
# The run, with the values named

After the one grid point the result's staging buffer is written back whole, so each device's result array ends at what
the body left in it, and the argument array, only ever read, ends as it began.
-/

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The argument array is a window that is only read: it ends as it began. -/
theorem finalA_arg (c : Dev nD) : finalA m ρ c (0 : Fin 2) = m ((c.tc : Thread nD τ).loc main_arg0) :=
  (dats (F := F) m ρ 0 c).arrAt_in (0 : Fin 2) rfl _

/-- The result array is written back whole at the one grid point, from what the body left in its staging buffer: the
    block is the whole array, so the write leaves exactly the payload. -/
theorem finalA_res (c : Dev nD) : finalA m ρ c (1 : Fin 2) = outAt m ρ c := by
  unfold finalA
  rw [show cfg0.N = (t₀ : Fin cfg0.N).val + 1 from cfg0_N, Dat.arrAt_succ, flush0_1 t₀, if_pos rfl]
  exact Memref.write_access_unit_zero_univ (Elt F) main_v1 (funext fun a => Nat.zero_mul _) _ _ _

/-- If every device's body meets its obligation, every weakly fair execution terminates, nothing faulting, with every
    device's result at the sum of the four parts as the body computes it and its argument unchanged. -/
theorem run_values (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  (θ_run defs _ _).mono (fun r h c => ⟨(h c (1 : Fin 2)).trans (finalA_res m ρ c), (h c (0 : Fin 2)).trans (finalA_arg m ρ c)⟩)
    (run_main_of m ρ hbody)

/-- info: 'Cert.Kernel.Coll.run_values' depends on axioms: [propext, Classical.choice, Quot.sound] -/
#guard_msgs in #print axioms run_values

end Cert.Kernel.Coll

end
-- ==== Proof.KernelIdeal.Proto.lean ====
import proofs.«901080_g7700000000001081_dist_sum_ax0_shard0_i_m1536_n768_v7x_i4_f32_1_alg».proof.Proof.Gen.KernelIdeal
import proofs.«901080_g7700000000001081_dist_sum_ax0_shard0_i_m1536_n768_v7x_i4_f32_1_alg».proof.Proof.Gen.KernelIdeal.Skeleton
import proofs.«901080_g7700000000001081_dist_sum_ax0_shard0_i_m1536_n768_v7x_i4_f32_1_alg».proof.Proof.Gen.KernelIdeal.Launch
import proofs.«901080_g7700000000001081_dist_sum_ax0_shard0_i_m1536_n768_v7x_i4_f32_1_alg».proof.Proof.Gen.KernelIdeal.Points
import Idealize.ShloMosaic.Lib.Pipeline.Launch
import Idealize.ShloMosaic.Lib.Pipeline.Kit
import Idealize.ShloMosaic.Lib.Transfers
import Idealize.ShloMosaic.Lib.Tactic

/-!
# The all-to-all sum on four devices: cells, contents and the schedule of one round

Every device `c` signals the barrier semaphore of its three peers, stores the column sums of its block of rows
(its *part*) in a one-row buffer, waits for the three signals addressed to it, and copies its part into one slot of
each peer's three-slot landing buffer: slot `k` of the device `k + 1` places further round the ring. It then adds
the three parts that landed in its own slots to its own part. A signal from a peer tells a device that the peer is
inside the kernel and hands it the slot it is about to fill; a landing hands the slot back filled.

Each semaphore has one round. A barrier semaphore has three duties of one unit, one per peer; each of the three send
and three receive semaphores one duty of a row's credit.
-/

noncomputable section

namespace Cert.KernelIdeal.Coll

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The ring of four -/

/-- The device `d` places further round the ring. -/
def rot (d : ℕ) (c : Dev nD) : Dev nD := ⟨(c.val + d) % 4, Nat.mod_lt _ (by decide)⟩

theorem rot_rot (a b : ℕ) (c : Dev nD) : rot a (rot b c) = rot (a + b) c :=
  Fin.ext (by show ((c.val + b) % 4 + a) % 4 = (c.val + (a + b)) % 4; omega)
theorem rot_four (c : Dev nD) : rot 4 c = c := Fin.ext (by show (c.val + 4) % 4 = c.val; have h : c.val < 4 := c.isLt; omega)
theorem rot_inv (a b : ℕ) (h : a + b = 4) (c : Dev nD) : rot a (rot b c) = c := by rw [rot_rot, h, rot_four]
theorem rot_ne (a : ℕ) (h : a % 4 ≠ 0) (c : Dev nD) : rot a c ≠ c := fun e => by
  have h1 : (c.val + a) % 4 = c.val := congrArg Fin.val e; have h2 : c.val < 4 := c.isLt; omega

def rotE (a b : ℕ) (h : a + b = 4) : Dev nD ≃ Dev nD := ⟨rot a, rot b, rot_inv b a (by omega), rot_inv a b h⟩

/-- The kernel's device chains: the signals go one, two and three places on; the copies two places on (slot 1), one
    (slot 0) and three (slot 2). -/
theorem dev1_eq (c : Dev nD) : (⟨k0_dev1 c, k0_dev1_lt c⟩ : Dev nD) = rot 1 c := Fin.ext ((by decide +kernel : ∀ c : Dev nD, k0_dev1 c = (c.val + 1) % 4) c)
theorem dev2_eq (c : Dev nD) : (⟨k0_dev2 c, k0_dev2_lt c⟩ : Dev nD) = rot 2 c := Fin.ext ((by decide +kernel : ∀ c : Dev nD, k0_dev2 c = (c.val + 2) % 4) c)
theorem dev3_eq (c : Dev nD) : (⟨k0_dev3 c, k0_dev3_lt c⟩ : Dev nD) = rot 3 c := Fin.ext ((by decide +kernel : ∀ c : Dev nD, k0_dev3 c = (c.val + 3) % 4) c)
theorem dev4_eq (c : Dev nD) : (⟨k0_dev4 c, k0_dev4_lt c⟩ : Dev nD) = rot 2 c := Fin.ext ((by decide +kernel : ∀ c : Dev nD, k0_dev4 c = (c.val + 2) % 4) c)
theorem dev5_eq (c : Dev nD) : (⟨k0_dev5 c, k0_dev5_lt c⟩ : Dev nD) = rot 1 c := Fin.ext ((by decide +kernel : ∀ c : Dev nD, k0_dev5 c = (c.val + 1) % 4) c)
theorem dev6_eq (c : Dev nD) : (⟨k0_dev6 c, k0_dev6_lt c⟩ : Dev nD) = rot 3 c := Fin.ext ((by decide +kernel : ∀ c : Dev nD, k0_dev6 c = (c.val + 3) % 4) c)

/-! ## The memrefs and cells -/

abbrev xM : Memref sig .tc .vmem S1536x768 .f32 := Memref.whole cc0_stg0_0
abbrev oM : Memref sig .tc .vmem S1x768 .f32 := Memref.whole cc0_stg1_0
/-- The one-row buffer a device's part is stored in, and the landing buffer of three one-row slots. -/
abbrev partM : Memref sig .tc .vmem S1x768 .f32 := Memref.whole cc0_scratch0
abbrev commM : Memref sig .tc .vmem S3x1x768 .f32 := Memref.whole cc0_scratch1

abbrev slotR : (k : Fin 3) → Rect S3x1x768
  | 0 => Rect.unit (s := S3x1x768) ![0, 0, 0] S1x1x768.size inb_S3x1x768_S1x1x768_0_0_0
  | 1 => Rect.unit (s := S3x1x768) ![1, 0, 0] S1x1x768.size inb_S3x1x768_S1x1x768_1_0_0
  | 2 => Rect.unit (s := S3x1x768) ![2, 0, 0] S1x1x768.size inb_S3x1x768_S1x1x768_2_0_0

/-- Slot `k` of the landing buffer, as the kernel's copies and waits name it. -/
abbrev slotM : Fin 3 → Memref sig .tc .vmem S1x768 .f32
  | 0 => (commM.slice (Rect.unit (s := S3x1x768) ![0, 0, 0] S1x1x768.size inb_S3x1x768_S1x1x768_0_0_0) (fun _ => rfl)).squeeze S1x768 squeezes_S1x1x768_S1x768
  | 1 => (commM.slice (Rect.unit (s := S3x1x768) ![1, 0, 0] S1x1x768.size inb_S3x1x768_S1x1x768_1_0_0) (fun _ => rfl)).squeeze S1x768 squeezes_S1x1x768_S1x768
  | 2 => (commM.slice (Rect.unit (s := S3x1x768) ![2, 0, 0] S1x1x768.size inb_S3x1x768_S1x1x768_2_0_0) (fun _ => rfl)).squeeze S1x768 squeezes_S1x1x768_S1x768

abbrev sendSem : Fin 3 → DmaSem sig
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem
abbrev recvSem : Fin 3 → DmaSem sig
  | 0 => ((cc0_scratch3.slice (Rect.unit (s := S3) ![0] S1.size inb_S3_S1_0)).squeeze S_ squeezes_S1_S_).sem
  | 1 => ((cc0_scratch3.slice (Rect.unit (s := S3) ![1] S1.size inb_S3_S1_1)).squeeze S_ squeezes_S1_S_).sem
  | 2 => ((cc0_scratch3.slice (Rect.unit (s := S3) ![2] S1.size inb_S3_S1_2)).squeeze S_ squeezes_S1_S_).sem
/-- The runtime's barrier semaphore of collective id 0. -/
abbrev barS : Sem sig := (SemArray.scalar (sig.barrier 0 rfl) : Sems sig S_).sem

theorem sendSem_val : ∀ k : Fin 3, (sendSem k).val = 2 + k.val := by decide
theorem recvSem_val : ∀ k : Fin 3, (recvSem k).val = 5 + k.val := by decide

abbrev barCell (c : Dev nD) : GSem nD τ sig := ((c : Thread nD τ), .reg barS)
abbrev sendCell (c : Dev nD) (k : Fin 3) : GSem nD τ sig := ((c : Thread nD τ), .dma (sendSem k))
abbrev recvCell (c : Dev nD) (k : Fin 3) : GSem nD τ sig := ((c : Thread nD τ), .dma (recvSem k))

/-- The kernel's own (scoped) semaphores as the launch indexes them: the three send, then the three receive; -/
abbrev osem : Fin 6 → SemLoc sig := fun | 0 => .dma (sendSem 0) | 1 => .dma (sendSem 1) | 2 => .dma (sendSem 2) | 3 => .dma (recvSem 0) | 4 => .dma (recvSem 1) | 5 => .dma (recvSem 2)
/-- all seven of the protocol's: the barrier first. -/
abbrev csem : Fin 7 → SemLoc sig := fun | 0 => .reg barS | 1 => .dma (sendSem 0) | 2 => .dma (sendSem 1) | 3 => .dma (sendSem 2) | 4 => .dma (recvSem 0) | 5 => .dma (recvSem 1) | 6 => .dma (recvSem 2)
abbrev kcell (ck : Dev nD × Fin 7) : GSem nD τ sig := ((ck.1 : Thread nD τ), csem ck.2)
/-- Where a send cell and a receive cell sit among the seven. -/
abbrev sIx (k : Fin 3) : Fin 7 := ⟨1 + k.val, by omega⟩
abbrev rIx (k : Fin 3) : Fin 7 := ⟨4 + k.val, by omega⟩
theorem csem_sIx : ∀ k : Fin 3, csem (sIx k) = .dma (sendSem k) := by decide
theorem csem_rIx : ∀ k : Fin 3, csem (rIx k) = .dma (recvSem k) := by decide

/-- A row's credit: the amount of every copy. -/
abbrev N : ℕ := (partM : Memref sig .tc .vmem S1x768 .f32).view.dmaCredit
theorem N_pos : 0 < N := View.dmaCredit_pos _ (by decide)
theorem slot_credit : ∀ k : Fin 3, (slotM k).view.dmaCredit = N := by decide

theorem send_ne_bar (k : Fin 3) : (SemLoc.dma (sendSem k) : SemLoc sig) ≠ .reg barS := fun h => by cases h
theorem recv_ne_bar (k : Fin 3) : (SemLoc.dma (recvSem k) : SemLoc sig) ≠ .reg barS := fun h => by cases h
theorem send_ne_recv : ∀ k k' : Fin 3, (SemLoc.dma (sendSem k) : SemLoc sig) ≠ .dma (recvSem k') := by decide
theorem send_inj : ∀ k k' : Fin 3, (SemLoc.dma (sendSem k) : SemLoc sig) = .dma (sendSem k') → k = k' := by decide
theorem recv_inj : ∀ k k' : Fin 3, (SemLoc.dma (recvSem k) : SemLoc sig) = .dma (recvSem k') → k = k' := by decide

/-! ## Contents -/

/-- Device `c`'s block of rows, as staged for the kernel. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s part: the column sums of its block. -/
def partVal (c : Dev nD) : (cc0_scratch0 : Ref sig .tc).ty.Contents (Elt F) := k0_pay1 (xstg m ρ c)

/-- Row 0, column `j`. -/
def rowIx (j : Fin 768) : S1x768.Idx := fun a => match a with
  | ⟨0, _⟩ => ⟨0, Nat.zero_lt_one⟩
  | ⟨1, _⟩ => j

/-- Device `c`'s landing buffer once the three copies addressed to it have landed: slot `k` holds the part of the
    device `3 - k` places on (the one whose copy `k + 1` places on arrives here). -/
def landed (c : Dev nD) : (cc0_scratch1 : Ref sig .tc).ty.Contents (Elt F) :=
  fun i => partVal m ρ (rot (3 - (i 0).val) c) (rowIx ⟨(i 2).val, (i 2).isLt⟩)

abbrev partLoc (c : Dev nD) : Loc nD τ sig := (c : Thread nD τ).loc cc0_scratch0
abbrev commLoc (c : Dev nD) : Loc nD τ sig := (c : Thread nD τ).loc cc0_scratch1

/-- The elements of slot `k` in the landing buffer. -/
abbrev slotSet (c : Dev nD) : (k : Fin 3) → Finset (Idx (commLoc c))
  | 0 => (slotM 0).view.set
  | 1 => (slotM 1).view.set
  | 2 => (slotM 2).view.set

/-- Slot `k` of `c`'s landing buffer at contents `f`; `c`'s part buffer at share `q`. -/
def slotPts (c : Dev nD) (k : Fin 3) (f : Buf (Elt F) (commLoc c)) : sProp 𝕄 := commLoc c ↦[slotSet c k]{fullShare} f
def partPts (c : Dev nD) (q : PosShare TreeShare) : sProp 𝕄 := partLoc c ↦[(partM : Memref sig .tc .vmem S1x768 .f32).view.set]{q} partVal m ρ c

omit [FloatOps F] in
instance slotPts_storable (c : Dev nD) (k : Fin 3) (f) : BI.Storable (upEmb : UEmb _ 𝕄) (slotPts (F := F) c k f) := by unfold slotPts; infer_instance
instance partPts_storable (c : Dev nD) (q) : BI.Storable (upEmb : UEmb _ 𝕄) (partPts (F := F) m ρ c q) := by unfold partPts; infer_instance

/-- The read share of the part buffer lent to the copy into slot `k`, and the share kept for the kernel's own load. -/
abbrev tokQ (k : Fin 3) : PosShare TreeShare := Transfers.shareTok fullShare 3 k
abbrev keepQ : PosShare TreeShare := Transfers.shareDrop fullShare 3

/-! ## The schedule -/

/-- What the signal that pays duty `j` of `x`'s barrier cell hands `x`: the payer — the device `3 - j` places on —
    gives up slot `2 - j` of its landing buffer, the one `x` fills, and says it is at round 0 of that slot's receive cell. -/
def barPay (x : Dev nD) (j : Fin 3) : sProp 𝕄 :=
  iprop((∃ f, slotPts (rot (3 - j.val) x) j.rev f) ∗ reached ER (recvCell (rot (3 - j.val) x) j.rev) 0)
/-- A landing in slot `k` hands the slot back filled; a send completed hands back the read share it borrowed. -/
def recvPay (c : Dev nD) (k : Fin 3) : sProp 𝕄 := slotPts c k (landed m ρ c)
def sendPay (c : Dev nD) (k : Fin 3) : sProp 𝕄 := partPts m ρ c (tokQ k)

abbrev xferSems : List (SemLoc sig) := [.dma (sendSem 0), .dma (sendSem 1), .dma (sendSem 2), .dma (recvSem 0), .dma (recvSem 1), .dma (recvSem 2)]
abbrev IsBar (g : GSem nD τ sig) : Prop := g.1.2 = .tc ∧ g.2 = .reg barS
abbrev IsXfer (g : GSem nD τ sig) : Prop := g.1.2 = .tc ∧ g.2 ∈ xferSems

/-- One round: a barrier cell has three duties of one unit each; a send or receive cell the duty `0` of a row's credit. -/
def sched : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else if g.2 = .dma (recvSem 0) then recvPay m ρ g.1.1 0
    else if g.2 = .dma (recvSem 1) then recvPay m ρ g.1.1 1
    else if g.2 = .dma (recvSem 2) then recvPay m ρ g.1.1 2
    else if g.2 = .dma (sendSem 0) then sendPay m ρ g.1.1 0
    else if g.2 = .dma (sendSem 1) then sendPay m ρ g.1.1 1
    else if g.2 = .dma (sendSem 2) then sendPay m ρ g.1.1 2
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m ρ).payload g r d) := by
  show BI.Storable upEmb (if g.2 = .reg barS then barPay g.1.1 d
    else if g.2 = .dma (recvSem 0) then recvPay m ρ g.1.1 0
    else if g.2 = .dma (recvSem 1) then recvPay m ρ g.1.1 1
    else if g.2 = .dma (recvSem 2) then recvPay m ρ g.1.1 2
    else if g.2 = .dma (sendSem 0) then sendPay m ρ g.1.1 0
    else if g.2 = .dma (sendSem 1) then sendPay m ρ g.1.1 1
    else if g.2 = .dma (sendSem 2) then sendPay m ρ g.1.1 2
    else iprop(emp))
  unfold barPay recvPay sendPay
  (repeat' split) <;> infer_instance

/-! ## The schedule's tables, cell by cell -/

section Tables
variable (c : Dev nD)

theorem bigSep_fin3 (Φ : Fin 3 → sProp 𝕄) : bigSep Finset.univ Φ = iprop(Φ 0 ∗ Φ 1 ∗ Φ 2) := bigSep_univ_eq_bigSepL [0, 1, 2] (by decide) (by decide) Φ

theorem send_mem : ∀ k : Fin 3, (SemLoc.dma (sendSem k) : SemLoc sig) ∈ xferSems := by decide
theorem recv_mem : ∀ k : Fin 3, (SemLoc.dma (recvSem k) : SemLoc sig) ∈ xferSems := by decide
theorem not_bar_send (k : Fin 3) : ¬ IsBar (sendCell c k) := fun h => send_ne_bar k h.2
theorem not_bar_recv (k : Fin 3) : ¬ IsBar (recvCell c k) := fun h => recv_ne_bar k h.2

theorem duties_bar : (sched (F := F) m ρ).duties (barCell c) 0 = Finset.univ := by dsimp only [sched]; exact if_pos ⟨rfl, rfl, rfl⟩
theorem duties_send (k : Fin 3) : (sched (F := F) m ρ).duties (sendCell c k) 0 = {0} := by
  dsimp only [sched]; rw [if_neg (fun h => not_bar_send c k h.2)]; exact if_pos ⟨rfl, rfl, send_mem k⟩
theorem duties_recv (k : Fin 3) : (sched (F := F) m ρ).duties (recvCell c k) 0 = {0} := by
  dsimp only [sched]; rw [if_neg (fun h => not_bar_recv c k h.2)]; exact if_pos ⟨rfl, rfl, recv_mem k⟩
theorem duties_later (g : GSem nD τ sig) : ∀ r, 1 ≤ r → (sched (F := F) m ρ).duties g r = ∅ :=
  fun r hr => by dsimp only [sched]; rw [if_neg fun h => by omega, if_neg fun h => by omega]

theorem amount_bar (d : Fin 3) : (sched (F := F) m ρ).amount (barCell c) 0 d = 1 := by dsimp only [sched]; exact if_pos rfl
theorem amount_send (k : Fin 3) (d : Fin 3) : (sched (F := F) m ρ).amount (sendCell c k) 0 d = N := by dsimp only [sched]; exact if_neg (send_ne_bar k)
theorem amount_recv (k : Fin 3) (d : Fin 3) : (sched (F := F) m ρ).amount (recvCell c k) 0 d = N := by dsimp only [sched]; exact if_neg (recv_ne_bar k)

theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (k : Fin 3) : (sched (F := F) m ρ).expect (sendCell c k) 0 = N := by
  unfold Schedule.expect Schedule.amountOf; rw [duties_send, Finset.sum_singleton, amount_send]
theorem expect_recv (k : Fin 3) : (sched (F := F) m ρ).expect (recvCell c k) 0 = N := by
  unfold Schedule.expect Schedule.amountOf; rw [duties_recv, Finset.sum_singleton, amount_recv]

theorem payload_bar (d : Fin 3) : (sched (F := F) m ρ).payload (barCell c) 0 d = barPay c d := by dsimp only [sched]; rw [if_pos rfl]
theorem payload_recv : ∀ (k : Fin 3) (d : Fin 3), (sched (F := F) m ρ).payload (recvCell c k) 0 d = recvPay m ρ c k
  | 0, _ => by dsimp only [sched]; rw [if_neg (recv_ne_bar 0), if_pos rfl]
  | 1, _ => by dsimp only [sched]; rw [if_neg (recv_ne_bar 1), if_neg (by decide), if_pos rfl]
  | 2, _ => by dsimp only [sched]; rw [if_neg (recv_ne_bar 2), if_neg (by decide), if_neg (by decide), if_pos rfl]
theorem payload_send : ∀ (k : Fin 3) (d : Fin 3), (sched (F := F) m ρ).payload (sendCell c k) 0 d = sendPay m ρ c k
  | 0, _ => by dsimp only [sched]; rw [if_neg (send_ne_bar 0), if_neg (by decide), if_neg (by decide), if_neg (by decide), if_pos rfl]
  | 1, _ => by dsimp only [sched]; rw [if_neg (send_ne_bar 1), if_neg (by decide), if_neg (by decide), if_neg (by decide), if_neg (by decide), if_pos rfl]
  | 2, _ => by dsimp only [sched]; rw [if_neg (send_ne_bar 2), if_neg (by decide), if_neg (by decide), if_neg (by decide), if_neg (by decide), if_neg (by decide), if_pos rfl]

/-- The whole of the barrier cell's round, nothing taken yet: the three peers' slots. -/
theorem rest_bar : bigSep ((sched (F := F) m ρ).duties (barCell c) 0 \ ∅) (fun d => (sched (F := F) m ρ).payload (barCell c) 0 d)
    = iprop(barPay c 0 ∗ barPay c 1 ∗ barPay c 2) := by
  rw [Finset.sdiff_empty, duties_bar, bigSep_fin3, payload_bar, payload_bar, payload_bar]
theorem rest_send (k : Fin 3) : bigSep ((sched (F := F) m ρ).duties (sendCell c k) 0 \ ∅) (fun d => (sched (F := F) m ρ).payload (sendCell c k) 0 d) = sendPay m ρ c k := by
  rw [Finset.sdiff_empty, duties_send, bigSep_singleton, payload_send]
theorem rest_recv (k : Fin 3) : bigSep ((sched (F := F) m ρ).duties (recvCell c k) 0 \ ∅) (fun d => (sched (F := F) m ρ).payload (recvCell c k) 0 d) = recvPay m ρ c k := by
  rw [Finset.sdiff_empty, duties_recv, bigSep_singleton, payload_recv]

end Tables

/-! ## What each device owes at launch; the levels -/

/-- What device `c` still owes, latest first: the copy into slot 2 (three places on); before it the copy into slot 0 (one
    place on); before it the copy into slot 1 (two places on) — all three are owed at the barrier wait —; before them the
    three signals, to the devices three, two and one places on. Each step of the body peels the last summand. -/
def O₁ (c : Dev nD) : CellTallies nD τ sig Unit := tallyAt (recvCell (rot 3 c) 2) () N
def O₂ (c : Dev nD) : CellTallies nD τ sig Unit := O₁ c + tallyAt (recvCell (rot 1 c) 0) () N
def O₃ (c : Dev nD) : CellTallies nD τ sig Unit := O₂ c + tallyAt (recvCell (rot 2 c) 1) () N
def O₄ (c : Dev nD) : CellTallies nD τ sig Unit := O₃ c + tallyAt (barCell (rot 3 c)) () 1
def O₅ (c : Dev nD) : CellTallies nD τ sig Unit := O₄ c + tallyAt (barCell (rot 2 c)) () 1
def O₀ (c : Dev nD) : CellTallies nD τ sig Unit := O₅ c + tallyAt (barCell (rot 1 c)) () 1

abbrev recvSems : List (SemLoc sig) := [.dma (recvSem 0), .dma (recvSem 1), .dma (recvSem 2)]
theorem recv_mem' : ∀ k : Fin 3, (SemLoc.dma (recvSem k) : SemLoc sig) ∈ recvSems := by decide
theorem bar_not_recv : (SemLoc.reg barS : SemLoc sig) ∉ recvSems := by decide

def L (g : GSem nD τ sig) : Finset Unit := if g.1.2 = .tc then {()} else ∅
/-- Barrier cells at 1, receive cells at 2, everything else (staging, send) at 0: a device waits on its barrier while it
    owes three landings, and on staging, send and receive cells only while it owes nothing above them. -/
def lv (g : GSem nD τ sig) (_ : Unit) : ℕ := if g.2 = .reg barS then 1 else if g.2 ∈ recvSems then 2 else 0

theorem L_of_ne (g : GSem nD τ sig) (h : g.1.2 ≠ .tc) : L g = ∅ := if_neg h
theorem L_tc (c : Dev nD) (sm : SemLoc sig) : L ((c : Thread nD τ), sm) = {()} := if_pos rfl
theorem mem_L_of_tc {g : GSem nD τ sig} (h : g.1.2 = .tc) (u : Unit) : u ∈ L g := by unfold L; rw [if_pos h]; exact Finset.mem_singleton_self _

/-- Where `O₃` is positive: on a TensorCore's receive cell. -/
theorem O₃_pos {c : Dev nD} {g : GSem nD τ sig} {u : Unit} (h : 0 < O₃ c g u) : g.1.2 = .tc ∧ ∃ k : Fin 3, g.2 = .dma (recvSem k) := by
  unfold O₃ O₂ O₁ at h
  rcases Pipeline.add_pos_cases h with h | h
  · rcases Pipeline.add_pos_cases h with h | h
    · obtain ⟨rfl, -⟩ := Pipeline.tallyAt_pos h; exact ⟨rfl, 2, rfl⟩
    · obtain ⟨rfl, -⟩ := Pipeline.tallyAt_pos h; exact ⟨rfl, 0, rfl⟩
  · obtain ⟨rfl, -⟩ := Pipeline.tallyAt_pos h; exact ⟨rfl, 1, rfl⟩

/-- Where `O₀` is positive: on a TensorCore's barrier or receive cell. -/
theorem O₀_pos {c : Dev nD} {g : GSem nD τ sig} {u : Unit} (h : 0 < O₀ c g u) :
    g.1.2 = .tc ∧ (g.2 = .reg barS ∨ ∃ k : Fin 3, g.2 = .dma (recvSem k)) := by
  unfold O₀ O₅ O₄ at h
  rcases Pipeline.add_pos_cases h with h | h
  · rcases Pipeline.add_pos_cases h with h | h
    · rcases Pipeline.add_pos_cases h with h | h
      · obtain ⟨h1, h2⟩ := O₃_pos h; exact ⟨h1, .inr h2⟩
      · obtain ⟨rfl, -⟩ := Pipeline.tallyAt_pos h; exact ⟨rfl, .inl rfl⟩
    · obtain ⟨rfl, -⟩ := Pipeline.tallyAt_pos h; exact ⟨rfl, .inl rfl⟩
  · obtain ⟨rfl, -⟩ := Pipeline.tallyAt_pos h; exact ⟨rfl, .inl rfl⟩

/-- A wait on a cell of level 0 (a staging or send cell), whatever of `O₀` is still owed. -/
theorem mayWait_low (c : Dev nD) (q : DmaSem sig) (hq : (SemLoc.dma q : SemLoc sig) ∉ recvSems) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    obtain ⟨h1, h2⟩ := O₀_pos hg
    refine ⟨mem_L_of_tc h1 i, ?_⟩
    have h0 : lv ((c : Thread nD τ), SemLoc.dma q) () = 0 := by
      unfold lv; rw [if_neg (fun h => by cases h), if_neg hq]
    rw [h0]
    rcases h2 with h2 | ⟨k, h2⟩
    · unfold lv; rw [if_pos h2]; decide
    · unfold lv; rw [h2, if_neg (recv_ne_bar k), if_pos (recv_mem' k)]; decide
  · rw [MayWait_zero]; iintro -; iempintro

/-- At its barrier wait a device owes the three landings only: receive cells, above its barrier cell. -/
theorem mayWait_bar (c : Dev nD) : (levAts L lv : sProp 𝕄) ⊢ MayWait (c : Thread nD τ) (.reg barS) () (O₃ c) := by
  refine Pipeline.mayWait_of_levAts (by rw [L_tc]; exact Finset.mem_singleton_self _) fun g i hg => ?_
  obtain ⟨h1, k, h2⟩ := O₃_pos hg
  refine ⟨mem_L_of_tc h1 i, ?_⟩
  have h0 : lv ((c : Thread nD τ), SemLoc.reg barS) () = 1 := by unfold lv; rw [if_pos rfl]
  rw [h0]
  unfold lv; rw [h2, if_neg (recv_ne_bar k), if_pos (recv_mem' k)]; decide

end Cert.KernelIdeal.Coll

end
-- ==== Proof.KernelIdeal.Data.lean ====
import proofs.«901080_g7700000000001081_dist_sum_ax0_shard0_i_m1536_n768_v7x_i4_f32_1_alg».proof.Proof.KernelIdeal.Proto

/-!
# What a device holds: the protocol's ghost state, the pipeline's proof data, the body's pre- and postcondition

A device opens thirteen cells' invariants — its own seven, its three peers' barrier cells and the three receive cells its
copies land on —, stands at round 0 of its own seven cells, and pays nine duties: a unit on each peer's barrier cell,
a row's credit on each peer's receive cell it copies onto, and a row's credit on each of its own send cells.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## The persistent part: every cell's invariant under the names the launch allocated, and round 0 of every cell reached -/

def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) : records m ρ K ⊢ cellInv ER (sched m ρ) (K ck) (kcell ck) := by
  unfold records; iintro ⟨HI, -⟩
  iapply (show (bigSep Finset.univ fun ck : Dev nD × Fin 7 => (cellInv ER (sched m ρ) (K ck) (kcell ck) : sProp 𝕄)) ⊢ cellInv ER (sched m ρ) (K ck) (kcell ck)
    from bigSep_elim (Finset.mem_univ ck))
  iexact HI
theorem reached_at (K : Dev nD × Fin 7 → ℕ) (ck : Dev nD × Fin 7) : records m ρ K ⊢ reached ER (kcell ck) 0 := by
  unfold records; iintro ⟨-, HR⟩
  iapply (show (bigSep Finset.univ fun ck : Dev nD × Fin 7 => (reached ER (kcell ck) 0 : sProp 𝕄)) ⊢ reached ER (kcell ck) 0
    from bigSep_elim (Finset.mem_univ ck))
  iexact HR

/-! ## The linear part -/

/-- The tokens of the nine duties device `c` pays. -/
def payToks (c : Dev nD) : sProp 𝕄 :=
  iprop(dutyTok ER (barCell (rot 1 c)) 0 0 ∗ dutyTok ER (barCell (rot 2 c)) 0 1 ∗ dutyTok ER (barCell (rot 3 c)) 0 2
    ∗ dutyTok ER (recvCell (rot 1 c) 0) 0 0 ∗ dutyTok ER (recvCell (rot 2 c) 1) 0 0 ∗ dutyTok ER (recvCell (rot 3 c) 2) 0 0
    ∗ dutyTok ER (sendCell c 0) 0 0 ∗ dutyTok ER (sendCell c 1) 0 0 ∗ dutyTok ER (sendCell c 2) 0 0)

/-- Its positions, at the start of round 0 of its own seven cells, and those tokens. -/
def linear (c : Dev nD) : sProp 𝕄 :=
  iprop((bigSep Finset.univ fun k : Fin 7 => atPos ER (kcell (c, k)) 0 ∅ 0) ∗ payToks c)

def ghost (K : Dev nD × Fin 7 → ℕ) (c : Dev nD) : sProp 𝕄 := iprop(records m ρ K ∗ linear c)

/-- The credit a device waits with: its barrier's three units and a row's credit on each receive cell. -/
def waitCred (c : Dev nD) : sProp 𝕄 :=
  iprop(cred (tallyAt (barCell c) () 3) ∗ cred (tallyAt (recvCell c 0) () N) ∗ cred (tallyAt (recvCell c 1) () N) ∗ cred (tallyAt (recvCell c 2) () N))

/-- What device `c`'s body starts from, beside its buffers. -/
def start (c : Dev nD) : sProp 𝕄 := iprop((∃ K, ghost m ρ K c) ∗ waitCred c ∗ levAts L lv)

/-- The two scratch buffers, whole, at some contents. -/
def scratch (c : Dev nD) : sProp 𝕄 :=
  iprop((∃ f : Buf (Elt F) (partLoc c), partLoc c ↦{fullShare} f) ∗ (∃ f : Buf (Elt F) (commLoc c), commLoc c ↦{fullShare} f))

/-- The six own semaphores back at zero. -/
def semsZero (c : Dev nD) : sProp 𝕄 :=
  iprop(semVal (sendCell c 0) 0 ∗ semVal (sendCell c 1) 0 ∗ semVal (sendCell c 2) 0 ∗ semVal (recvCell c 0) 0 ∗ semVal (recvCell c 1) 0 ∗ semVal (recvCell c 2) 0)

def Φ₀ (c : Dev nD) : sProp 𝕄 := iprop(start m ρ c ∗ scratch c)
def Φ₁ (c : Dev nD) : sProp 𝕄 := iprop(scratch (F := F) c ∗ semsZero c)

/-! ## The values -/

abbrev r1 : Rect S1x768 := Rect.unit (s := S1x768) ![0, 0] S1x768.size inb_S1x768_S1x768_0_0
abbrev rX : Rect S1536x768 := Rect.unit (s := S1536x768) ![0, 0] S1536x768.size inb_S1536x768_S1536x768_0_0

/-- The kernel's result on device `c`: its own part plus the three parts that landed, slot 0, then slot 2, then slot 1. -/
def outAt (c : Dev nD) : (cc0_stg1_0 : Ref sig .tc).ty.Contents (Elt F) :=
  k0_pay3 (k0_pay2 (partVal m ρ c)
      ((commM : Memref sig .tc .vmem S3x1x768 .f32).view.readAt (Elt F) (slotR 0).toLoadRect (landed m ρ c))
      ((commM : Memref sig .tc .vmem S3x1x768 .f32).view.readAt (Elt F) (slotR 2).toLoadRect (landed m ρ c)))
    ((commM : Memref sig .tc .vmem S3x1x768 .f32).view.readAt (Elt F) (slotR 1).toLoadRect (landed m ρ c))

/-! ## The pipeline's proof data: one grid point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 7 → ℕ) (c : Dev nD) : sProp 𝕄 :=
  iprop((ghost m ρ K c ∗ waitCred c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

/-- The kernel body as the pipeline calls it at the one grid point. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3

/-! ## What the run ends with -/

/-- Each window's array on device `c` after the one grid point. -/
def finalA (c : Dev nD) (w : Fin cfg0.W) : Buf (Elt F) ((cfg0.win w).arr.view.loc (c : Thread nD τ)) := (dats m ρ 0 c).arrAt w cfg0.N

/-- Every device's arrays are those. -/
def QC : PUnit × MemSt nD τ sig (Elt F) → Prop := fun r =>
  ∀ c : Dev nD, ∀ w : Fin cfg0.W, r.2.mem ((cfg0.win w).arr.view.loc (c : Thread nD τ)) = finalA m ρ c w

end Cert.KernelIdeal.Coll

end
-- ==== Proof.KernelIdeal.Launch.lean ====
import proofs.«901080_g7700000000001081_dist_sum_ax0_shard0_i_m1536_n768_v7x_i4_f32_1_alg».proof.Proof.KernelIdeal.Data
import proofs.«901080_g7700000000001081_dist_sum_ax0_shard0_i_m1536_n768_v7x_i4_f32_1_alg».proof.Proof.Gen.KernelIdeal.Frame

/-!
# The launch: from every device's body to the run of the program

The protocol's ghost state is allocated for all four devices under one update — a barrier cell's invariant is shared by
the device that waits on it and the three that signal it —, each device is dealt the tokens of the duties it pays and the
credit of the duties paid to it, and the one-region launch theorem turns the four bodies into the run.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

/-- The seven semaphores of the protocol are pairwise distinct, -/
theorem csem_inj : ∀ k k' : Fin 7, csem k = csem k' → k = k' := by decide

/-- so the twenty-eight cells are. -/
theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_inj k k' h2
  subst this; rfl
def allCells : Finset (GSem nD τ sig) := Finset.univ.map ⟨kcell, kcell_injective⟩

/-- The nine duties on a device's own cells — semaphore and duty name —: its barrier's three, then duty 0 of its three
    receive cells, then duty 0 of its three send cells. -/
abbrev tsem : Fin 9 → SemLoc sig × Fin 3 := fun
  | 0 => (.reg barS, 0) | 1 => (.reg barS, 1) | 2 => (.reg barS, 2)
  | 3 => (.dma (recvSem 0), 0) | 4 => (.dma (recvSem 1), 0) | 5 => (.dma (recvSem 2), 0)
  | 6 => (.dma (sendSem 0), 0) | 7 => (.dma (sendSem 1), 0) | 8 => (.dma (sendSem 2), 0)
theorem tsem_inj : ∀ j j' : Fin 9, tsem j = tsem j' → j = j' := by decide

/-- A device's own cells' duty tokens as minted: (device, which of the nine). -/
abbrev tokOf (cj : Dev nD × Fin 9) : GSem nD τ sig × ℕ × Fin 3 := (((cj.1 : Thread nD τ), (tsem cj.2).1), 0, (tsem cj.2).2)
theorem tokOf_injective : Function.Injective (tokOf : Dev nD × Fin 9 → GSem nD τ sig × ℕ × Fin 3) := by
  rintro ⟨c, j⟩ ⟨c', j'⟩ h
  have h1 : c = c' := by have := congrArg (fun x : GSem nD τ sig × ℕ × Fin 3 => x.1.1.1) h; exact this
  subst h1
  have h2 : (tsem j).1 = (tsem j').1 := congrArg (fun x : GSem nD τ sig × ℕ × Fin 3 => x.1.2) h
  have h3 : (tsem j).2 = (tsem j').2 := congrArg (fun x : GSem nD τ sig × ℕ × Fin 3 => x.2.2) h
  have : j = j' := tsem_inj j j' (Prod.ext h2 h3)
  subst this; rfl
def allToks : Finset (GSem nD τ sig × ℕ × Fin 3) := Finset.univ.map ⟨tokOf, tokOf_injective⟩

/-- The launch element: the pipeline's cells and tokens in the first copy of the algebra, the protocol's in the second. -/
def u₀ : UU :=
  (initOf (Pipeline.cells cfgs cellOf_inj) (Pipeline.launchToks cfgs cellOf_inj), initOf allCells allToks)

/-- The duty tokens of device c's own cells. -/
def toks (c : Dev nD) : sProp 𝕄 :=
  iprop(dutyTok ER (barCell c) 0 0 ∗ dutyTok ER (barCell c) 0 1 ∗ dutyTok ER (barCell c) 0 2
    ∗ dutyTok ER (recvCell c 0) 0 0 ∗ dutyTok ER (recvCell c 1) 0 0 ∗ dutyTok ER (recvCell c 2) 0 0
    ∗ dutyTok ER (sendCell c 0) 0 0 ∗ dutyTok ER (sendCell c 1) 0 0 ∗ dutyTok ER (sendCell c 2) 0 0)

/-- What the launch element deals device c: the round state of its seven cells at counter zero, its position at the
    start of round 0 of each and that round reached, and the tokens of its own cells' duties. -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ toks c)

/-- What the global step makes of it: the device's ghost state under some names of the invariants. -/
def G' (c : Dev nD) : sProp 𝕄 := iprop(∃ K, ghost m ρ K c)

theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The protocol's launch element, device by device. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin9]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The three send and the three receive semaphores are the kernel's own six; -/
theorem ownSems0_eq (c : Dev nD) : (Pipeline.ownSems0 (Ix := Unit) (Name := ℕ) (U := UU) (Lvl := ℕ) (Val := Elt F) (τ := τ) osem c : sProp 𝕄)
    = semsZero c := by
  rw [Pipeline.ownSems0_eq_of_list c osem [0, 1, 2, 3, 4, 5] (by decide) (by decide)]; rfl
/-- the barrier semaphore the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  unfold semsZero
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

/-- One device's seven invariants allocated, from its seven counters at zero and what it was dealt. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k : Fin 7 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 7 → ℕ) (c : Dev nD) : iprop(records m ρ K ∗ linear c) ⊢ G' m ρ c := by
  unfold G' ghost
  iintro H
  iexists K
  iexact H

/-- The tokens dealt round the ring: duty j of a barrier cell goes to the device j + 1 places before the cell's, duty 0
    of receive cell k to the device k + 1 places before; a send cell's stays. -/
theorem toks_around : (bigSep Finset.univ fun c : Dev nD => (toks c : sProp 𝕄)) ⊢ bigSep Finset.univ fun c : Dev nD => payToks c := by
  unfold toks payToks
  simp only [bigSep_sep']
  rw [bigSep_univ_equiv (rotE 1 3 rfl) (fun c : Dev nD => (dutyTok ER (barCell c) 0 0 : sProp 𝕄)),
    bigSep_univ_equiv (rotE 2 2 rfl) (fun c : Dev nD => (dutyTok ER (barCell c) 0 1 : sProp 𝕄)),
    bigSep_univ_equiv (rotE 3 1 rfl) (fun c : Dev nD => (dutyTok ER (barCell c) 0 2 : sProp 𝕄)),
    bigSep_univ_equiv (rotE 1 3 rfl) (fun c : Dev nD => (dutyTok ER (recvCell c 0) 0 0 : sProp 𝕄)),
    bigSep_univ_equiv (rotE 2 2 rfl) (fun c : Dev nD => (dutyTok ER (recvCell c 1) 0 0 : sProp 𝕄)),
    bigSep_univ_equiv (rotE 3 1 rfl) (fun c : Dev nD => (dutyTok ER (recvCell c 2) 0 0 : sProp 𝕄))]
  iintro ⟨H1, H2, H3, H4, H5, H6, H7, H8, H9⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' allocations regrouped: the names chosen for all twenty-eight cells at once, the records made once and
    handed to every device with its positions and the tokens of the duties it pays. -/
theorem regroup :
    (bigSep Finset.univ fun c : Dev nD => iprop((bigSep Finset.univ fun k => iprop(∃ κ : ℕ, cellInv ER (sched m ρ) κ (kcell (c, k))))
          ∗ (bigSep Finset.univ fun k : Fin 7 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- The global step: the own and the barrier semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- Three units on one cell are one credit of three. -/
theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  iintro ⟨H1, H2, H3⟩
  iapply (cred_add _ _).2
  isplitl [H1]; · iexact H1
  iapply (cred_add _ _).2
  isplitl [H2] <;> iassumption

/-- What the devices owe at launch is, summed, each device's waits' credit: every summand of the six is one tally on a
    cell of the device some fixed number of places on, and going round the ring is a bijection. -/
theorem creds (c : Dev nD) : (Pipeline.launchCred O₀ c : sProp 𝕄) ⊢ waitCred c := by
  rw [show (O₀ : Dev nD → CellTallies nD τ sig Unit) = fun d => O₅ d + tallyAt (barCell (rot 1 d)) () 1 from rfl, Pipeline.launchCred_add,
    show (O₅ : Dev nD → CellTallies nD τ sig Unit) = fun d => O₄ d + tallyAt (barCell (rot 2 d)) () 1 from rfl, Pipeline.launchCred_add,
    show (O₄ : Dev nD → CellTallies nD τ sig Unit) = fun d => O₃ d + tallyAt (barCell (rot 3 d)) () 1 from rfl, Pipeline.launchCred_add,
    show (O₃ : Dev nD → CellTallies nD τ sig Unit) = fun d => O₂ d + tallyAt (recvCell (rot 2 d) 1) () N from rfl, Pipeline.launchCred_add,
    show (O₂ : Dev nD → CellTallies nD τ sig Unit) = fun d => O₁ d + tallyAt (recvCell (rot 1 d) 0) () N from rfl, Pipeline.launchCred_add,
    show (O₁ : Dev nD → CellTallies nD τ sig Unit) = fun d => tallyAt (recvCell (rot 3 d) 2) () N from rfl]
  iintro ⟨⟨⟨⟨⟨H2, H0⟩, H1⟩, B3⟩, B2⟩, B1⟩
  ihave C2 := (Pipeline.launchCred_tallyAt (.dma (recvSem 2)) (rot 3) (rot 1) (rot_inv 3 1 rfl) (rot_inv 1 3 rfl) () N c) $$ H2
  ihave C0 := (Pipeline.launchCred_tallyAt (.dma (recvSem 0)) (rot 1) (rot 3) (rot_inv 1 3 rfl) (rot_inv 3 1 rfl) () N c) $$ H0
  ihave C1 := (Pipeline.launchCred_tallyAt (.dma (recvSem 1)) (rot 2) (rot 2) (rot_inv 2 2 rfl) (rot_inv 2 2 rfl) () N c) $$ H1
  ihave D3 := (Pipeline.launchCred_tallyAt (.reg barS) (rot 3) (rot 1) (rot_inv 3 1 rfl) (rot_inv 1 3 rfl) () 1 c) $$ B3
  ihave D2 := (Pipeline.launchCred_tallyAt (.reg barS) (rot 2) (rot 2) (rot_inv 2 2 rfl) (rot_inv 2 2 rfl) () 1 c) $$ B2
  ihave D1 := (Pipeline.launchCred_tallyAt (.reg barS) (rot 1) (rot 3) (rot_inv 1 3 rfl) (rot_inv 3 1 rfl) () 1 c) $$ B1
  unfold waitCred
  isplitl [D1 D2 D3]
  · iapply (cred_three (F := F) (barCell c))
    isplitl [D1]; · iexact D1
    isplitl [D2] <;> iassumption
  isplitl [C0]; · iexact C0
  isplitl [C1] <;> iassumption

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

/-- The pipeline's own waits, on the two staging cells: level 0, below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ### The run -/

set_option maxRecDepth 8000 in
/-- At the compiled mesh of four devices, for any float values, from any memory with zero counters: if every device's
    body meets its obligation, every weakly fair execution of the program terminates, nothing faulting, and every final
    state has each device's arrays at the proof data's final contents. -/
theorem run_main_of (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Coll.run_main_of' depends on axioms: [propext, Classical.choice, Quot.sound] -/
#guard_msgs in #print axioms run_main_of

end Cert.KernelIdeal.Coll

end
-- ==== Proof.KernelIdeal.Final.lean ====
import proofs.«901080_g7700000000001081_dist_sum_ax0_shard0_i_m1536_n768_v7x_i4_f32_1_alg».proof.Proof.KernelIdeal.Launch

/-!
# The run, with the values named

After the one grid point the result's staging buffer is written back whole, so each device's result array ends at what
the body left in it, and the argument array, only ever read, ends as it began.
-/

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The argument array is a window that is only read: it ends as it began. -/
theorem finalA_arg (c : Dev nD) : finalA m ρ c (0 : Fin 2) = m ((c.tc : Thread nD τ).loc main_arg0) :=
  (dats (F := F) m ρ 0 c).arrAt_in (0 : Fin 2) rfl _

/-- The result array is written back whole at the one grid point, from what the body left in its staging buffer: the
    block is the whole array, so the write leaves exactly the payload. -/
theorem finalA_res (c : Dev nD) : finalA m ρ c (1 : Fin 2) = outAt m ρ c := by
  unfold finalA
  rw [show cfg0.N = (t₀ : Fin cfg0.N).val + 1 from cfg0_N, Dat.arrAt_succ, flush0_1 t₀, if_pos rfl]
  exact Memref.write_access_unit_zero_univ (Elt F) main_v1 (funext fun a => Nat.zero_mul _) _ _ _

/-- If every device's body meets its obligation, every weakly fair execution terminates, nothing faulting, with every
    device's result at the sum of the four parts as the body computes it and its argument unchanged. -/
theorem run_values (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)) :=
  (θ_run defs _ _).mono (fun r h c => ⟨(h c (1 : Fin 2)).trans (finalA_res m ρ c), (h c (0 : Fin 2)).trans (finalA_arg m ρ c)⟩)
    (run_main_of m ρ hbody)

/-- info: 'Cert.KernelIdeal.Coll.run_values' depends on axioms: [propext, Classical.choice, Quot.sound] -/
#guard_msgs in #print axioms run_values

end Cert.KernelIdeal.Coll

end
-- ==== Proof.KernelIdeal.Reads.lean ====
import proofs.«901080_g7700000000001081_dist_sum_ax0_shard0_i_m1536_n768_v7x_i4_f32_1_alg».proof.Proof.KernelIdeal.Proto
import Idealize.ShloMosaic.Lib.Pipeline.Value
import Idealize.ShloMosaic.Lib.ValueIdx
import Idealize.ShloMosaic.Lib.ValueLayout

/-!
# What the landing buffer holds, read index by index

A copy of a device's one-row part into slot `k` of a peer's three-slot landing buffer leaves, at every element of the
slot, the part's entry of the same column; a load of slot `k` reads that row back as a 1 x 1 x 768 vector.
-/

noncomputable section

namespace Cert.KernelIdeal.Coll

open Cert.KernelIdeal Cert.KernelIdeal.Gen
open Idealize.ShloMosaic
open Idealize.ShloMosaic.TcCoe
open Idealize.SL Idealize.SL.Sem
open Idealize.SL.RA Idealize.SL.BI
open scoped Idealize.SL.BI
open Idealize.SL.BI.BIBase Idealize.SL.BI.Laws Idealize.SL.ProofMode

variable {F : FTy → Type} [FloatOps F]

local notation "𝕄" => MT nD τ sig Unit (Elt F) ℕ UU ℕ
variable (m : (ℓ : Loc nD τ sig) → Buf (Elt F) ℓ) (ρ : Dev nD → PrngReg)

open Idealize.ShloMosaic.ValueIdx

/-! ## Where a slot's elements sit in the landing buffer -/

/-- Element `(0, j)` of the one-row view of the slot at offset `(o, 0, 0)` is element `(o, 0, j)` of the buffer:
    its slot coordinate is `o` and its column is `j`. -/
theorem slotIdx_val (o : ℕ) (inb : ∀ a, (![o, 0, 0] : Fin 3 → ℕ) a + S1x1x768.size a ≤ S3x1x768.size a)
    (h : S1x768.numel = (Rect.unit (s := S3x1x768) ![o, 0, 0] S1x1x768.size inb).shape.numel) (y : S1x768.Idx) :
    (((Rect.unit (s := S3x1x768) ![o, 0, 0] S1x1x768.size inb).emb (Shape.reshapeEquiv h y)) 0).val = o
      ∧ (((Rect.unit (s := S3x1x768) ![o, 0, 0] S1x1x768.size inb).emb (Shape.reshapeEquiv h y)) 2).val = (y 1).val := by
  obtain ⟨u, j, rfl⟩ : ∃ (u : Fin 1) (j : Fin 768), y = ix2 u j := ⟨y 0, y 1, eq_ix2 y⟩
  have hz : Shape.reshapeEquiv h (ix2 u j) = ix3 (⟨0, Nat.one_pos⟩ : Fin 1) u j := reshapeEquiv_ix2_1ab h u j
  rw [hz]
  constructor
  · show o + 1 * 0 = o
    omega
  · show 0 + 1 * j.val = j.val
    omega

/-- A one-row index is row 0 at its column. -/
theorem eq_rowIx (y : S1x768.Idx) : y = rowIx (y 1) := by
  funext a
  match a with
  | ⟨0, _⟩ => exact Fin.ext (by have h : (y 0).val < 1 := (y 0).isLt; show (y 0).val = 0; omega)
  | ⟨1, _⟩ => rfl

/-- A part read at equal devices and equal columns is the same entry. -/
theorem partVal_congr {c c' : Dev nD} {y : S1x768.Idx} {j : Fin 768} (hc : c' = c) (hj : j = y 1) :
    partVal m ρ c y = partVal m ρ c' (rowIx j) := by
  rw [hc, hj]; exact congrArg (partVal m ρ c) (eq_rowIx y)

/-! ## The slot coordinate of a slot's elements -/

/-- Every element of slot 0 of the landing buffer has slot coordinate 0. -/
theorem slot_coord_0 (c : Dev nD) : ∀ i ∈ slotSet c 0, (i 0).val = 0 := by
  intro i hi
  obtain ⟨y, rfl⟩ := View.exists_emb_of_mem_set (slotM 0).view (show i ∈ (slotM 0).view.set from hi)
  exact (slotIdx_val 0 _ squeezes_S1x1x768_S1x768.numel_eq y).1

/-- Every element of slot 1 of the landing buffer has slot coordinate 1. -/
theorem slot_coord_1 (c : Dev nD) : ∀ i ∈ slotSet c 1, (i 0).val = 1 := by
  intro i hi
  obtain ⟨y, rfl⟩ := View.exists_emb_of_mem_set (slotM 1).view (show i ∈ (slotM 1).view.set from hi)
  exact (slotIdx_val 1 _ squeezes_S1x1x768_S1x768.numel_eq y).1

/-- Every element of slot 2 of the landing buffer has slot coordinate 2: so the three slots share no element. -/
theorem slot_coord_2 (c : Dev nD) : ∀ i ∈ slotSet c 2, (i 0).val = 2 := by
  intro i hi
  obtain ⟨y, rfl⟩ := View.exists_emb_of_mem_set (slotM 2).view (show i ∈ (slotM 2).view.set from hi)
  exact (slotIdx_val 2 _ squeezes_S1x1x768_S1x768.numel_eq y).1

/-! ## What a load of a slot touches -/

/-- The elements a load of slot 0 reads — through the whole landing buffer, at the rectangle at offset `(0, 0, 0)` —
    are elements of slot 0 (they are all of them: the slot is that rectangle seen as one row). -/
theorem load_sub_0 (c : Dev nD) : (commM : Memref sig .tc .vmem S3x1x768 .f32).view.setOn (slotR 0).toLoadRect.set ⊆ slotSet c 0 := by
  have e : (slotM 0).view.set = (commM : Memref sig .tc .vmem S3x1x768 .f32).view.setOn (slotR 0).toLoadRect.set :=
    (View.set_reshape (v := (commM : Memref sig .tc .vmem S3x1x768 .f32).view.slice (slotR 0)) squeezes_S1x1x768_S1x768.numel_eq).trans
      (View.set_slice _ (slotR 0))
  intro i hi
  show i ∈ (slotM 0).view.set
  rw [e]; exact hi

/-- The elements a load of slot 1 reads, at offset `(1, 0, 0)`, are elements of slot 1. -/
theorem load_sub_1 (c : Dev nD) : (commM : Memref sig .tc .vmem S3x1x768 .f32).view.setOn (slotR 1).toLoadRect.set ⊆ slotSet c 1 := by
  have e : (slotM 1).view.set = (commM : Memref sig .tc .vmem S3x1x768 .f32).view.setOn (slotR 1).toLoadRect.set :=
    (View.set_reshape (v := (commM : Memref sig .tc .vmem S3x1x768 .f32).view.slice (slotR 1)) squeezes_S1x1x768_S1x768.numel_eq).trans
      (View.set_slice _ (slotR 1))
  intro i hi
  show i ∈ (slotM 1).view.set
  rw [e]; exact hi

/-- The elements a load of slot 2 reads, at offset `(2, 0, 0)`, are elements of slot 2. -/
theorem load_sub_2 (c : Dev nD) : (commM : Memref sig .tc .vmem S3x1x768 .f32).view.setOn (slotR 2).toLoadRect.set ⊆ slotSet c 2 := by
  have e : (slotM 2).view.set = (commM : Memref sig .tc .vmem S3x1x768 .f32).view.setOn (slotR 2).toLoadRect.set :=
    (View.set_reshape (v := (commM : Memref sig .tc .vmem S3x1x768 .f32).view.slice (slotR 2)) squeezes_S1x1x768_S1x768.numel_eq).trans
      (View.set_slice _ (slotR 2))
  intro i hi
  show i ∈ (slotM 2).view.set
  rw [e]; exact hi

/-! ## The landing buffer as its three slots and the rest; the part buffer as a kept share and three read tokens -/

/-- Slot 1 lies outside slot 0: their elements differ in the slot coordinate. -/
theorem slot1_sub (c : Dev nD) : slotSet c 1 ⊆ Finset.univ \ slotSet c 0 := fun i hi =>
  Finset.mem_sdiff.mpr ⟨Finset.mem_univ i, fun h0 => by
    have e0 := slot_coord_0 c i h0; have e1 := slot_coord_1 c i hi; omega⟩

/-- Slot 2 lies outside slots 0 and 1. -/
theorem slot2_sub (c : Dev nD) : slotSet c 2 ⊆ (Finset.univ \ slotSet c 0) \ slotSet c 1 := fun i hi =>
  Finset.mem_sdiff.mpr ⟨Finset.mem_sdiff.mpr ⟨Finset.mem_univ i, fun h0 => by
    have e0 := slot_coord_0 c i h0; have e2 := slot_coord_2 c i hi; omega⟩, fun h1 => by
    have e1 := slot_coord_1 c i h1; have e2 := slot_coord_2 c i hi; omega⟩

/-- The landing buffer's elements outside the three slots (there are none, but nothing here needs to know that). -/
def restSet (c : Dev nD) : Finset (Idx (commLoc c)) := ((Finset.univ \ slotSet c 0) \ slotSet c 1) \ slotSet c 2

/-- The whole landing buffer is its three slots and the rest: the slots are carved out one after the other. -/
theorem comm_split (c : Dev nD) (f : Buf (Elt F) (commLoc c)) :
    (commLoc c ↦{fullShare} f : sProp 𝕄) ⊢ iprop(slotPts c 0 f ∗ slotPts c 1 f ∗ slotPts c 2 f ∗ (commLoc c ↦[restSet c]{fullShare} f)) := by
  unfold slotPts restSet
  refine (pointsTo_split_subset (Finset.subset_univ (slotSet c 0))).1.trans (sep_mono_right ?_)
  refine (pointsTo_split_subset (slot1_sub c)).1.trans (sep_mono_right ?_)
  exact (pointsTo_split_subset (slot2_sub c)).1

/-- The three slots and the rest, each at whatever contents it has, are the whole landing buffer at some contents:
    the slots are put back one after the other, the contents joined piece by piece. -/
theorem comm_join (c : Dev nD) (f0 f1 f2 fr : Buf (Elt F) (commLoc c)) :
    iprop(slotPts c 0 f0 ∗ slotPts c 1 f1 ∗ slotPts c 2 f2 ∗ (commLoc c ↦[restSet c]{fullShare} fr)) ⊢ (iprop(∃ f : Buf (Elt F) (commLoc c), commLoc c ↦{fullShare} f) : sProp 𝕄) := by
  unfold slotPts restSet
  refine (sep_mono_right (sep_mono_right (pointsTo_join_subset (slot2_sub c)))).trans ?_
  refine (sep_mono_right (pointsTo_join_subset (slot1_sub c))).trans ?_
  refine (pointsTo_join_subset (Finset.subset_univ (slotSet c 0))).trans ?_
  exact exists_intro _

/-- The part buffer at the full share is the kept share and the three read tokens of the copies. -/
theorem part_split (c : Dev nD) :
    (partLoc c ↦{fullShare} partVal m ρ c : sProp 𝕄) ⊢ iprop(partPts m ρ c keepQ ∗ partPts m ρ c (tokQ 0) ∗ partPts m ρ c (tokQ 1) ∗ partPts m ρ c (tokQ 2)) := by
  unfold partPts
  rw [View.set_whole]
  refine (Transfers.pointsTo_toks_split fullShare 3).trans (sep_mono_right ?_)
  rw [bigSep_fin3]

/-- The kept share and the three read tokens are the part buffer at the full share again. -/
theorem part_join (c : Dev nD) :
    iprop(partPts m ρ c keepQ ∗ partPts m ρ c (tokQ 0) ∗ partPts m ρ c (tokQ 1) ∗ partPts m ρ c (tokQ 2)) ⊢ (partLoc c ↦{fullShare} partVal m ρ c : sProp 𝕄) := by
  unfold partPts
  rw [View.set_whole]
  refine Entails.trans (sep_mono_right ?_) (Transfers.pointsTo_toks_join fullShare 3)
  rw [bigSep_fin3]

/-! ## The landings and the loads -/

/-- The copy of `c`'s part into slot 0 of the device one place on leaves the slot's elements as `landed` says. -/
theorem landing_0 (c : Dev nD) (fd : Buf (Elt F) (commLoc (rot 1 c))) :
    ∀ i ∈ slotSet (rot 1 c) 0,
      (slotM 0).view.write (Elt F) fd ((partM : Memref sig .tc .vmem S1x768 .f32).view.read (Elt F) (partVal m ρ c)) Finset.univ i = landed m ρ (rot 1 c) i := by
  intro i hi
  obtain ⟨y, rfl⟩ := View.exists_emb_of_mem_set (slotM 0).view (show i ∈ (slotM 0).view.set from hi)
  rw [View.write_emb_of_mem _ _ (Finset.mem_univ y)]
  obtain ⟨h0, h2⟩ := slotIdx_val 0 _ squeezes_S1x1x768_S1x768.numel_eq y
  refine (cast_eq _ _).trans ?_
  unfold landed
  refine partVal_congr m ρ ?_ (Fin.ext h2)
  exact (congrArg (fun n => rot (3 - n) (rot 1 c)) h0).trans (rot_inv 3 1 rfl c)

/-- Into slot 1 of the device two places on. -/
theorem landing_1 (c : Dev nD) (fd : Buf (Elt F) (commLoc (rot 2 c))) :
    ∀ i ∈ slotSet (rot 2 c) 1,
      (slotM 1).view.write (Elt F) fd ((partM : Memref sig .tc .vmem S1x768 .f32).view.read (Elt F) (partVal m ρ c)) Finset.univ i = landed m ρ (rot 2 c) i := by
  intro i hi
  obtain ⟨y, rfl⟩ := View.exists_emb_of_mem_set (slotM 1).view (show i ∈ (slotM 1).view.set from hi)
  rw [View.write_emb_of_mem _ _ (Finset.mem_univ y)]
  obtain ⟨h0, h2⟩ := slotIdx_val 1 _ squeezes_S1x1x768_S1x768.numel_eq y
  refine (cast_eq _ _).trans ?_
  unfold landed
  refine partVal_congr m ρ ?_ (Fin.ext h2)
  exact (congrArg (fun n => rot (3 - n) (rot 2 c)) h0).trans (rot_inv 2 2 rfl c)

/-- Into slot 2 of the device three places on. -/
theorem landing_2 (c : Dev nD) (fd : Buf (Elt F) (commLoc (rot 3 c))) :
    ∀ i ∈ slotSet (rot 3 c) 2,
      (slotM 2).view.write (Elt F) fd ((partM : Memref sig .tc .vmem S1x768 .f32).view.read (Elt F) (partVal m ρ c)) Finset.univ i = landed m ρ (rot 3 c) i := by
  intro i hi
  obtain ⟨y, rfl⟩ := View.exists_emb_of_mem_set (slotM 2).view (show i ∈ (slotM 2).view.set from hi)
  rw [View.write_emb_of_mem _ _ (Finset.mem_univ y)]
  obtain ⟨h0, h2⟩ := slotIdx_val 2 _ squeezes_S1x1x768_S1x768.numel_eq y
  refine (cast_eq _ _).trans ?_
  unfold landed
  refine partVal_congr m ρ ?_ (Fin.ext h2)
  exact (congrArg (fun n => rot (3 - n) (rot 3 c)) h0).trans (rot_inv 1 3 rfl c)

/-- A load of slot 0 of the filled landing buffer reads the part of the device three places on; -/
theorem load_slot_0 (c : Dev nD) (y : S1x1x768.Idx) :
    (commM : Memref sig .tc .vmem S3x1x768 .f32).view.readAt (Elt F) (slotR 0).toLoadRect (landed m ρ c) y = partVal m ρ (rot 3 c) (rowIx (y 2)) := by
  obtain ⟨u, v, j, rfl⟩ : ∃ (u v : Fin 1) (j : Fin 768), y = ix3 u v j := ⟨y 0, y 1, y 2, eq_ix3 y⟩
  show landed m ρ c ((slotR 0).toLoadRect.idx (ix3 u v j)) = _
  unfold landed
  have hu : u.val = 0 := by omega
  refine congrArg₂ (fun d j' => partVal m ρ (rot d c) (rowIx j')) ?_ (Fin.ext ?_)
  · show 3 - (0 + 1 * u.val) = 3 - 0
    rw [hu]
  · show 0 + 1 * j.val = j.val
    omega

/-- of slot 1, two places on; -/
theorem load_slot_1 (c : Dev nD) (y : S1x1x768.Idx) :
    (commM : Memref sig .tc .vmem S3x1x768 .f32).view.readAt (Elt F) (slotR 1).toLoadRect (landed m ρ c) y = partVal m ρ (rot 2 c) (rowIx (y 2)) := by
  obtain ⟨u, v, j, rfl⟩ : ∃ (u v : Fin 1) (j : Fin 768), y = ix3 u v j := ⟨y 0, y 1, y 2, eq_ix3 y⟩
  show landed m ρ c ((slotR 1).toLoadRect.idx (ix3 u v j)) = _
  unfold landed
  have hu : u.val = 0 := by omega
  refine congrArg₂ (fun d j' => partVal m ρ (rot d c) (rowIx j')) ?_ (Fin.ext ?_)
  · show 3 - (1 + 1 * u.val) = 3 - 1
    rw [hu]
  · show 0 + 1 * j.val = j.val
    omega

/-- of slot 2, one place on. -/
theorem load_slot_2 (c : Dev nD) (y : S1x1x768.Idx) :
    (commM : Memref sig .tc .vmem S3x1x768 .f32).view.readAt (Elt F) (slotR 2).toLoadRect (landed m ρ c) y = partVal m ρ (rot 1 c) (rowIx (y 2)) := by
  obtain ⟨u, v, j, rfl⟩ : ∃ (u v : Fin 1) (j : Fin 768), y = ix3 u v j := ⟨y 0, y 1, y 2, eq_ix3 y⟩
  show landed m ρ c ((slotR 2).toLoadRect.idx (ix3 u v j)) = _
  unfold landed
  have hu : u.val = 0 := by omega
  refine congrArg₂ (fun d j' => partVal m ρ (rot d c) (rowIx j')) ?_ (Fin.ext ?_)
  · show 3 - (2 + 1 * u.val) = 3 - 2
    rw [hu]
  · show 0 + 1 * j.val = j.val
    omega

end Cert.KernelIdeal.Coll

end
-- ==== Proof.ValueAlg.lean ====
import proofs.«901080_g7700000000001081_dist_sum_ax0_shard0_i_m1536_n768_v7x_i4_f32_1_alg».proof.Proof.Gen.KernelIdeal.Skeleton
import proofs.«901080_g7700000000001081_dist_sum_ax0_shard0_i_m1536_n768_v7x_i4_f32_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws
import Idealize.ShloMosaic.Lib.ValueLayout
import Mathlib.Logic.Equiv.Fin.Basic
import Mathlib.Algebra.BigOperators.Fin
import Mathlib.Algebra.BigOperators.Group.Finset.Defs
import Mathlib.Data.Fintype.BigOperators

noncomputable section

namespace Cert.ValueAlg

open Idealize.ShloMosaic Cert.KernelIdeal Cert.KernelIdeal.Gen

/-- Row 0, column `j` of a one-row array. -/
def rowIdx (j : Fin 768) : S1x768.Idx := fun a => match a with
  | ⟨0, _⟩ => ⟨0, Nat.zero_lt_one⟩
  | ⟨1, _⟩ => j

/-- What one device contributes: the column sums of its block of rows. -/
def part (x : Vec Ideal S1536x768 .f32) : FVec Ideal S1x768 .f32 := k0_pay1 (F := Ideal) x

/-- Block `c` (1536 rows) of the whole array of 6144 rows. -/
abbrev blk (X : Cert.ReferenceIdeal.S6144x768.Idx → Elt Ideal .f32) (c : Fin 4) : Vec Ideal S1536x768 .f32 :=
  Layout.block ⟨2, ![1536, 768]⟩ ⟨2, ![6144, 768]⟩ 0 4 c X

open Idealize.ShloMosaic.ValueIdx

/-! ## One device's contribution, column by column -/

/-- The one-row index at column `j`, by its two coordinates. -/
theorem rowIdx_eq (j : Fin 768) : rowIdx j = ix2 (0 : Fin 1) j := by
  funext a; match a with | ⟨0, _⟩ => rfl | ⟨1, _⟩ => rfl

/-- The sum down the rows of a 1536 x 768 array, started from the zero word, is at column `j` the plain sum of that
    column: zero is the neutral element of the sum, so nothing stands in front of it. -/
theorem colSum_apply (x : FVec Ideal S1536x768 .f32) (h : S1536x768.Reduces [0] S768) (hφ : FKind.Formats .f32)
    (hacc : (0x00000000#32 : BitVec 32) = 0x00000000#32) (j : Fin 768) :
    multiReduction (F := Ideal) .add [0] S768 x 0x00000000#32 h hφ hacc (ix1 j) = ∑ r : Fin 1536, x (ix2 r j) := by
  refine (Ideal.multiReduction_add_single x 0x00000000#32 h hφ hacc (ix1 j)).trans ?_
  refine Finset.sum_congr rfl fun r _ => congrArg x ?_
  funext a; match a with | ⟨0, _⟩ => rfl | ⟨1, _⟩ => rfl

/-- A device's contribution at column `j` is the sum of column `j` of its block: the casts around the reduction only
    rename the index (the same shape twice, and a unit axis put in front). -/
theorem part_apply (x : Vec Ideal S1536x768 .f32) (j : Fin 768) :
    part x (rowIdx j) = ∑ r : Fin 1536, x (ix2 r j) := by
  unfold part k0_pay1
  rw [rowIdx_eq]
  simp only [shapeCast_self]
  rw [shapeCast_a_1a_apply]
  exact colSum_apply x _ _ _ j

/-! ## Blocks of rows -/

/-- A sum over `m * n` consecutive indices is the sum, over `m` runs, of the sums over the `n` indices of each run
    (index `n * c + r` is place `r` of run `c`). -/
theorem sum_runs {M : Type*} [AddCommMonoid M] (m n : ℕ) (f : Fin (m * n) → M) :
    ∑ k, f k = ∑ c : Fin m, ∑ r : Fin n, f (finProdFinEquiv (c, r)) := by
  rw [← Equiv.sum_comp finProdFinEquiv f, Fintype.sum_prod_type]

/-- Row `r` of block `c` is row `1536 c + r` of the whole array, the column the same. -/
theorem blk_apply (X : Cert.ReferenceIdeal.S6144x768.Idx → Elt Ideal .f32) (c : Fin 4) (r : Fin 1536) (j : Fin 768) :
    blk X c (ix2 r j) = X (ix2 (finProdFinEquiv (c, r) : Fin (4 * 1536)) j) := by
  refine congrArg X (funext fun a => Fin.ext ?_)
  match a with
  | ⟨0, _⟩ =>
    show c.val * 1536 + r.val = r.val + 1536 * c.val
    omega
  | ⟨1, _⟩ => rfl

/-! ## The reference, column by column -/

/-- The reference at column `j`: the zero word plus the sum of the whole column, and the zero word is zero. -/
theorem ref_apply (X : Cert.ReferenceIdeal.S6144x768.Idx → Elt Ideal .f32) (u : Fin 1) (j : Fin 768) :
    Cert.ReferenceIdeal.Read.val_main_v1 (F := Ideal) X (ix2 u j) = ∑ k : Fin 6144, X (ix2 k j) := by
  rw [Cert.ReferenceIdeal.Read.val_main_v1_apply, Cert.ReferenceIdeal.Read.val_main_v0_apply,
    Cert.ReferenceIdeal.Read.val_main_cst_apply, Ideal.ofBits_def, Ideal.ofBits_zero_f32, zero_add]
  refine Finset.sum_congr rfl fun k _ => congrArg X ?_
  funext a; match a with | ⟨0, _⟩ => rfl | ⟨1, _⟩ => rfl

/-! ## The kernel's last value, column by column -/

/-- The kernel's sum of the four rows at an index: the three that arrive as 1 x 1 x 768 are read at the same column. -/
theorem pay_apply (v107 : Vec Ideal S1x768 .f32) (v114 v123 v132 : Vec Ideal S1x1x768 .f32) (u : Fin 1) (j : Fin 768) :
    k0_pay3 (F := Ideal) (k0_pay2 (F := Ideal) v107 v114 v123) v132 (ix2 u j)
      = v107 (ix2 u j) + v114 (ix3 (0 : Fin 1) u j) + v123 (ix3 (0 : Fin 1) u j) + v132 (ix3 (0 : Fin 1) u j) := by
  unfold k0_pay3 k0_pay2
  simp only [addf_apply, shapeCast_1ab_ab_apply]

/-! ## The theorem -/

/-- The four partial column sums, added in any order of the devices, are the column sums of the whole array. -/
theorem total_eq_ref (X : Cert.ReferenceIdeal.S6144x768.Idx → Elt Ideal .f32) (e : Fin 4 → Fin 4) (he : Function.Bijective e)
    (v107 : Vec Ideal S1x768 .f32) (v114 v123 v132 : Vec Ideal S1x1x768 .f32)
    (h107 : ∀ y : S1x768.Idx, v107 y = part (blk X (e 0)) (rowIdx (y 1)))
    (h114 : ∀ y : S1x1x768.Idx, v114 y = part (blk X (e 1)) (rowIdx (y 2)))
    (h123 : ∀ y : S1x1x768.Idx, v123 y = part (blk X (e 2)) (rowIdx (y 2)))
    (h132 : ∀ y : S1x1x768.Idx, v132 y = part (blk X (e 3)) (rowIdx (y 2))) :
    k0_pay3 (F := Ideal) (k0_pay2 (F := Ideal) v107 v114 v123) v132 = Cert.ReferenceIdeal.Read.val_main_v1 (F := Ideal) X := by
  funext y
  obtain ⟨u, j, rfl⟩ : ∃ (u : Fin 1) (j : Fin 768), y = ix2 u j := ⟨y 0, y 1, eq_ix2 y⟩
  -- each of the four rows read at column `j` is the column sum of one block
  have e0 : v107 (ix2 u j) = ∑ r : Fin 1536, blk X (e 0) (ix2 r j) := (h107 _).trans (part_apply _ j)
  have e1 : v114 (ix3 (0 : Fin 1) u j) = ∑ r : Fin 1536, blk X (e 1) (ix2 r j) := (h114 _).trans (part_apply _ j)
  have e2 : v123 (ix3 (0 : Fin 1) u j) = ∑ r : Fin 1536, blk X (e 2) (ix2 r j) := (h123 _).trans (part_apply _ j)
  have e3 : v132 (ix3 (0 : Fin 1) u j) = ∑ r : Fin 1536, blk X (e 3) (ix2 r j) := (h132 _).trans (part_apply _ j)
  rw [pay_apply, e0, e1, e2, e3, ref_apply]
  -- the four blocks in the order `e` lists them are all four blocks, and the blocks are the runs of 1536 rows
  have hsum : ∀ c : Fin 4, ∑ r : Fin 1536, blk X c (ix2 r j)
      = ∑ r : Fin 1536, X (ix2 (finProdFinEquiv (c, r) : Fin (4 * 1536)) j) :=
    fun c => Finset.sum_congr rfl fun r _ => blk_apply X c r j
  rw [hsum, hsum, hsum, hsum]
  rw [← Fin.sum_univ_four (fun i : Fin 4 => ∑ r : Fin 1536, X (ix2 (finProdFinEquiv (e i, r) : Fin (4 * 1536)) j))]
  rw [he.sum_comp (fun c : Fin 4 => ∑ r : Fin 1536, X (ix2 (finProdFinEquiv (c, r) : Fin (4 * 1536)) j))]
  exact (sum_runs 4 1536 (fun k => X (ix2 k j))).symm

end Cert.ValueAlg

end
-- ==== Proof.Bridge.lean ====
import proofs.«901080_g7700000000001081_dist_sum_ax0_shard0_i_m1536_n768_v7x_i4_f32_1_alg».proof.Proof.KernelIdeal.Data
import proofs.«901080_g7700000000001081_dist_sum_ax0_shard0_i_m1536_n768_v7x_i4_f32_1_alg».proof.Proof.KernelIdeal.Reads
import proofs.«901080_g7700000000001081_dist_sum_ax0_shard0_i_m1536_n768_v7x_i4_f32_1_alg».proof.Proof.ValueAlg

/-!
# The kernel's result is the reference's

At the ideal instance, when device `c` holds block `c` of the whole array, what each device's body leaves in its result
buffer — its own column sums plus the three that landed — is the column sums of the whole array.
-/

noncomputable section

namespace Cert.Bridge

open Cert.KernelIdeal Cert.KernelIdeal.Gen Cert.KernelIdeal.Coll
open Idealize.ShloMosaic
open Idealize.ShloMosaic.TcCoe
open Idealize.SL Idealize.SL.Sem

open Cert.ValueAlg

/-! ## A device's staged block is its block of the whole array -/

/-- The staged block is read through the window that is the whole argument array, so it is that array. -/
theorem xstg_eq (m : (ℓ : Loc nD τ sig) → Buf (Elt Ideal) ℓ) (ρ : Dev nD → PrngReg) (c : Dev nD) :
    xstg (F := Ideal) m ρ c = m ((c.tc : Thread nD τ).loc main_arg0) := by
  funext y
  show m ((c.tc : Thread nD τ).loc main_arg0) ((win0_0.rect (0 : Fin 1)).emb y) = m ((c.tc : Thread nD τ).loc main_arg0) y
  refine congrArg (m ((c.tc : Thread nD τ).loc main_arg0)) (funext fun a => Fin.ext ?_)
  show 0 * _ + 1 * (y a).val = (y a).val
  omega

/-- So a device's part is the column sums of its block of the whole array. -/
theorem partVal_eq (m : (ℓ : Loc nD τ sig) → Buf (Elt Ideal) ℓ) (ρ : Dev nD → PrngReg)
    (X : Cert.ReferenceIdeal.S6144x768.Idx → Elt Ideal .f32)
    (hX : ∀ c : Dev nD, m ((c.tc : Thread nD τ).loc main_arg0) = Layout.block ⟨2, ![1536, 768]⟩ ⟨2, ![6144, 768]⟩ 0 4 c X)
    (d : Dev nD) : partVal (F := Ideal) m ρ d = part (blk X d) := by
  unfold partVal part
  rw [xstg_eq, hX d]

/-! ## The four devices, as one device sees them -/

/-- Device `c` itself, then the devices whose parts land in its slots 0, 2 and 1: three, one and two places on. -/
def seen (c : Dev nD) : Fin 4 → Fin 4 := ![c, rot 3 c, rot 1 c, rot 2 c]

/-- The four rotations of a device are the four devices. -/
theorem seen_bijective : ∀ c : Dev nD, Function.Bijective (seen c) := by decide

/-! ## The result -/

theorem out_eq_ref (m : (ℓ : Loc nD τ sig) → Buf (Elt Ideal) ℓ) (ρ : Dev nD → PrngReg)
    (X : Cert.ReferenceIdeal.S6144x768.Idx → Elt Ideal .f32)
    (hX : ∀ c : Dev nD, m ((c.tc : Thread nD τ).loc main_arg0) = Layout.block ⟨2, ![1536, 768]⟩ ⟨2, ![6144, 768]⟩ 0 4 c X)
    (c : Dev nD) :
    outAt (F := Ideal) m ρ c = Cert.ReferenceIdeal.Read.val_main_v1 (F := Ideal) X := by
  unfold outAt
  refine total_eq_ref X (seen c) (seen_bijective c) _ _ _ _ ?_ ?_ ?_ ?_
  · intro y
    rw [partVal_eq m ρ X hX]
    exact congrArg (part (blk X c)) (eq_rowIx y)
  · intro y
    rw [load_slot_0, partVal_eq m ρ X hX]
    rfl
  · intro y
    rw [load_slot_2, partVal_eq m ρ X hX]
    rfl
  · intro y
    rw [load_slot_1, partVal_eq m ρ X hX]
    rfl

end Cert.Bridge

end
-- ==== Proof.Assemble.lean ====
import proofs.«901080_g7700000000001081_dist_sum_ax0_shard0_i_m1536_n768_v7x_i4_f32_1_alg».proof.Defs
import proofs.«901080_g7700000000001081_dist_sum_ax0_shard0_i_m1536_n768_v7x_i4_f32_1_alg».proof.Proof.Gen.Kernel
import proofs.«901080_g7700000000001081_dist_sum_ax0_shard0_i_m1536_n768_v7x_i4_f32_1_alg».proof.Proof.Gen.KernelIdeal
import proofs.«901080_g7700000000001081_dist_sum_ax0_shard0_i_m1536_n768_v7x_i4_f32_1_alg».proof.Proof.Gen.ReferenceIdeal
import proofs.«901080_g7700000000001081_dist_sum_ax0_shard0_i_m1536_n768_v7x_i4_f32_1_alg».proof.Proof.Gen.Pre_finite_inputs_Kernel
import proofs.«901080_g7700000000001081_dist_sum_ax0_shard0_i_m1536_n768_v7x_i4_f32_1_alg».proof.Proof.Gen.Pre_finite_inputs_ReferenceIdeal
import proofs.«901080_g7700000000001081_dist_sum_ax0_shard0_i_m1536_n768_v7x_i4_f32_1_alg».proof.Proof.Gen.ReferenceIdeal.Run
import proofs.«901080_g7700000000001081_dist_sum_ax0_shard0_i_m1536_n768_v7x_i4_f32_1_alg».proof.Proof.Gen.ReferenceIdeal.Read
import proofs.«901080_g7700000000001081_dist_sum_ax0_shard0_i_m1536_n768_v7x_i4_f32_1_alg».proof.Proof.Kernel.Final
import proofs.«901080_g7700000000001081_dist_sum_ax0_shard0_i_m1536_n768_v7x_i4_f32_1_alg».proof.Proof.KernelIdeal.Final
import proofs.«901080_g7700000000001081_dist_sum_ax0_shard0_i_m1536_n768_v7x_i4_f32_1_alg».proof.Proof.Bridge

/-!
# The five claims, from the two bodies

Both programs' frames are their runs with the values dropped; the reference's frame is its run; nothing was rewritten
by the idealization; and at the ideal instance every device's result is the reference's: the column sums of the whole
array, of which the devices hold the four blocks of rows.
-/

noncomputable section

namespace Cert.Proof

open Idealize.ShloMosaic Idealize.ShloMosaic.TcCoe Idealize.SL.Sem
open Idealize.ShloMosaic.Pipeline (BodyObligation)

/-- If every device's body meets its obligation, at the word-level program and at the idealized one, the certificate's
    claim holds. -/
theorem claim_of
    (hK : ∀ (m : (ℓ : Loc Cert.Kernel.nD Cert.Kernel.τ Cert.Kernel.sig) → Buf (Elt Bits) ℓ) (ρ : Dev Cert.Kernel.nD → PrngReg) (c : Dev Cert.Kernel.nD),
      BodyObligation (Cert.Kernel.Coll.dats (F := Bits) m ρ 0 c) (Cert.Kernel.defs₀ (F := Bits)) Cert.Kernel.Coll.𝒱₀ () Set.univ)
    (hKI : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      BodyObligation (Cert.KernelIdeal.Coll.dats (F := Ideal) m ρ 0 c) (Cert.KernelIdeal.defs₀ (F := Ideal)) Cert.KernelIdeal.Coll.𝒱₀ () Set.univ) :
    Cert.Claim := by
  refine ⟨Cert.Kernel.Gen.facts, Cert.KernelIdeal.Gen.facts, Cert.ReferenceIdeal.Gen.facts, Cert.Pre_finite_inputs_Kernel.Gen.facts,
    Cert.Pre_finite_inputs_ReferenceIdeal.Gen.facts, ?_, ?_, ?_, trivial, ?_⟩
  -- the word-level program's frame: its run, the result's value dropped
  · intro m g _
    exact (θ_run _ _ _).mono (fun _ h c => (h c).2) (Cert.Kernel.Coll.run_values (F := Bits) m g (hK m g))
  -- the idealized program's frame, likewise
  · intro m g _
    exact (θ_run _ _ _).mono (fun _ h c => (h c).2) (Cert.KernelIdeal.Coll.run_values (F := Ideal) m g (hKI m g))
  -- the reference has no kernel: its frame is the run of its host operations
  · intro m ρ _
    exact (θ_run Cert.ReferenceIdeal.defs _ _).mono (fun _ h c => (h c).2) (Cert.ReferenceIdeal.Value.run (F := Ideal) m ρ)
  -- the value: every device's result is the reference's, the column sums of the whole array
  · intro m g m' g' _ hagree
    refine ⟨Cert.ReferenceIdeal.Read.val_main_v1 (F := Ideal)
      (m' (((0 : Dev Cert.ReferenceIdeal.nD).tc : Thread Cert.ReferenceIdeal.nD Cert.ReferenceIdeal.τ).loc Cert.ReferenceIdeal.main_arg0)), ?_, ?_⟩
    · exact (θ_run _ _ _).mono (fun _ h c => ⟨(h c).1.trans (Cert.Bridge.out_eq_ref m g _ hagree c), (h c).2⟩)
        (Cert.KernelIdeal.Coll.run_values (F := Ideal) m g (hKI m g))
    · exact (θ_run Cert.ReferenceIdeal.defs _ _).mono (fun _ h => ⟨(h 0).1.trans (Cert.ReferenceIdeal.Read.val_main_v1_eq _), (h 0).2⟩)
        (Cert.ReferenceIdeal.Value.run (F := Ideal) m' g')

/-- info: 'Cert.Proof.claim_of' depends on axioms: [propext, Classical.choice, Quot.sound] -/
#guard_msgs in #print axioms claim_of

end Cert.Proof

end
-- ==== Proof.Kernel.Reads.lean ====
import proofs.«901080_g7700000000001081_dist_sum_ax0_shard0_i_m1536_n768_v7x_i4_f32_1_alg».proof.Proof.Kernel.Proto
import Idealize.ShloMosaic.Lib.Pipeline.Value
import Idealize.ShloMosaic.Lib.ValueIdx
import Idealize.ShloMosaic.Lib.ValueLayout

/-!
# What the landing buffer holds, read index by index

A copy of a device's one-row part into slot `k` of a peer's three-slot landing buffer leaves, at every element of the
slot, the part's entry of the same column; a load of slot `k` reads that row back as a 1 x 1 x 768 vector.
-/

noncomputable section

namespace Cert.Kernel.Coll

open Cert.Kernel Cert.Kernel.Gen
open Idealize.ShloMosaic
open Idealize.ShloMosaic.TcCoe
open Idealize.SL Idealize.SL.Sem
open Idealize.SL.RA Idealize.SL.BI
open scoped Idealize.SL.BI
open Idealize.SL.BI.BIBase Idealize.SL.BI.Laws Idealize.SL.ProofMode

variable {F : FTy → Type} [FloatOps F]

local notation "𝕄" => MT nD τ sig Unit (Elt F) ℕ UU ℕ
variable (m : (ℓ : Loc nD τ sig) → Buf (Elt F) ℓ) (ρ : Dev nD → PrngReg)

open Idealize.ShloMosaic.ValueIdx

/-! ## Where a slot's elements sit in the landing buffer -/

/-- Element `(0, j)` of the one-row view of the slot at offset `(o, 0, 0)` is element `(o, 0, j)` of the buffer:
    its slot coordinate is `o` and its column is `j`. -/
theorem slotIdx_val (o : ℕ) (inb : ∀ a, (![o, 0, 0] : Fin 3 → ℕ) a + S1x1x768.size a ≤ S3x1x768.size a)
    (h : S1x768.numel = (Rect.unit (s := S3x1x768) ![o, 0, 0] S1x1x768.size inb).shape.numel) (y : S1x768.Idx) :
    (((Rect.unit (s := S3x1x768) ![o, 0, 0] S1x1x768.size inb).emb (Shape.reshapeEquiv h y)) 0).val = o
      ∧ (((Rect.unit (s := S3x1x768) ![o, 0, 0] S1x1x768.size inb).emb (Shape.reshapeEquiv h y)) 2).val = (y 1).val := by
  obtain ⟨u, j, rfl⟩ : ∃ (u : Fin 1) (j : Fin 768), y = ix2 u j := ⟨y 0, y 1, eq_ix2 y⟩
  have hz : Shape.reshapeEquiv h (ix2 u j) = ix3 (⟨0, Nat.one_pos⟩ : Fin 1) u j := reshapeEquiv_ix2_1ab h u j
  rw [hz]
  constructor
  · show o + 1 * 0 = o
    omega
  · show 0 + 1 * j.val = j.val
    omega

/-- A one-row index is row 0 at its column. -/
theorem eq_rowIx (y : S1x768.Idx) : y = rowIx (y 1) := by
  funext a
  match a with
  | ⟨0, _⟩ => exact Fin.ext (by have h : (y 0).val < 1 := (y 0).isLt; show (y 0).val = 0; omega)
  | ⟨1, _⟩ => rfl

/-- A part read at equal devices and equal columns is the same entry. -/
theorem partVal_congr {c c' : Dev nD} {y : S1x768.Idx} {j : Fin 768} (hc : c' = c) (hj : j = y 1) :
    partVal m ρ c y = partVal m ρ c' (rowIx j) := by
  rw [hc, hj]; exact congrArg (partVal m ρ c) (eq_rowIx y)

/-! ## The slot coordinate of a slot's elements -/

/-- Every element of slot 0 of the landing buffer has slot coordinate 0. -/
theorem slot_coord_0 (c : Dev nD) : ∀ i ∈ slotSet c 0, (i 0).val = 0 := by
  intro i hi
  obtain ⟨y, rfl⟩ := View.exists_emb_of_mem_set (slotM 0).view (show i ∈ (slotM 0).view.set from hi)
  exact (slotIdx_val 0 _ squeezes_S1x1x768_S1x768.numel_eq y).1

/-- Every element of slot 1 of the landing buffer has slot coordinate 1. -/
theorem slot_coord_1 (c : Dev nD) : ∀ i ∈ slotSet c 1, (i 0).val = 1 := by
  intro i hi
  obtain ⟨y, rfl⟩ := View.exists_emb_of_mem_set (slotM 1).view (show i ∈ (slotM 1).view.set from hi)
  exact (slotIdx_val 1 _ squeezes_S1x1x768_S1x768.numel_eq y).1

/-- Every element of slot 2 of the landing buffer has slot coordinate 2: so the three slots share no element. -/
theorem slot_coord_2 (c : Dev nD) : ∀ i ∈ slotSet c 2, (i 0).val = 2 := by
  intro i hi
  obtain ⟨y, rfl⟩ := View.exists_emb_of_mem_set (slotM 2).view (show i ∈ (slotM 2).view.set from hi)
  exact (slotIdx_val 2 _ squeezes_S1x1x768_S1x768.numel_eq y).1

/-! ## What a load of a slot touches -/

/-- The elements a load of slot 0 reads — through the whole landing buffer, at the rectangle at offset `(0, 0, 0)` —
    are elements of slot 0 (they are all of them: the slot is that rectangle seen as one row). -/
theorem load_sub_0 (c : Dev nD) : (commM : Memref sig .tc .vmem S3x1x768 .f32).view.setOn (slotR 0).toLoadRect.set ⊆ slotSet c 0 := by
  have e : (slotM 0).view.set = (commM : Memref sig .tc .vmem S3x1x768 .f32).view.setOn (slotR 0).toLoadRect.set :=
    (View.set_reshape (v := (commM : Memref sig .tc .vmem S3x1x768 .f32).view.slice (slotR 0)) squeezes_S1x1x768_S1x768.numel_eq).trans
      (View.set_slice _ (slotR 0))
  intro i hi
  show i ∈ (slotM 0).view.set
  rw [e]; exact hi

/-- The elements a load of slot 1 reads, at offset `(1, 0, 0)`, are elements of slot 1. -/
theorem load_sub_1 (c : Dev nD) : (commM : Memref sig .tc .vmem S3x1x768 .f32).view.setOn (slotR 1).toLoadRect.set ⊆ slotSet c 1 := by
  have e : (slotM 1).view.set = (commM : Memref sig .tc .vmem S3x1x768 .f32).view.setOn (slotR 1).toLoadRect.set :=
    (View.set_reshape (v := (commM : Memref sig .tc .vmem S3x1x768 .f32).view.slice (slotR 1)) squeezes_S1x1x768_S1x768.numel_eq).trans
      (View.set_slice _ (slotR 1))
  intro i hi
  show i ∈ (slotM 1).view.set
  rw [e]; exact hi

/-- The elements a load of slot 2 reads, at offset `(2, 0, 0)`, are elements of slot 2. -/
theorem load_sub_2 (c : Dev nD) : (commM : Memref sig .tc .vmem S3x1x768 .f32).view.setOn (slotR 2).toLoadRect.set ⊆ slotSet c 2 := by
  have e : (slotM 2).view.set = (commM : Memref sig .tc .vmem S3x1x768 .f32).view.setOn (slotR 2).toLoadRect.set :=
    (View.set_reshape (v := (commM : Memref sig .tc .vmem S3x1x768 .f32).view.slice (slotR 2)) squeezes_S1x1x768_S1x768.numel_eq).trans
      (View.set_slice _ (slotR 2))
  intro i hi
  show i ∈ (slotM 2).view.set
  rw [e]; exact hi

/-! ## The landing buffer as its three slots and the rest; the part buffer as a kept share and three read tokens -/

/-- Slot 1 lies outside slot 0: their elements differ in the slot coordinate. -/
theorem slot1_sub (c : Dev nD) : slotSet c 1 ⊆ Finset.univ \ slotSet c 0 := fun i hi =>
  Finset.mem_sdiff.mpr ⟨Finset.mem_univ i, fun h0 => by
    have e0 := slot_coord_0 c i h0; have e1 := slot_coord_1 c i hi; omega⟩

/-- Slot 2 lies outside slots 0 and 1. -/
theorem slot2_sub (c : Dev nD) : slotSet c 2 ⊆ (Finset.univ \ slotSet c 0) \ slotSet c 1 := fun i hi =>
  Finset.mem_sdiff.mpr ⟨Finset.mem_sdiff.mpr ⟨Finset.mem_univ i, fun h0 => by
    have e0 := slot_coord_0 c i h0; have e2 := slot_coord_2 c i hi; omega⟩, fun h1 => by
    have e1 := slot_coord_1 c i h1; have e2 := slot_coord_2 c i hi; omega⟩

/-- The landing buffer's elements outside the three slots (there are none, but nothing here needs to know that). -/
def restSet (c : Dev nD) : Finset (Idx (commLoc c)) := ((Finset.univ \ slotSet c 0) \ slotSet c 1) \ slotSet c 2

/-- The whole landing buffer is its three slots and the rest: the slots are carved out one after the other. -/
theorem comm_split (c : Dev nD) (f : Buf (Elt F) (commLoc c)) :
    (commLoc c ↦{fullShare} f : sProp 𝕄) ⊢ iprop(slotPts c 0 f ∗ slotPts c 1 f ∗ slotPts c 2 f ∗ (commLoc c ↦[restSet c]{fullShare} f)) := by
  unfold slotPts restSet
  refine (pointsTo_split_subset (Finset.subset_univ (slotSet c 0))).1.trans (sep_mono_right ?_)
  refine (pointsTo_split_subset (slot1_sub c)).1.trans (sep_mono_right ?_)
  exact (pointsTo_split_subset (slot2_sub c)).1

/-- The three slots and the rest, each at whatever contents it has, are the whole landing buffer at some contents:
    the slots are put back one after the other, the contents joined piece by piece. -/
theorem comm_join (c : Dev nD) (f0 f1 f2 fr : Buf (Elt F) (commLoc c)) :
    iprop(slotPts c 0 f0 ∗ slotPts c 1 f1 ∗ slotPts c 2 f2 ∗ (commLoc c ↦[restSet c]{fullShare} fr)) ⊢ (iprop(∃ f : Buf (Elt F) (commLoc c), commLoc c ↦{fullShare} f) : sProp 𝕄) := by
  unfold slotPts restSet
  refine (sep_mono_right (sep_mono_right (pointsTo_join_subset (slot2_sub c)))).trans ?_
  refine (sep_mono_right (pointsTo_join_subset (slot1_sub c))).trans ?_
  refine (pointsTo_join_subset (Finset.subset_univ (slotSet c 0))).trans ?_
  exact exists_intro _

/-- The part buffer at the full share is the kept share and the three read tokens of the copies. -/
theorem part_split (c : Dev nD) :
    (partLoc c ↦{fullShare} partVal m ρ c : sProp 𝕄) ⊢ iprop(partPts m ρ c keepQ ∗ partPts m ρ c (tokQ 0) ∗ partPts m ρ c (tokQ 1) ∗ partPts m ρ c (tokQ 2)) := by
  unfold partPts
  rw [View.set_whole]
  refine (Transfers.pointsTo_toks_split fullShare 3).trans (sep_mono_right ?_)
  rw [bigSep_fin3]

/-- The kept share and the three read tokens are the part buffer at the full share again. -/
theorem part_join (c : Dev nD) :
    iprop(partPts m ρ c keepQ ∗ partPts m ρ c (tokQ 0) ∗ partPts m ρ c (tokQ 1) ∗ partPts m ρ c (tokQ 2)) ⊢ (partLoc c ↦{fullShare} partVal m ρ c : sProp 𝕄) := by
  unfold partPts
  rw [View.set_whole]
  refine Entails.trans (sep_mono_right ?_) (Transfers.pointsTo_toks_join fullShare 3)
  rw [bigSep_fin3]

/-! ## The landings and the loads -/

/-- The copy of `c`'s part into slot 0 of the device one place on leaves the slot's elements as `landed` says. -/
theorem landing_0 (c : Dev nD) (fd : Buf (Elt F) (commLoc (rot 1 c))) :
    ∀ i ∈ slotSet (rot 1 c) 0,
      (slotM 0).view.write (Elt F) fd ((partM : Memref sig .tc .vmem S1x768 .f32).view.read (Elt F) (partVal m ρ c)) Finset.univ i = landed m ρ (rot 1 c) i := by
  intro i hi
  obtain ⟨y, rfl⟩ := View.exists_emb_of_mem_set (slotM 0).view (show i ∈ (slotM 0).view.set from hi)
  rw [View.write_emb_of_mem _ _ (Finset.mem_univ y)]
  obtain ⟨h0, h2⟩ := slotIdx_val 0 _ squeezes_S1x1x768_S1x768.numel_eq y
  refine (cast_eq _ _).trans ?_
  unfold landed
  refine partVal_congr m ρ ?_ (Fin.ext h2)
  exact (congrArg (fun n => rot (3 - n) (rot 1 c)) h0).trans (rot_inv 3 1 rfl c)

/-- Into slot 1 of the device two places on. -/
theorem landing_1 (c : Dev nD) (fd : Buf (Elt F) (commLoc (rot 2 c))) :
    ∀ i ∈ slotSet (rot 2 c) 1,
      (slotM 1).view.write (Elt F) fd ((partM : Memref sig .tc .vmem S1x768 .f32).view.read (Elt F) (partVal m ρ c)) Finset.univ i = landed m ρ (rot 2 c) i := by
  intro i hi
  obtain ⟨y, rfl⟩ := View.exists_emb_of_mem_set (slotM 1).view (show i ∈ (slotM 1).view.set from hi)
  rw [View.write_emb_of_mem _ _ (Finset.mem_univ y)]
  obtain ⟨h0, h2⟩ := slotIdx_val 1 _ squeezes_S1x1x768_S1x768.numel_eq y
  refine (cast_eq _ _).trans ?_
  unfold landed
  refine partVal_congr m ρ ?_ (Fin.ext h2)
  exact (congrArg (fun n => rot (3 - n) (rot 2 c)) h0).trans (rot_inv 2 2 rfl c)

/-- Into slot 2 of the device three places on. -/
theorem landing_2 (c : Dev nD) (fd : Buf (Elt F) (commLoc (rot 3 c))) :
    ∀ i ∈ slotSet (rot 3 c) 2,
      (slotM 2).view.write (Elt F) fd ((partM : Memref sig .tc .vmem S1x768 .f32).view.read (Elt F) (partVal m ρ c)) Finset.univ i = landed m ρ (rot 3 c) i := by
  intro i hi
  obtain ⟨y, rfl⟩ := View.exists_emb_of_mem_set (slotM 2).view (show i ∈ (slotM 2).view.set from hi)
  rw [View.write_emb_of_mem _ _ (Finset.mem_univ y)]
  obtain ⟨h0, h2⟩ := slotIdx_val 2 _ squeezes_S1x1x768_S1x768.numel_eq y
  refine (cast_eq _ _).trans ?_
  unfold landed
  refine partVal_congr m ρ ?_ (Fin.ext h2)
  exact (congrArg (fun n => rot (3 - n) (rot 3 c)) h0).trans (rot_inv 1 3 rfl c)

/-- A load of slot 0 of the filled landing buffer reads the part of the device three places on; -/
theorem load_slot_0 (c : Dev nD) (y : S1x1x768.Idx) :
    (commM : Memref sig .tc .vmem S3x1x768 .f32).view.readAt (Elt F) (slotR 0).toLoadRect (landed m ρ c) y = partVal m ρ (rot 3 c) (rowIx (y 2)) := by
  obtain ⟨u, v, j, rfl⟩ : ∃ (u v : Fin 1) (j : Fin 768), y = ix3 u v j := ⟨y 0, y 1, y 2, eq_ix3 y⟩
  show landed m ρ c ((slotR 0).toLoadRect.idx (ix3 u v j)) = _
  unfold landed
  have hu : u.val = 0 := by omega
  refine congrArg₂ (fun d j' => partVal m ρ (rot d c) (rowIx j')) ?_ (Fin.ext ?_)
  · show 3 - (0 + 1 * u.val) = 3 - 0
    rw [hu]
  · show 0 + 1 * j.val = j.val
    omega

/-- of slot 1, two places on; -/
theorem load_slot_1 (c : Dev nD) (y : S1x1x768.Idx) :
    (commM : Memref sig .tc .vmem S3x1x768 .f32).view.readAt (Elt F) (slotR 1).toLoadRect (landed m ρ c) y = partVal m ρ (rot 2 c) (rowIx (y 2)) := by
  obtain ⟨u, v, j, rfl⟩ : ∃ (u v : Fin 1) (j : Fin 768), y = ix3 u v j := ⟨y 0, y 1, y 2, eq_ix3 y⟩
  show landed m ρ c ((slotR 1).toLoadRect.idx (ix3 u v j)) = _
  unfold landed
  have hu : u.val = 0 := by omega
  refine congrArg₂ (fun d j' => partVal m ρ (rot d c) (rowIx j')) ?_ (Fin.ext ?_)
  · show 3 - (1 + 1 * u.val) = 3 - 1
    rw [hu]
  · show 0 + 1 * j.val = j.val
    omega

/-- of slot 2, one place on. -/
theorem load_slot_2 (c : Dev nD) (y : S1x1x768.Idx) :
    (commM : Memref sig .tc .vmem S3x1x768 .f32).view.readAt (Elt F) (slotR 2).toLoadRect (landed m ρ c) y = partVal m ρ (rot 1 c) (rowIx (y 2)) := by
  obtain ⟨u, v, j, rfl⟩ : ∃ (u v : Fin 1) (j : Fin 768), y = ix3 u v j := ⟨y 0, y 1, y 2, eq_ix3 y⟩
  show landed m ρ c ((slotR 2).toLoadRect.idx (ix3 u v j)) = _
  unfold landed
  have hu : u.val = 0 := by omega
  refine congrArg₂ (fun d j' => partVal m ρ (rot d c) (rowIx j')) ?_ (Fin.ext ?_)
  · show 3 - (2 + 1 * u.val) = 3 - 2
    rw [hu]
  · show 0 + 1 * j.val = j.val
    omega

end Cert.Kernel.Coll

end
-- ==== Proof.Kernel.Body.lean ====
import proofs.«901080_g7700000000001081_dist_sum_ax0_shard0_i_m1536_n768_v7x_i4_f32_1_alg».proof.Proof.Kernel.Data
import proofs.«901080_g7700000000001081_dist_sum_ax0_shard0_i_m1536_n768_v7x_i4_f32_1_alg».proof.Proof.Kernel.Reads

/-!
# One device's body

From its ghost state, its waiting credit, its two scratch buffers and the staged block of rows, device `c` runs the
kernel: three signals, the column sums stored as its part, the wait for its three peers, three copies of the part into
the peers' slots, the three landings waited for and added, the result stored, the three sends waited for.
-/

noncomputable section

namespace Cert.Kernel.Coll

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_bar duties_send duties_recv amount_bar amount_send amount_recv payload_bar payload_send payload_recv
  expect_bar expect_send expect_recv
attribute [local sl_canon] dev1_eq dev2_eq dev3_eq dev4_eq dev5_eq dev6_eq

/-! ## Whole-buffer loads and stores

A load through the rectangle at offset zero of a buffer's full extent reads the buffer; a store through it of every
element replaces it. -/

theorem hz2 : (![0, 0] : Fin 2 → Nat) = fun _ => 0 := funext fun a => by fin_cases a <;> rfl
theorem read_x (f : (cc0_stg0_0 : Ref sig .tc).ty.Contents (Elt F)) :
    (xM : Memref sig .tc .vmem S1536x768 .f32).view.readAt (Elt F) rX.toLoadRect f = f := Memref.readAt_unit_zero (Elt F) cc0_stg0_0 hz2 _ f
theorem read_part (f : (cc0_scratch0 : Ref sig .tc).ty.Contents (Elt F)) :
    (partM : Memref sig .tc .vmem S1x768 .f32).view.readAt (Elt F) r1.toLoadRect f = f := Memref.readAt_unit_zero (Elt F) cc0_scratch0 hz2 _ f
theorem write_part (f w : (cc0_scratch0 : Ref sig .tc).ty.Contents (Elt F)) :
    ((partM : Memref sig .tc .vmem S1x768 .f32).access r1 : View sig .tc _ _ _).write (Elt F) f w Finset.univ = w :=
  Memref.write_access_unit_zero_univ (Elt F) cc0_scratch0 hz2 _ f w
theorem write_out (f w : (cc0_stg1_0 : Ref sig .tc).ty.Contents (Elt F)) :
    ((oM : Memref sig .tc .vmem S1x768 .f32).access r1 : View sig .tc _ _ _).write (Elt F) f w Finset.univ = w :=
  Memref.write_access_unit_zero_univ (Elt F) cc0_stg1_0 hz2 _ f w

/-! ## The barrier's payloads, spelt out

The signal to the device `d` places on pays duty `d - 1` of that device's barrier cell and hands it slot `3 - d` of the
signaller's own landing buffer; the three signals a device receives hand it slot 2 of the device three places on, slot 1
of the device two places on and slot 0 of the device one place on: the destinations of its three copies. -/

theorem barPay_to1 (c : Dev nD) : barPay (F := F) (rot 1 c) 0 = iprop((∃ f, slotPts c 2 f) ∗ reached ER (recvCell c 2) 0) := by
  unfold barPay; rw [show 3 - ((0 : Fin 3) : ℕ) = 3 from rfl, rot_inv 3 1 rfl]; rfl
theorem barPay_to2 (c : Dev nD) : barPay (F := F) (rot 2 c) 1 = iprop((∃ f, slotPts c 1 f) ∗ reached ER (recvCell c 1) 0) := by
  unfold barPay; rw [show 3 - ((1 : Fin 3) : ℕ) = 2 from rfl, rot_inv 2 2 rfl]; rfl
theorem barPay_to3 (c : Dev nD) : barPay (F := F) (rot 3 c) 2 = iprop((∃ f, slotPts c 0 f) ∗ reached ER (recvCell c 0) 0) := by
  unfold barPay; rw [show 3 - ((2 : Fin 3) : ℕ) = 1 from rfl, rot_inv 1 3 rfl]; rfl
theorem barPay_from0 (c : Dev nD) : barPay (F := F) c 0 = iprop((∃ f, slotPts (rot 3 c) 2 f) ∗ reached ER (recvCell (rot 3 c) 2) 0) := rfl
theorem barPay_from1 (c : Dev nD) : barPay (F := F) c 1 = iprop((∃ f, slotPts (rot 2 c) 1 f) ∗ reached ER (recvCell (rot 2 c) 1) 0) := rfl
theorem barPay_from2 (c : Dev nD) : barPay (F := F) c 2 = iprop((∃ f, slotPts (rot 1 c) 0 f) ∗ reached ER (recvCell (rot 1 c) 0) 0) := rfl

/-! ## The three copies -/

/-- The copy into slot 0 of the device one place on, addressed to `n = rot 1 c` (substituted, not rewritten: the destination's
    memref and the transfer's typing evidence are stated over the addressed device): the send rule at this protocol's cells,
    its landing's payload the slot holding `c`'s part. -/
theorem wp_send_slot0 (K : Dev nD × Fin 7 → ℕ) (c n : Dev nD) (hn : n = rot 1 c)
    {hsc : (slotM 0 : Memref sig (Dev.tc n : Thread nD τ).2.kind .vmem S1x768 .f32).view.ref.isScScratch = false}
    {hsrc : (partM : Memref sig .tc .vmem S1x768 .f32).view.WordExact} {hdst : (slotM 0 : Memref sig .tc .vmem S1x768 .f32).view.WordExact}
    {hsem : DmaTarget.Typed .vmem (.dma (recvSem 0)) (.remote (Dev.tc n : Thread nD τ) (slotM 0 : Memref sig .tc .vmem S1x768 .f32) (.dma (sendSem 0)) hsc)}
    {α : Type} {Q : α → sProp 𝕄} {k : PUnit → Prog (TpuEff nD τ sig (Elt F) Λ₀ .tc) α}
    (fd : Buf (Elt F) (commLoc (rot 1 c))) (O₀ O : CellTallies nD τ sig Unit) (hO : O₀ = O + tallyAt (recvCell (rot 1 c) 0) () N) (W : Waits sig Unit) :
    iprop(cellInv ER (sched m ρ) (K (c, sIx 0)) (sendCell c 0) ∗ cellInv ER (sched m ρ) (K (rot 1 c, rIx 0)) (recvCell (rot 1 c) 0)
        ∗ (partLoc c ↦[(partM : Memref sig .tc .vmem S1x768 .f32).view.set]{tokQ 0} partVal m ρ c) ∗ (commLoc (rot 1 c) ↦[slotSet (rot 1 c) 0]{fullShare} fd)
        ∗ owes (c : Thread nD τ) O₀ W
        ∗ dutyTok ER (sendCell c 0) 0 0 ∗ reached ER (sendCell c 0) 0
        ∗ dutyTok ER (recvCell (rot 1 c) 0) 0 0 ∗ reached ER (recvCell (rot 1 c) 0) 0)
      ⊢ iprop(((cred (tallyAt (sendCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma partM (.remote (Dev.tc n : Thread nD τ) (slotM 0) (.dma (sendSem 0)) hsc) (.dma (recvSem 0)) hsrc hdst hsem) k) Q) := by
  subst hn
  exact Rounds.wp_send_pointsTo 𝒱₀ ER (sched m ρ) (c : Thread nD τ) none (c' := (rot 1 c : Thread nD τ))
    (src := (partM : Memref sig .tc .vmem S1x768 .f32)) (dst := (slotM 0 : Memref sig .tc .vmem S1x768 .f32))
    (sS := .dma (sendSem 0)) (sem := .dma (recvSem 0)) (q := tokQ 0) (fs := partVal m ρ c)
    (κ₁ := K (c, sIx 0)) (κ₂ := K (rot 1 c, rIx 0))
    (r₁ := 0) (r₂ := 0) (d₁ := (0 : Fin 3)) (d₂ := (0 : Fin 3)) (fd := fd)
    (by rw [duties_send]; exact Finset.mem_singleton_self _) (by rw [duties_recv]; exact Finset.mem_singleton_self _)
    () () N (slot_credit 0) (amount_send m ρ c 0 0) (amount_recv m ρ (rot 1 c) 0 0) O hO (W := W)
    (by rw [payload_send]; exact BI.Entails.refl _)
    (by rw [payload_recv]; unfold recvPay slotPts; rw [pointsTo_congr (landing_0 m ρ c fd)])

/-- The copy into slot 1 of the device two places on, addressed to `n = rot 2 c` (substituted, not rewritten: the destination's
    memref and the transfer's typing evidence are stated over the addressed device): the send rule at this protocol's cells,
    its landing's payload the slot holding `c`'s part. -/
theorem wp_send_slot1 (K : Dev nD × Fin 7 → ℕ) (c n : Dev nD) (hn : n = rot 2 c)
    {hsc : (slotM 1 : Memref sig (Dev.tc n : Thread nD τ).2.kind .vmem S1x768 .f32).view.ref.isScScratch = false}
    {hsrc : (partM : Memref sig .tc .vmem S1x768 .f32).view.WordExact} {hdst : (slotM 1 : Memref sig .tc .vmem S1x768 .f32).view.WordExact}
    {hsem : DmaTarget.Typed .vmem (.dma (recvSem 1)) (.remote (Dev.tc n : Thread nD τ) (slotM 1 : Memref sig .tc .vmem S1x768 .f32) (.dma (sendSem 1)) hsc)}
    {α : Type} {Q : α → sProp 𝕄} {k : PUnit → Prog (TpuEff nD τ sig (Elt F) Λ₀ .tc) α}
    (fd : Buf (Elt F) (commLoc (rot 2 c))) (O₀ O : CellTallies nD τ sig Unit) (hO : O₀ = O + tallyAt (recvCell (rot 2 c) 1) () N) (W : Waits sig Unit) :
    iprop(cellInv ER (sched m ρ) (K (c, sIx 1)) (sendCell c 1) ∗ cellInv ER (sched m ρ) (K (rot 2 c, rIx 1)) (recvCell (rot 2 c) 1)
        ∗ (partLoc c ↦[(partM : Memref sig .tc .vmem S1x768 .f32).view.set]{tokQ 1} partVal m ρ c) ∗ (commLoc (rot 2 c) ↦[slotSet (rot 2 c) 1]{fullShare} fd)
        ∗ owes (c : Thread nD τ) O₀ W
        ∗ dutyTok ER (sendCell c 1) 0 0 ∗ reached ER (sendCell c 1) 0
        ∗ dutyTok ER (recvCell (rot 2 c) 1) 0 0 ∗ reached ER (recvCell (rot 2 c) 1) 0)
      ⊢ iprop(((cred (tallyAt (sendCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma partM (.remote (Dev.tc n : Thread nD τ) (slotM 1) (.dma (sendSem 1)) hsc) (.dma (recvSem 1)) hsrc hdst hsem) k) Q) := by
  subst hn
  exact Rounds.wp_send_pointsTo 𝒱₀ ER (sched m ρ) (c : Thread nD τ) none (c' := (rot 2 c : Thread nD τ))
    (src := (partM : Memref sig .tc .vmem S1x768 .f32)) (dst := (slotM 1 : Memref sig .tc .vmem S1x768 .f32))
    (sS := .dma (sendSem 1)) (sem := .dma (recvSem 1)) (q := tokQ 1) (fs := partVal m ρ c)
    (κ₁ := K (c, sIx 1)) (κ₂ := K (rot 2 c, rIx 1))
    (r₁ := 0) (r₂ := 0) (d₁ := (0 : Fin 3)) (d₂ := (0 : Fin 3)) (fd := fd)
    (by rw [duties_send]; exact Finset.mem_singleton_self _) (by rw [duties_recv]; exact Finset.mem_singleton_self _)
    () () N (slot_credit 1) (amount_send m ρ c 1 0) (amount_recv m ρ (rot 2 c) 1 0) O hO (W := W)
    (by rw [payload_send]; exact BI.Entails.refl _)
    (by rw [payload_recv]; unfold recvPay slotPts; rw [pointsTo_congr (landing_1 m ρ c fd)])

/-- The copy into slot 2 of the device three places on, addressed to `n = rot 3 c` (substituted, not rewritten: the destination's
    memref and the transfer's typing evidence are stated over the addressed device): the send rule at this protocol's cells,
    its landing's payload the slot holding `c`'s part. -/
theorem wp_send_slot2 (K : Dev nD × Fin 7 → ℕ) (c n : Dev nD) (hn : n = rot 3 c)
    {hsc : (slotM 2 : Memref sig (Dev.tc n : Thread nD τ).2.kind .vmem S1x768 .f32).view.ref.isScScratch = false}
    {hsrc : (partM : Memref sig .tc .vmem S1x768 .f32).view.WordExact} {hdst : (slotM 2 : Memref sig .tc .vmem S1x768 .f32).view.WordExact}
    {hsem : DmaTarget.Typed .vmem (.dma (recvSem 2)) (.remote (Dev.tc n : Thread nD τ) (slotM 2 : Memref sig .tc .vmem S1x768 .f32) (.dma (sendSem 2)) hsc)}
    {α : Type} {Q : α → sProp 𝕄} {k : PUnit → Prog (TpuEff nD τ sig (Elt F) Λ₀ .tc) α}
    (fd : Buf (Elt F) (commLoc (rot 3 c))) (O₀ O : CellTallies nD τ sig Unit) (hO : O₀ = O + tallyAt (recvCell (rot 3 c) 2) () N) (W : Waits sig Unit) :
    iprop(cellInv ER (sched m ρ) (K (c, sIx 2)) (sendCell c 2) ∗ cellInv ER (sched m ρ) (K (rot 3 c, rIx 2)) (recvCell (rot 3 c) 2)
        ∗ (partLoc c ↦[(partM : Memref sig .tc .vmem S1x768 .f32).view.set]{tokQ 2} partVal m ρ c) ∗ (commLoc (rot 3 c) ↦[slotSet (rot 3 c) 2]{fullShare} fd)
        ∗ owes (c : Thread nD τ) O₀ W
        ∗ dutyTok ER (sendCell c 2) 0 0 ∗ reached ER (sendCell c 2) 0
        ∗ dutyTok ER (recvCell (rot 3 c) 2) 0 0 ∗ reached ER (recvCell (rot 3 c) 2) 0)
      ⊢ iprop(((cred (tallyAt (sendCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma partM (.remote (Dev.tc n : Thread nD τ) (slotM 2) (.dma (sendSem 2)) hsc) (.dma (recvSem 2)) hsrc hdst hsem) k) Q) := by
  subst hn
  exact Rounds.wp_send_pointsTo 𝒱₀ ER (sched m ρ) (c : Thread nD τ) none (c' := (rot 3 c : Thread nD τ))
    (src := (partM : Memref sig .tc .vmem S1x768 .f32)) (dst := (slotM 2 : Memref sig .tc .vmem S1x768 .f32))
    (sS := .dma (sendSem 2)) (sem := .dma (recvSem 2)) (q := tokQ 2) (fs := partVal m ρ c)
    (κ₁ := K (c, sIx 2)) (κ₂ := K (rot 3 c, rIx 2))
    (r₁ := 0) (r₂ := 0) (d₁ := (0 : Fin 3)) (d₂ := (0 : Fin 3)) (fd := fd)
    (by rw [duties_send]; exact Finset.mem_singleton_self _) (by rw [duties_recv]; exact Finset.mem_singleton_self _)
    () () N (slot_credit 2) (amount_send m ρ c 2 0) (amount_recv m ρ (rot 3 c) 2 0) O hO (W := W)
    (by rw [payload_send]; exact BI.Entails.refl _)
    (by rw [payload_recv]; unfold recvPay slotPts; rw [pointsTo_congr (landing_2 m ρ c fd)])

theorem part_set : (partM : Memref sig .tc .vmem S1x768 .f32).view.set = Finset.univ := View.set_whole _

/-! ## A completed round's payloads, as the wait hands them back

The wait for a receive cell's whole round hands back the slot filled; for a send cell's, the read share the copy borrowed. -/

theorem pay_recv0 (c : Dev nD) : bigSep ((sched (F := F) m ρ).duties (kcell (c, rIx 0)) 0) (fun d => (sched (F := F) m ρ).payload (kcell (c, rIx 0)) 0 d)
    = (commLoc c ↦[slotSet c 0]{fullShare} landed m ρ c) := by
  show bigSep ((sched (F := F) m ρ).duties (recvCell c 0) 0) (fun d => (sched (F := F) m ρ).payload (recvCell c 0) 0 d) = _
  rw [duties_recv, bigSep_singleton, payload_recv]; rfl
theorem pay_send0 (c : Dev nD) : bigSep ((sched (F := F) m ρ).duties (kcell (c, sIx 0)) 0) (fun d => (sched (F := F) m ρ).payload (kcell (c, sIx 0)) 0 d)
    = (partLoc c ↦[(partM : Memref sig .tc .vmem S1x768 .f32).view.set]{tokQ 0} partVal m ρ c) := by
  show bigSep ((sched (F := F) m ρ).duties (sendCell c 0) 0) (fun d => (sched (F := F) m ρ).payload (sendCell c 0) 0 d) = _
  rw [duties_send, bigSep_singleton, payload_send]; rfl
theorem pay_recv1 (c : Dev nD) : bigSep ((sched (F := F) m ρ).duties (kcell (c, rIx 1)) 0) (fun d => (sched (F := F) m ρ).payload (kcell (c, rIx 1)) 0 d)
    = (commLoc c ↦[slotSet c 1]{fullShare} landed m ρ c) := by
  show bigSep ((sched (F := F) m ρ).duties (recvCell c 1) 0) (fun d => (sched (F := F) m ρ).payload (recvCell c 1) 0 d) = _
  rw [duties_recv, bigSep_singleton, payload_recv]; rfl
theorem pay_send1 (c : Dev nD) : bigSep ((sched (F := F) m ρ).duties (kcell (c, sIx 1)) 0) (fun d => (sched (F := F) m ρ).payload (kcell (c, sIx 1)) 0 d)
    = (partLoc c ↦[(partM : Memref sig .tc .vmem S1x768 .f32).view.set]{tokQ 1} partVal m ρ c) := by
  show bigSep ((sched (F := F) m ρ).duties (sendCell c 1) 0) (fun d => (sched (F := F) m ρ).payload (sendCell c 1) 0 d) = _
  rw [duties_send, bigSep_singleton, payload_send]; rfl
theorem pay_recv2 (c : Dev nD) : bigSep ((sched (F := F) m ρ).duties (kcell (c, rIx 2)) 0) (fun d => (sched (F := F) m ρ).payload (kcell (c, rIx 2)) 0 d)
    = (commLoc c ↦[slotSet c 2]{fullShare} landed m ρ c) := by
  show bigSep ((sched (F := F) m ρ).duties (recvCell c 2) 0) (fun d => (sched (F := F) m ρ).payload (recvCell c 2) 0 d) = _
  rw [duties_recv, bigSep_singleton, payload_recv]; rfl
theorem pay_send2 (c : Dev nD) : bigSep ((sched (F := F) m ρ).duties (kcell (c, sIx 2)) 0) (fun d => (sched (F := F) m ρ).payload (kcell (c, sIx 2)) 0 d)
    = (partLoc c ↦[(partM : Memref sig .tc .vmem S1x768 .f32).view.set]{tokQ 2} partVal m ρ c) := by
  show bigSep ((sched (F := F) m ρ).duties (sendCell c 2) 0) (fun d => (sched (F := F) m ρ).payload (sendCell c 2) 0 d) = _
  rw [duties_send, bigSep_singleton, payload_send]; rfl

/-- The part buffer, as the store leaves it, split into the share kept for the kernel's own load and one read token per copy. -/
theorem part_split' (c : Dev nD) :
    ((View.loc (c : Thread nD τ) ((partM : Memref sig .tc .vmem S1x768 .f32).access r1) ↦{fullShare} k0_pay1 (xstg m ρ c)) : sProp 𝕄)
      ⊢ iprop(partPts m ρ c keepQ ∗ partPts m ρ c (tokQ 0) ∗ partPts m ρ c (tokQ 1) ∗ partPts m ρ c (tokQ 2)) := part_split m ρ c

/-- The level evidence of the barrier wait, with what is owed there written out. -/
theorem mayWait_bar' (c : Dev nD) : (levAts L lv : sProp 𝕄) ⊢ MayWait (c : Thread nD τ) (.reg barS) ()
    (tallyAt (recvCell (rot 3 c) 2) () N + tallyAt (recvCell (rot 1 c) 0) () N + tallyAt (recvCell (rot 2 c) 1) () N) := mayWait_bar c

set_option maxHeartbeats 1600000 in
theorem sound_body (K : Dev nD × Fin 7 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ (theBody (F := F)) Kt := by
  unfold bodyPre ghost linear payToks waitCred scratch
  rw [bigSep_fin7]
  iintro ⟨⟨⟨⟨#HR, ⟨HaB, HaS0, HaS1, HaS2, HaV0, HaV1, HaV2⟩, HtB1, HtB2, HtB3, HtV0, HtV1, HtV2, HtS0, HtS1, HtS2⟩, ⟨HcB, HcV0, HcV1, HcV2⟩, #Hlev, ⟨%fp, Hpart⟩, ⟨%fc, Hcomm⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ O₅ O₄ O₃ O₂ O₁
  ihave #HIB := (inv_at m ρ K (c, 0)) $$ HR
  ihave #HIB1 := (inv_at m ρ K (rot 1 c, 0)) $$ HR
  ihave #HIB2 := (inv_at m ρ K (rot 2 c, 0)) $$ HR
  ihave #HIB3 := (inv_at m ρ K (rot 3 c, 0)) $$ HR
  ihave #HrB1 := (reached_at m ρ K (rot 1 c, 0)) $$ HR
  ihave #HrB2 := (reached_at m ρ K (rot 2 c, 0)) $$ HR
  ihave #HrB3 := (reached_at m ρ K (rot 3 c, 0)) $$ HR
  ihave #HrV0 := (reached_at m ρ K (c, rIx 0)) $$ HR
  ihave #HrV1 := (reached_at m ρ K (c, rIx 1)) $$ HR
  ihave #HrV2 := (reached_at m ρ K (c, rIx 2)) $$ HR
  -- the landing buffer, slot by slot: each signal gives one slot away
  ihave Hc4 := (comm_split c fc) $$ Hcomm
  icases Hc4 with ⟨Hs0, Hs1, Hs2, Hrest⟩
  dsimp only [theBody]
  sl_unfold [cc0_body]
  sl_exec
  -- the FIRST signal, to the device one place on: duty 0 of its barrier cell, with slot 2
  iapply (Rounds.wp_signal 𝒱₀ ER (sched m ρ) (c : Thread nD τ) none (dst := (rot 1 c : Thread nD τ)) (κ := K (rot 1 c, 0))
      (d := (0 : Fin 3)) (by rw [duties_bar]; exact Finset.mem_univ _) ((amount_bar m ρ (rot 1 c) 0).trans (by decide)) () _ rfl)
    $$ [HO HtB1 Hs2]
  · isplitr; · iexact HIB1
    isplitl [HO]; · iexact HO
    isplitl [HtB1]; · iexact HtB1
    isplitl [Hs2]
    · rw [payload_bar, barPay_to1]
      isplitl [Hs2]; · iexists fc; iexact Hs2
      iexact HrV2
    · iexact HrB1
  iintro HO
  sl_exec
  -- the SECOND, two places on: duty 1, with slot 1
  iapply (Rounds.wp_signal 𝒱₀ ER (sched m ρ) (c : Thread nD τ) none (dst := (rot 2 c : Thread nD τ)) (κ := K (rot 2 c, 0))
      (d := (1 : Fin 3)) (by rw [duties_bar]; exact Finset.mem_univ _) ((amount_bar m ρ (rot 2 c) 1).trans (by decide)) () _ rfl)
    $$ [HO HtB2 Hs1]
  · isplitr; · iexact HIB2
    isplitl [HO]; · iexact HO
    isplitl [HtB2]; · iexact HtB2
    isplitl [Hs1]
    · rw [payload_bar, barPay_to2]
      isplitl [Hs1]; · iexists fc; iexact Hs1
      iexact HrV1
    · iexact HrB2
  iintro HO
  sl_exec
  -- the THIRD, three places on: duty 2, with slot 0
  iapply (Rounds.wp_signal 𝒱₀ ER (sched m ρ) (c : Thread nD τ) none (dst := (rot 3 c : Thread nD τ)) (κ := K (rot 3 c, 0))
      (d := (2 : Fin 3)) (by rw [duties_bar]; exact Finset.mem_univ _) ((amount_bar m ρ (rot 3 c) 2).trans (by decide)) () _ rfl)
    $$ [HO HtB3 Hs0]
  · isplitr; · iexact HIB3
    isplitl [HO]; · iexact HO
    isplitl [HtB3]; · iexact HtB3
    isplitl [Hs0]
    · rw [payload_bar, barPay_to3]
      isplitl [Hs0]; · iexists fc; iexact Hs0
      iexact HrV0
    · iexact HrB3
  iintro HO
  -- the block of rows loaded, its column sums stored as the part
  sl_exec
  iapply (wp_load 𝒱₀ (c : Thread nD τ) none Set.univ (m := xM) (Finset.subset_univ _)) $$ Hx; iintro Hx
  rw [read_x]
  try sl_exec
  iapply (wp_load 𝒱₀ (c : Thread nD τ) none Set.univ (m := partM) (Finset.subset_univ _)) $$ Hpart; iintro Hpart
  try sl_exec
  iapply (wp_store 𝒱₀ (c : Thread nD τ) none Set.univ (m := partM) (r := r1) (Mk := Finset.univ) (Finset.subset_univ _)) $$ Hpart; iintro Hpart
  rw [write_part]
  -- the WAIT for the three peers' signals, owing the three landings: the peers' slots come with it
  simp only [Prog.bind]
  sl_exec
  iapply (Rounds.wp_wait_rest_token 𝒱₀ ER (sched m ρ) (c : Thread nD τ) none (κ := K (c, 0))
      (wpE_semWait_eq 𝒱₀ (c : Thread nD τ) none Set.univ) (Set.mem_univ _) () (W := W) (R := 0) (m := 0) (T := ∅)
      (by rw [expect_bar]; decide)) $$ [HcB HO HaB]
  · isplitr; · iexact HIB
    isplitl [HcB]; · iexact HcB
    isplitl [HO]; · iexact HO
    isplitr; · iapply (mayWait_bar' c); iexact Hlev
    iexact HaB
  iintro ⟨HO, HaB, -, Hpay⟩
  ihave Hp := (Entails.of_eq (rest_bar m ρ c)) $$ Hpay
  rw [barPay_from0, barPay_from1, barPay_from2]
  icases Hp with ⟨⟨⟨%fd2, Hd2⟩, #HrD2⟩, ⟨⟨%fd1, Hd1⟩, #HrD1⟩, ⟨%fd0, Hd0⟩, #HrD0⟩
  sl_exec
  -- the part buffer's share: one read token per copy, the rest kept for the kernel's own load
  ihave Hp4 := (part_split' m ρ c) $$ Hpart
  icases Hp4 with ⟨Hpk, Hpt0, Hpt1, Hpt2⟩
  ihave #HIS0 := (inv_at m ρ K (c, sIx 0)) $$ HR
  ihave #HIS1 := (inv_at m ρ K (c, sIx 1)) $$ HR
  ihave #HIS2 := (inv_at m ρ K (c, sIx 2)) $$ HR
  ihave #HIV0 := (inv_at m ρ K (c, rIx 0)) $$ HR
  ihave #HIV1 := (inv_at m ρ K (c, rIx 1)) $$ HR
  ihave #HIV2 := (inv_at m ρ K (c, rIx 2)) $$ HR
  ihave #HID0 := (inv_at m ρ K (rot 1 c, rIx 0)) $$ HR
  ihave #HID1 := (inv_at m ρ K (rot 2 c, rIx 1)) $$ HR
  ihave #HID2 := (inv_at m ρ K (rot 3 c, rIx 2)) $$ HR
  ihave #HrS0 := (reached_at m ρ K (c, sIx 0)) $$ HR
  ihave #HrS1 := (reached_at m ρ K (c, sIx 1)) $$ HR
  ihave #HrS2 := (reached_at m ρ K (c, sIx 2)) $$ HR
  unfold partPts slotPts
  -- the FIRST copy: into slot 1 of the device two places on
  iapply (wp_send_slot1 m ρ K c _ (dev4_eq c) fd1 _ _ rfl _) $$ [Hpt1 Hd1 HO HtS1 HtV1]
  · isplitr; · iexact HIS1
    isplitr; · iexact HID1
    isplitl [Hpt1]; · iexact Hpt1
    isplitl [Hd1]; · iexact Hd1
    isplitl [HO]; · iexact HO
    isplitl [HtS1]; · iexact HtS1
    isplitr; · iexact HrS1
    isplitl [HtV1]; · iexact HtV1
    iexact HrD1
  iintro ⟨HcS1, HO⟩
  try sl_exec
  -- the SECOND copy: into slot 0 of the device one place on
  iapply (wp_send_slot0 m ρ K c _ (dev5_eq c) fd0 _ _ rfl _) $$ [Hpt0 Hd0 HO HtS0 HtV0]
  · isplitr; · iexact HIS0
    isplitr; · iexact HID0
    isplitl [Hpt0]; · iexact Hpt0
    isplitl [Hd0]; · iexact Hd0
    isplitl [HO]; · iexact HO
    isplitl [HtS0]; · iexact HtS0
    isplitr; · iexact HrS0
    isplitl [HtV0]; · iexact HtV0
    iexact HrD0
  iintro ⟨HcS0, HO⟩
  try sl_exec
  -- the THIRD copy: into slot 2 of the device three places on; nothing is owed after it
  iapply (wp_send_slot2 m ρ K c _ (dev6_eq c) fd2 _ 0 (zero_add _).symm _) $$ [Hpt2 Hd2 HO HtS2 HtV2]
  · isplitr; · iexact HIS2
    isplitr; · iexact HID2
    isplitl [Hpt2]; · iexact Hpt2
    isplitl [Hd2]; · iexact Hd2
    isplitl [HO]; · iexact HO
    isplitl [HtS2]; · iexact HtS2
    isplitr; · iexact HrS2
    isplitl [HtV2]; · iexact HtV2
    iexact HrD2
  iintro ⟨HcS2, HO⟩
  try sl_exec
  -- the kernel's own load of its part, through the share it kept
  iapply (wp_load 𝒱₀ (c : Thread nD τ) none Set.univ (m := partM) (by rw [part_set]; exact Finset.subset_univ _)) $$ Hpk; iintro Hpk
  rw [read_part]
  try simp only [Prog.bind]
  try sl_exec
  -- the landing in slot 0 has been waited for: the slot holds the part of the device three places on; it is loaded
  ihave Hl0 := (Entails.of_eq (pay_recv0 m ρ c)) $$ HaV0_pay1
  iapply (wp_load 𝒱₀ (c : Thread nD τ) none Set.univ (m := commM) (load_sub_0 c)) $$ Hl0; iintro Hl0
  try simp only [Prog.bind]
  try sl_exec
  -- the landing in slot 2 has been waited for: the slot holds the part of the device one place on; it is loaded
  ihave Hl2 := (Entails.of_eq (pay_recv2 m ρ c)) $$ HaV2_pay1
  iapply (wp_load 𝒱₀ (c : Thread nD τ) none Set.univ (m := commM) (load_sub_2 c)) $$ Hl2; iintro Hl2
  try simp only [Prog.bind]
  try sl_exec
  -- the landing in slot 1 has been waited for: the slot holds the part of the device two places on; it is loaded
  ihave Hl1 := (Entails.of_eq (pay_recv1 m ρ c)) $$ HaV1_pay1
  iapply (wp_load 𝒱₀ (c : Thread nD τ) none Set.univ (m := commM) (load_sub_1 c)) $$ Hl1; iintro Hl1
  try simp only [Prog.bind]
  try sl_exec
  -- the result: loaded (unused), then stored whole
  iapply (wp_load 𝒱₀ (c : Thread nD τ) none Set.univ (m := oM) (Finset.subset_univ _)) $$ Hout; iintro Hout
  try simp only [Prog.bind]
  try sl_exec
  iapply (wp_store 𝒱₀ (c : Thread nD τ) none Set.univ (m := oM) (r := r1) (Mk := Finset.univ) (Finset.subset_univ _)) $$ Hout; iintro Hout
  rw [write_out]
  -- the three sends waited for: the read shares come back
  try simp only [Prog.bind]
  try sl_exec
  -- the read shares are back: the part buffer is whole again
  ihave Hq0 := (Entails.of_eq (pay_send0 m ρ c)) $$ HaS0_pay1
  ihave Hq1 := (Entails.of_eq (pay_send1 m ρ c)) $$ HaS1_pay1
  ihave Hq2 := (Entails.of_eq (pay_send2 m ρ c)) $$ HaS2_pay1
  ihave Hpart := (part_join m ρ c) $$ [Hpk Hq0 Hq1 Hq2]
  · unfold partPts
    isplitl [Hpk]; · iexact Hpk
    isplitl [Hq0]; · iexact Hq0
    isplitl [Hq1]; · iexact Hq1
    iexact Hq2
  -- the three filled slots and the rest: the landing buffer is whole again
  ihave Hcomm := (comm_join c (landed m ρ c) (landed m ρ c) (landed m ρ c) fc) $$ [Hl0 Hl1 Hl2 Hrest]
  · unfold slotPts
    isplitl [Hl0]; · iexact Hl0
    isplitl [Hl1]; · iexact Hl1
    isplitl [Hl2]; · iexact Hl2
    iexact Hrest
  -- the six own cells close: their counters at zero are the core's again
  imod (Rounds.cell_close ER (sched m ρ) (Set.mem_univ (K (c, sIx 0))) (fun h => h) (R := 1) (duties_later m ρ (sendCell c 0))) $$ [HaS0] with HzS0
  · isplitr; · iexact HIS0
    iexact HaS0
  imod (Rounds.cell_close ER (sched m ρ) (Set.mem_univ (K (c, sIx 1))) (fun h => h) (R := 1) (duties_later m ρ (sendCell c 1))) $$ [HaS1] with HzS1
  · isplitr; · iexact HIS1
    iexact HaS1
  imod (Rounds.cell_close ER (sched m ρ) (Set.mem_univ (K (c, sIx 2))) (fun h => h) (R := 1) (duties_later m ρ (sendCell c 2))) $$ [HaS2] with HzS2
  · isplitr; · iexact HIS2
    iexact HaS2
  imod (Rounds.cell_close ER (sched m ρ) (Set.mem_univ (K (c, rIx 0))) (fun h => h) (R := 1) (duties_later m ρ (recvCell c 0))) $$ [HaV0] with HzV0
  · isplitr; · iexact HIV0
    iexact HaV0
  imod (Rounds.cell_close ER (sched m ρ) (Set.mem_univ (K (c, rIx 1))) (fun h => h) (R := 1) (duties_later m ρ (recvCell c 1))) $$ [HaV1] with HzV1
  · isplitr; · iexact HIV1
    iexact HaV1
  imod (Rounds.cell_close ER (sched m ρ) (Set.mem_univ (K (c, rIx 2))) (fun h => h) (R := 1) (duties_later m ρ (recvCell c 2))) $$ [HaV2] with HzV2
  · isplitr; · iexact HIV2
    iexact HaV2
  rw [wp_ret]; imodintro
  iapply Hk
  unfold bodyPost Φ₁ scratch semsZero Dat.owesAt Pipeline.owesWithin
  rw [show (dats m ρ 0 c).owed t₀.succ = 0 from rfl]
  isplitl [Hpart Hcomm HzS0 HzS1 HzS2 HzV0 HzV1 HzV2]
  · isplitl [Hpart Hcomm]
    · isplitl [Hpart]; · iexists _; iexact Hpart
      iexact Hcomm
    isplitl [HzS0]; · iexact HzS0
    isplitl [HzS1]; · iexact HzS1
    isplitl [HzS2]; · iexact HzS2
    isplitl [HzV0]; · iexact HzV0
    isplitl [HzV1]; · iexact HzV1
    iexact HzV2
  isplitl [HO]
  · iexists _
    isplitr
    rotate_left
    · iexact HO
    · ipureintro; exact fun _ _ => Or.inl trivial
  isplitl [Hx]
  · iexists _; isplitr; · (ipureintro; rfl)
    iexact Hx
  iexists _; isplitr; · (ipureintro; rfl)
  iexact Hout

/-! ## The library's body obligation -/

set_option maxRecDepth 4000 in
/-- What the pipeline hands the body at the one grid point: the state before the point, what is owed, and the two staged
    windows. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation on device `c`: from that, the kernel runs to the state after the point. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ (theBody (F := F)) (fun _ => bodyPost m ρ c)
  unfold bodyPre' Φ₀ start
  iintro ⟨⟨⟨⟨%K, Hg⟩, Hw, Hlv⟩, Hscr⟩, Ho, Hx, Hout⟩
  iapply (sound_body m ρ K c fun _ => bodyPost m ρ c)
  unfold bodyPre
  isplitr []
  · isplitl [Hg Hw Hlv Hscr]
    · isplitl [Hg]; · iexact Hg
      isplitl [Hw]; · iexact Hw
      isplitl [Hlv]; · iexact Hlv
      iexact Hscr
    isplitl [Ho]; · iexact Ho
    isplitl [Hx] <;> iassumption
  · iintro H; iexact H

/-- info: 'Cert.Kernel.Coll.body_obligation' depends on axioms: [propext, Classical.choice, Quot.sound] -/
#guard_msgs in #print axioms body_obligation

end Cert.Kernel.Coll

end
-- ==== Proof.KernelIdeal.Body.lean ====
import proofs.«901080_g7700000000001081_dist_sum_ax0_shard0_i_m1536_n768_v7x_i4_f32_1_alg».proof.Proof.KernelIdeal.Data
import proofs.«901080_g7700000000001081_dist_sum_ax0_shard0_i_m1536_n768_v7x_i4_f32_1_alg».proof.Proof.KernelIdeal.Reads

/-!
# One device's body

From its ghost state, its waiting credit, its two scratch buffers and the staged block of rows, device `c` runs the
kernel: three signals, the column sums stored as its part, the wait for its three peers, three copies of the part into
the peers' slots, the three landings waited for and added, the result stored, the three sends waited for.
-/

noncomputable section

namespace Cert.KernelIdeal.Coll

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_rounds] duties_bar duties_send duties_recv amount_bar amount_send amount_recv payload_bar payload_send payload_recv
  expect_bar expect_send expect_recv
attribute [local sl_canon] dev1_eq dev2_eq dev3_eq dev4_eq dev5_eq dev6_eq

/-! ## Whole-buffer loads and stores

A load through the rectangle at offset zero of a buffer's full extent reads the buffer; a store through it of every
element replaces it. -/

theorem hz2 : (![0, 0] : Fin 2 → Nat) = fun _ => 0 := funext fun a => by fin_cases a <;> rfl
theorem read_x (f : (cc0_stg0_0 : Ref sig .tc).ty.Contents (Elt F)) :
    (xM : Memref sig .tc .vmem S1536x768 .f32).view.readAt (Elt F) rX.toLoadRect f = f := Memref.readAt_unit_zero (Elt F) cc0_stg0_0 hz2 _ f
theorem read_part (f : (cc0_scratch0 : Ref sig .tc).ty.Contents (Elt F)) :
    (partM : Memref sig .tc .vmem S1x768 .f32).view.readAt (Elt F) r1.toLoadRect f = f := Memref.readAt_unit_zero (Elt F) cc0_scratch0 hz2 _ f
theorem write_part (f w : (cc0_scratch0 : Ref sig .tc).ty.Contents (Elt F)) :
    ((partM : Memref sig .tc .vmem S1x768 .f32).access r1 : View sig .tc _ _ _).write (Elt F) f w Finset.univ = w :=
  Memref.write_access_unit_zero_univ (Elt F) cc0_scratch0 hz2 _ f w
theorem write_out (f w : (cc0_stg1_0 : Ref sig .tc).ty.Contents (Elt F)) :
    ((oM : Memref sig .tc .vmem S1x768 .f32).access r1 : View sig .tc _ _ _).write (Elt F) f w Finset.univ = w :=
  Memref.write_access_unit_zero_univ (Elt F) cc0_stg1_0 hz2 _ f w

/-! ## The barrier's payloads, spelt out

The signal to the device `d` places on pays duty `d - 1` of that device's barrier cell and hands it slot `3 - d` of the
signaller's own landing buffer; the three signals a device receives hand it slot 2 of the device three places on, slot 1
of the device two places on and slot 0 of the device one place on: the destinations of its three copies. -/

theorem barPay_to1 (c : Dev nD) : barPay (F := F) (rot 1 c) 0 = iprop((∃ f, slotPts c 2 f) ∗ reached ER (recvCell c 2) 0) := by
  unfold barPay; rw [show 3 - ((0 : Fin 3) : ℕ) = 3 from rfl, rot_inv 3 1 rfl]; rfl
theorem barPay_to2 (c : Dev nD) : barPay (F := F) (rot 2 c) 1 = iprop((∃ f, slotPts c 1 f) ∗ reached ER (recvCell c 1) 0) := by
  unfold barPay; rw [show 3 - ((1 : Fin 3) : ℕ) = 2 from rfl, rot_inv 2 2 rfl]; rfl
theorem barPay_to3 (c : Dev nD) : barPay (F := F) (rot 3 c) 2 = iprop((∃ f, slotPts c 0 f) ∗ reached ER (recvCell c 0) 0) := by
  unfold barPay; rw [show 3 - ((2 : Fin 3) : ℕ) = 1 from rfl, rot_inv 1 3 rfl]; rfl
theorem barPay_from0 (c : Dev nD) : barPay (F := F) c 0 = iprop((∃ f, slotPts (rot 3 c) 2 f) ∗ reached ER (recvCell (rot 3 c) 2) 0) := rfl
theorem barPay_from1 (c : Dev nD) : barPay (F := F) c 1 = iprop((∃ f, slotPts (rot 2 c) 1 f) ∗ reached ER (recvCell (rot 2 c) 1) 0) := rfl
theorem barPay_from2 (c : Dev nD) : barPay (F := F) c 2 = iprop((∃ f, slotPts (rot 1 c) 0 f) ∗ reached ER (recvCell (rot 1 c) 0) 0) := rfl

/-! ## The three copies -/

/-- The copy into slot 0 of the device one place on, addressed to `n = rot 1 c` (substituted, not rewritten: the destination's
    memref and the transfer's typing evidence are stated over the addressed device): the send rule at this protocol's cells,
    its landing's payload the slot holding `c`'s part. -/
theorem wp_send_slot0 (K : Dev nD × Fin 7 → ℕ) (c n : Dev nD) (hn : n = rot 1 c)
    {hsc : (slotM 0 : Memref sig (Dev.tc n : Thread nD τ).2.kind .vmem S1x768 .f32).view.ref.isScScratch = false}
    {hsrc : (partM : Memref sig .tc .vmem S1x768 .f32).view.WordExact} {hdst : (slotM 0 : Memref sig .tc .vmem S1x768 .f32).view.WordExact}
    {hsem : DmaTarget.Typed .vmem (.dma (recvSem 0)) (.remote (Dev.tc n : Thread nD τ) (slotM 0 : Memref sig .tc .vmem S1x768 .f32) (.dma (sendSem 0)) hsc)}
    {α : Type} {Q : α → sProp 𝕄} {k : PUnit → Prog (TpuEff nD τ sig (Elt F) Λ₀ .tc) α}
    (fd : Buf (Elt F) (commLoc (rot 1 c))) (O₀ O : CellTallies nD τ sig Unit) (hO : O₀ = O + tallyAt (recvCell (rot 1 c) 0) () N) (W : Waits sig Unit) :
    iprop(cellInv ER (sched m ρ) (K (c, sIx 0)) (sendCell c 0) ∗ cellInv ER (sched m ρ) (K (rot 1 c, rIx 0)) (recvCell (rot 1 c) 0)
        ∗ (partLoc c ↦[(partM : Memref sig .tc .vmem S1x768 .f32).view.set]{tokQ 0} partVal m ρ c) ∗ (commLoc (rot 1 c) ↦[slotSet (rot 1 c) 0]{fullShare} fd)
        ∗ owes (c : Thread nD τ) O₀ W
        ∗ dutyTok ER (sendCell c 0) 0 0 ∗ reached ER (sendCell c 0) 0
        ∗ dutyTok ER (recvCell (rot 1 c) 0) 0 0 ∗ reached ER (recvCell (rot 1 c) 0) 0)
      ⊢ iprop(((cred (tallyAt (sendCell c 0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma partM (.remote (Dev.tc n : Thread nD τ) (slotM 0) (.dma (sendSem 0)) hsc) (.dma (recvSem 0)) hsrc hdst hsem) k) Q) := by
  subst hn
  exact Rounds.wp_send_pointsTo 𝒱₀ ER (sched m ρ) (c : Thread nD τ) none (c' := (rot 1 c : Thread nD τ))
    (src := (partM : Memref sig .tc .vmem S1x768 .f32)) (dst := (slotM 0 : Memref sig .tc .vmem S1x768 .f32))
    (sS := .dma (sendSem 0)) (sem := .dma (recvSem 0)) (q := tokQ 0) (fs := partVal m ρ c)
    (κ₁ := K (c, sIx 0)) (κ₂ := K (rot 1 c, rIx 0))
    (r₁ := 0) (r₂ := 0) (d₁ := (0 : Fin 3)) (d₂ := (0 : Fin 3)) (fd := fd)
    (by rw [duties_send]; exact Finset.mem_singleton_self _) (by rw [duties_recv]; exact Finset.mem_singleton_self _)
    () () N (slot_credit 0) (amount_send m ρ c 0 0) (amount_recv m ρ (rot 1 c) 0 0) O hO (W := W)
    (by rw [payload_send]; exact BI.Entails.refl _)
    (by rw [payload_recv]; unfold recvPay slotPts; rw [pointsTo_congr (landing_0 m ρ c fd)])

/-- The copy into slot 1 of the device two places on, addressed to `n = rot 2 c` (substituted, not rewritten: the destination's
    memref and the transfer's typing evidence are stated over the addressed device): the send rule at this protocol's cells,
    its landing's payload the slot holding `c`'s part. -/
theorem wp_send_slot1 (K : Dev nD × Fin 7 → ℕ) (c n : Dev nD) (hn : n = rot 2 c)
    {hsc : (slotM 1 : Memref sig (Dev.tc n : Thread nD τ).2.kind .vmem S1x768 .f32).view.ref.isScScratch = false}
    {hsrc : (partM : Memref sig .tc .vmem S1x768 .f32).view.WordExact} {hdst : (slotM 1 : Memref sig .tc .vmem S1x768 .f32).view.WordExact}
    {hsem : DmaTarget.Typed .vmem (.dma (recvSem 1)) (.remote (Dev.tc n : Thread nD τ) (slotM 1 : Memref sig .tc .vmem S1x768 .f32) (.dma (sendSem 1)) hsc)}
    {α : Type} {Q : α → sProp 𝕄} {k : PUnit → Prog (TpuEff nD τ sig (Elt F) Λ₀ .tc) α}
    (fd : Buf (Elt F) (commLoc (rot 2 c))) (O₀ O : CellTallies nD τ sig Unit) (hO : O₀ = O + tallyAt (recvCell (rot 2 c) 1) () N) (W : Waits sig Unit) :
    iprop(cellInv ER (sched m ρ) (K (c, sIx 1)) (sendCell c 1) ∗ cellInv ER (sched m ρ) (K (rot 2 c, rIx 1)) (recvCell (rot 2 c) 1)
        ∗ (partLoc c ↦[(partM : Memref sig .tc .vmem S1x768 .f32).view.set]{tokQ 1} partVal m ρ c) ∗ (commLoc (rot 2 c) ↦[slotSet (rot 2 c) 1]{fullShare} fd)
        ∗ owes (c : Thread nD τ) O₀ W
        ∗ dutyTok ER (sendCell c 1) 0 0 ∗ reached ER (sendCell c 1) 0
        ∗ dutyTok ER (recvCell (rot 2 c) 1) 0 0 ∗ reached ER (recvCell (rot 2 c) 1) 0)
      ⊢ iprop(((cred (tallyAt (sendCell c 1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma partM (.remote (Dev.tc n : Thread nD τ) (slotM 1) (.dma (sendSem 1)) hsc) (.dma (recvSem 1)) hsrc hdst hsem) k) Q) := by
  subst hn
  exact Rounds.wp_send_pointsTo 𝒱₀ ER (sched m ρ) (c : Thread nD τ) none (c' := (rot 2 c : Thread nD τ))
    (src := (partM : Memref sig .tc .vmem S1x768 .f32)) (dst := (slotM 1 : Memref sig .tc .vmem S1x768 .f32))
    (sS := .dma (sendSem 1)) (sem := .dma (recvSem 1)) (q := tokQ 1) (fs := partVal m ρ c)
    (κ₁ := K (c, sIx 1)) (κ₂ := K (rot 2 c, rIx 1))
    (r₁ := 0) (r₂ := 0) (d₁ := (0 : Fin 3)) (d₂ := (0 : Fin 3)) (fd := fd)
    (by rw [duties_send]; exact Finset.mem_singleton_self _) (by rw [duties_recv]; exact Finset.mem_singleton_self _)
    () () N (slot_credit 1) (amount_send m ρ c 1 0) (amount_recv m ρ (rot 2 c) 1 0) O hO (W := W)
    (by rw [payload_send]; exact BI.Entails.refl _)
    (by rw [payload_recv]; unfold recvPay slotPts; rw [pointsTo_congr (landing_1 m ρ c fd)])

/-- The copy into slot 2 of the device three places on, addressed to `n = rot 3 c` (substituted, not rewritten: the destination's
    memref and the transfer's typing evidence are stated over the addressed device): the send rule at this protocol's cells,
    its landing's payload the slot holding `c`'s part. -/
theorem wp_send_slot2 (K : Dev nD × Fin 7 → ℕ) (c n : Dev nD) (hn : n = rot 3 c)
    {hsc : (slotM 2 : Memref sig (Dev.tc n : Thread nD τ).2.kind .vmem S1x768 .f32).view.ref.isScScratch = false}
    {hsrc : (partM : Memref sig .tc .vmem S1x768 .f32).view.WordExact} {hdst : (slotM 2 : Memref sig .tc .vmem S1x768 .f32).view.WordExact}
    {hsem : DmaTarget.Typed .vmem (.dma (recvSem 2)) (.remote (Dev.tc n : Thread nD τ) (slotM 2 : Memref sig .tc .vmem S1x768 .f32) (.dma (sendSem 2)) hsc)}
    {α : Type} {Q : α → sProp 𝕄} {k : PUnit → Prog (TpuEff nD τ sig (Elt F) Λ₀ .tc) α}
    (fd : Buf (Elt F) (commLoc (rot 3 c))) (O₀ O : CellTallies nD τ sig Unit) (hO : O₀ = O + tallyAt (recvCell (rot 3 c) 2) () N) (W : Waits sig Unit) :
    iprop(cellInv ER (sched m ρ) (K (c, sIx 2)) (sendCell c 2) ∗ cellInv ER (sched m ρ) (K (rot 3 c, rIx 2)) (recvCell (rot 3 c) 2)
        ∗ (partLoc c ↦[(partM : Memref sig .tc .vmem S1x768 .f32).view.set]{tokQ 2} partVal m ρ c) ∗ (commLoc (rot 3 c) ↦[slotSet (rot 3 c) 2]{fullShare} fd)
        ∗ owes (c : Thread nD τ) O₀ W
        ∗ dutyTok ER (sendCell c 2) 0 0 ∗ reached ER (sendCell c 2) 0
        ∗ dutyTok ER (recvCell (rot 3 c) 2) 0 0 ∗ reached ER (recvCell (rot 3 c) 2) 0)
      ⊢ iprop(((cred (tallyAt (sendCell c 2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma partM (.remote (Dev.tc n : Thread nD τ) (slotM 2) (.dma (sendSem 2)) hsc) (.dma (recvSem 2)) hsrc hdst hsem) k) Q) := by
  subst hn
  exact Rounds.wp_send_pointsTo 𝒱₀ ER (sched m ρ) (c : Thread nD τ) none (c' := (rot 3 c : Thread nD τ))
    (src := (partM : Memref sig .tc .vmem S1x768 .f32)) (dst := (slotM 2 : Memref sig .tc .vmem S1x768 .f32))
    (sS := .dma (sendSem 2)) (sem := .dma (recvSem 2)) (q := tokQ 2) (fs := partVal m ρ c)
    (κ₁ := K (c, sIx 2)) (κ₂ := K (rot 3 c, rIx 2))
    (r₁ := 0) (r₂ := 0) (d₁ := (0 : Fin 3)) (d₂ := (0 : Fin 3)) (fd := fd)
    (by rw [duties_send]; exact Finset.mem_singleton_self _) (by rw [duties_recv]; exact Finset.mem_singleton_self _)
    () () N (slot_credit 2) (amount_send m ρ c 2 0) (amount_recv m ρ (rot 3 c) 2 0) O hO (W := W)
    (by rw [payload_send]; exact BI.Entails.refl _)
    (by rw [payload_recv]; unfold recvPay slotPts; rw [pointsTo_congr (landing_2 m ρ c fd)])

theorem part_set : (partM : Memref sig .tc .vmem S1x768 .f32).view.set = Finset.univ := View.set_whole _

/-! ## A completed round's payloads, as the wait hands them back

The wait for a receive cell's whole round hands back the slot filled; for a send cell's, the read share the copy borrowed. -/

theorem pay_recv0 (c : Dev nD) : bigSep ((sched (F := F) m ρ).duties (kcell (c, rIx 0)) 0) (fun d => (sched (F := F) m ρ).payload (kcell (c, rIx 0)) 0 d)
    = (commLoc c ↦[slotSet c 0]{fullShare} landed m ρ c) := by
  show bigSep ((sched (F := F) m ρ).duties (recvCell c 0) 0) (fun d => (sched (F := F) m ρ).payload (recvCell c 0) 0 d) = _
  rw [duties_recv, bigSep_singleton, payload_recv]; rfl
theorem pay_send0 (c : Dev nD) : bigSep ((sched (F := F) m ρ).duties (kcell (c, sIx 0)) 0) (fun d => (sched (F := F) m ρ).payload (kcell (c, sIx 0)) 0 d)
    = (partLoc c ↦[(partM : Memref sig .tc .vmem S1x768 .f32).view.set]{tokQ 0} partVal m ρ c) := by
  show bigSep ((sched (F := F) m ρ).duties (sendCell c 0) 0) (fun d => (sched (F := F) m ρ).payload (sendCell c 0) 0 d) = _
  rw [duties_send, bigSep_singleton, payload_send]; rfl
theorem pay_recv1 (c : Dev nD) : bigSep ((sched (F := F) m ρ).duties (kcell (c, rIx 1)) 0) (fun d => (sched (F := F) m ρ).payload (kcell (c, rIx 1)) 0 d)
    = (commLoc c ↦[slotSet c 1]{fullShare} landed m ρ c) := by
  show bigSep ((sched (F := F) m ρ).duties (recvCell c 1) 0) (fun d => (sched (F := F) m ρ).payload (recvCell c 1) 0 d) = _
  rw [duties_recv, bigSep_singleton, payload_recv]; rfl
theorem pay_send1 (c : Dev nD) : bigSep ((sched (F := F) m ρ).duties (kcell (c, sIx 1)) 0) (fun d => (sched (F := F) m ρ).payload (kcell (c, sIx 1)) 0 d)
    = (partLoc c ↦[(partM : Memref sig .tc .vmem S1x768 .f32).view.set]{tokQ 1} partVal m ρ c) := by
  show bigSep ((sched (F := F) m ρ).duties (sendCell c 1) 0) (fun d => (sched (F := F) m ρ).payload (sendCell c 1) 0 d) = _
  rw [duties_send, bigSep_singleton, payload_send]; rfl
theorem pay_recv2 (c : Dev nD) : bigSep ((sched (F := F) m ρ).duties (kcell (c, rIx 2)) 0) (fun d => (sched (F := F) m ρ).payload (kcell (c, rIx 2)) 0 d)
    = (commLoc c ↦[slotSet c 2]{fullShare} landed m ρ c) := by
  show bigSep ((sched (F := F) m ρ).duties (recvCell c 2) 0) (fun d => (sched (F := F) m ρ).payload (recvCell c 2) 0 d) = _
  rw [duties_recv, bigSep_singleton, payload_recv]; rfl
theorem pay_send2 (c : Dev nD) : bigSep ((sched (F := F) m ρ).duties (kcell (c, sIx 2)) 0) (fun d => (sched (F := F) m ρ).payload (kcell (c, sIx 2)) 0 d)
    = (partLoc c ↦[(partM : Memref sig .tc .vmem S1x768 .f32).view.set]{tokQ 2} partVal m ρ c) := by
  show bigSep ((sched (F := F) m ρ).duties (sendCell c 2) 0) (fun d => (sched (F := F) m ρ).payload (sendCell c 2) 0 d) = _
  rw [duties_send, bigSep_singleton, payload_send]; rfl

/-- The part buffer, as the store leaves it, split into the share kept for the kernel's own load and one read token per copy. -/
theorem part_split' (c : Dev nD) :
    ((View.loc (c : Thread nD τ) ((partM : Memref sig .tc .vmem S1x768 .f32).access r1) ↦{fullShare} k0_pay1 (xstg m ρ c)) : sProp 𝕄)
      ⊢ iprop(partPts m ρ c keepQ ∗ partPts m ρ c (tokQ 0) ∗ partPts m ρ c (tokQ 1) ∗ partPts m ρ c (tokQ 2)) := part_split m ρ c

/-- The level evidence of the barrier wait, with what is owed there written out. -/
theorem mayWait_bar' (c : Dev nD) : (levAts L lv : sProp 𝕄) ⊢ MayWait (c : Thread nD τ) (.reg barS) ()
    (tallyAt (recvCell (rot 3 c) 2) () N + tallyAt (recvCell (rot 1 c) 0) () N + tallyAt (recvCell (rot 2 c) 1) () N) := mayWait_bar c

set_option maxHeartbeats 1600000 in
theorem sound_body (K : Dev nD × Fin 7 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ (theBody (F := F)) Kt := by
  unfold bodyPre ghost linear payToks waitCred scratch
  rw [bigSep_fin7]
  iintro ⟨⟨⟨⟨#HR, ⟨HaB, HaS0, HaS1, HaS2, HaV0, HaV1, HaV2⟩, HtB1, HtB2, HtB3, HtV0, HtV1, HtV2, HtS0, HtS1, HtS2⟩, ⟨HcB, HcV0, HcV1, HcV2⟩, #Hlev, ⟨%fp, Hpart⟩, ⟨%fc, Hcomm⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ O₅ O₄ O₃ O₂ O₁
  ihave #HIB := (inv_at m ρ K (c, 0)) $$ HR
  ihave #HIB1 := (inv_at m ρ K (rot 1 c, 0)) $$ HR
  ihave #HIB2 := (inv_at m ρ K (rot 2 c, 0)) $$ HR
  ihave #HIB3 := (inv_at m ρ K (rot 3 c, 0)) $$ HR
  ihave #HrB1 := (reached_at m ρ K (rot 1 c, 0)) $$ HR
  ihave #HrB2 := (reached_at m ρ K (rot 2 c, 0)) $$ HR
  ihave #HrB3 := (reached_at m ρ K (rot 3 c, 0)) $$ HR
  ihave #HrV0 := (reached_at m ρ K (c, rIx 0)) $$ HR
  ihave #HrV1 := (reached_at m ρ K (c, rIx 1)) $$ HR
  ihave #HrV2 := (reached_at m ρ K (c, rIx 2)) $$ HR
  -- the landing buffer, slot by slot: each signal gives one slot away
  ihave Hc4 := (comm_split c fc) $$ Hcomm
  icases Hc4 with ⟨Hs0, Hs1, Hs2, Hrest⟩
  dsimp only [theBody]
  sl_unfold [cc0_body]
  sl_exec
  -- the FIRST signal, to the device one place on: duty 0 of its barrier cell, with slot 2
  iapply (Rounds.wp_signal 𝒱₀ ER (sched m ρ) (c : Thread nD τ) none (dst := (rot 1 c : Thread nD τ)) (κ := K (rot 1 c, 0))
      (d := (0 : Fin 3)) (by rw [duties_bar]; exact Finset.mem_univ _) ((amount_bar m ρ (rot 1 c) 0).trans (by decide)) () _ rfl)
    $$ [HO HtB1 Hs2]
  · isplitr; · iexact HIB1
    isplitl [HO]; · iexact HO
    isplitl [HtB1]; · iexact HtB1
    isplitl [Hs2]
    · rw [payload_bar, barPay_to1]
      isplitl [Hs2]; · iexists fc; iexact Hs2
      iexact HrV2
    · iexact HrB1
  iintro HO
  sl_exec
  -- the SECOND, two places on: duty 1, with slot 1
  iapply (Rounds.wp_signal 𝒱₀ ER (sched m ρ) (c : Thread nD τ) none (dst := (rot 2 c : Thread nD τ)) (κ := K (rot 2 c, 0))
      (d := (1 : Fin 3)) (by rw [duties_bar]; exact Finset.mem_univ _) ((amount_bar m ρ (rot 2 c) 1).trans (by decide)) () _ rfl)
    $$ [HO HtB2 Hs1]
  · isplitr; · iexact HIB2
    isplitl [HO]; · iexact HO
    isplitl [HtB2]; · iexact HtB2
    isplitl [Hs1]
    · rw [payload_bar, barPay_to2]
      isplitl [Hs1]; · iexists fc; iexact Hs1
      iexact HrV1
    · iexact HrB2
  iintro HO
  sl_exec
  -- the THIRD, three places on: duty 2, with slot 0
  iapply (Rounds.wp_signal 𝒱₀ ER (sched m ρ) (c : Thread nD τ) none (dst := (rot 3 c : Thread nD τ)) (κ := K (rot 3 c, 0))
      (d := (2 : Fin 3)) (by rw [duties_bar]; exact Finset.mem_univ _) ((amount_bar m ρ (rot 3 c) 2).trans (by decide)) () _ rfl)
    $$ [HO HtB3 Hs0]
  · isplitr; · iexact HIB3
    isplitl [HO]; · iexact HO
    isplitl [HtB3]; · iexact HtB3
    isplitl [Hs0]
    · rw [payload_bar, barPay_to3]
      isplitl [Hs0]; · iexists fc; iexact Hs0
      iexact HrV0
    · iexact HrB3
  iintro HO
  -- the block of rows loaded, its column sums stored as the part
  sl_exec
  iapply (wp_load 𝒱₀ (c : Thread nD τ) none Set.univ (m := xM) (Finset.subset_univ _)) $$ Hx; iintro Hx
  rw [read_x]
  try sl_exec
  iapply (wp_load 𝒱₀ (c : Thread nD τ) none Set.univ (m := partM) (Finset.subset_univ _)) $$ Hpart; iintro Hpart
  try sl_exec
  iapply (wp_store 𝒱₀ (c : Thread nD τ) none Set.univ (m := partM) (r := r1) (Mk := Finset.univ) (Finset.subset_univ _)) $$ Hpart; iintro Hpart
  rw [write_part]
  -- the WAIT for the three peers' signals, owing the three landings: the peers' slots come with it
  simp only [Prog.bind]
  sl_exec
  iapply (Rounds.wp_wait_rest_token 𝒱₀ ER (sched m ρ) (c : Thread nD τ) none (κ := K (c, 0))
      (wpE_semWait_eq 𝒱₀ (c : Thread nD τ) none Set.univ) (Set.mem_univ _) () (W := W) (R := 0) (m := 0) (T := ∅)
      (by rw [expect_bar]; decide)) $$ [HcB HO HaB]
  · isplitr; · iexact HIB
    isplitl [HcB]; · iexact HcB
    isplitl [HO]; · iexact HO
    isplitr; · iapply (mayWait_bar' c); iexact Hlev
    iexact HaB
  iintro ⟨HO, HaB, -, Hpay⟩
  ihave Hp := (Entails.of_eq (rest_bar m ρ c)) $$ Hpay
  rw [barPay_from0, barPay_from1, barPay_from2]
  icases Hp with ⟨⟨⟨%fd2, Hd2⟩, #HrD2⟩, ⟨⟨%fd1, Hd1⟩, #HrD1⟩, ⟨%fd0, Hd0⟩, #HrD0⟩
  sl_exec
  -- the part buffer's share: one read token per copy, the rest kept for the kernel's own load
  ihave Hp4 := (part_split' m ρ c) $$ Hpart
  icases Hp4 with ⟨Hpk, Hpt0, Hpt1, Hpt2⟩
  ihave #HIS0 := (inv_at m ρ K (c, sIx 0)) $$ HR
  ihave #HIS1 := (inv_at m ρ K (c, sIx 1)) $$ HR
  ihave #HIS2 := (inv_at m ρ K (c, sIx 2)) $$ HR
  ihave #HIV0 := (inv_at m ρ K (c, rIx 0)) $$ HR
  ihave #HIV1 := (inv_at m ρ K (c, rIx 1)) $$ HR
  ihave #HIV2 := (inv_at m ρ K (c, rIx 2)) $$ HR
  ihave #HID0 := (inv_at m ρ K (rot 1 c, rIx 0)) $$ HR
  ihave #HID1 := (inv_at m ρ K (rot 2 c, rIx 1)) $$ HR
  ihave #HID2 := (inv_at m ρ K (rot 3 c, rIx 2)) $$ HR
  ihave #HrS0 := (reached_at m ρ K (c, sIx 0)) $$ HR
  ihave #HrS1 := (reached_at m ρ K (c, sIx 1)) $$ HR
  ihave #HrS2 := (reached_at m ρ K (c, sIx 2)) $$ HR
  unfold partPts slotPts
  -- the FIRST copy: into slot 1 of the device two places on
  iapply (wp_send_slot1 m ρ K c _ (dev4_eq c) fd1 _ _ rfl _) $$ [Hpt1 Hd1 HO HtS1 HtV1]
  · isplitr; · iexact HIS1
    isplitr; · iexact HID1
    isplitl [Hpt1]; · iexact Hpt1
    isplitl [Hd1]; · iexact Hd1
    isplitl [HO]; · iexact HO
    isplitl [HtS1]; · iexact HtS1
    isplitr; · iexact HrS1
    isplitl [HtV1]; · iexact HtV1
    iexact HrD1
  iintro ⟨HcS1, HO⟩
  try sl_exec
  -- the SECOND copy: into slot 0 of the device one place on
  iapply (wp_send_slot0 m ρ K c _ (dev5_eq c) fd0 _ _ rfl _) $$ [Hpt0 Hd0 HO HtS0 HtV0]
  · isplitr; · iexact HIS0
    isplitr; · iexact HID0
    isplitl [Hpt0]; · iexact Hpt0
    isplitl [Hd0]; · iexact Hd0
    isplitl [HO]; · iexact HO
    isplitl [HtS0]; · iexact HtS0
    isplitr; · iexact HrS0
    isplitl [HtV0]; · iexact HtV0
    iexact HrD0
  iintro ⟨HcS0, HO⟩
  try sl_exec
  -- the THIRD copy: into slot 2 of the device three places on; nothing is owed after it
  iapply (wp_send_slot2 m ρ K c _ (dev6_eq c) fd2 _ 0 (zero_add _).symm _) $$ [Hpt2 Hd2 HO HtS2 HtV2]
  · isplitr; · iexact HIS2
    isplitr; · iexact HID2
    isplitl [Hpt2]; · iexact Hpt2
    isplitl [Hd2]; · iexact Hd2
    isplitl [HO]; · iexact HO
    isplitl [HtS2]; · iexact HtS2
    isplitr; · iexact HrS2
    isplitl [HtV2]; · iexact HtV2
    iexact HrD2
  iintro ⟨HcS2, HO⟩
  try sl_exec
  -- the kernel's own load of its part, through the share it kept
  iapply (wp_load 𝒱₀ (c : Thread nD τ) none Set.univ (m := partM) (by rw [part_set]; exact Finset.subset_univ _)) $$ Hpk; iintro Hpk
  rw [read_part]
  try simp only [Prog.bind]
  try sl_exec
  -- the landing in slot 0 has been waited for: the slot holds the part of the device three places on; it is loaded
  ihave Hl0 := (Entails.of_eq (pay_recv0 m ρ c)) $$ HaV0_pay1
  iapply (wp_load 𝒱₀ (c : Thread nD τ) none Set.univ (m := commM) (load_sub_0 c)) $$ Hl0; iintro Hl0
  try simp only [Prog.bind]
  try sl_exec
  -- the landing in slot 2 has been waited for: the slot holds the part of the device one place on; it is loaded
  ihave Hl2 := (Entails.of_eq (pay_recv2 m ρ c)) $$ HaV2_pay1
  iapply (wp_load 𝒱₀ (c : Thread nD τ) none Set.univ (m := commM) (load_sub_2 c)) $$ Hl2; iintro Hl2
  try simp only [Prog.bind]
  try sl_exec
  -- the landing in slot 1 has been waited for: the slot holds the part of the device two places on; it is loaded
  ihave Hl1 := (Entails.of_eq (pay_recv1 m ρ c)) $$ HaV1_pay1
  iapply (wp_load 𝒱₀ (c : Thread nD τ) none Set.univ (m := commM) (load_sub_1 c)) $$ Hl1; iintro Hl1
  try simp only [Prog.bind]
  try sl_exec
  -- the result: loaded (unused), then stored whole
  iapply (wp_load 𝒱₀ (c : Thread nD τ) none Set.univ (m := oM) (Finset.subset_univ _)) $$ Hout; iintro Hout
  try simp only [Prog.bind]
  try sl_exec
  iapply (wp_store 𝒱₀ (c : Thread nD τ) none Set.univ (m := oM) (r := r1) (Mk := Finset.univ) (Finset.subset_univ _)) $$ Hout; iintro Hout
  rw [write_out]
  -- the three sends waited for: the read shares come back
  try simp only [Prog.bind]
  try sl_exec
  -- the read shares are back: the part buffer is whole again
  ihave Hq0 := (Entails.of_eq (pay_send0 m ρ c)) $$ HaS0_pay1
  ihave Hq1 := (Entails.of_eq (pay_send1 m ρ c)) $$ HaS1_pay1
  ihave Hq2 := (Entails.of_eq (pay_send2 m ρ c)) $$ HaS2_pay1
  ihave Hpart := (part_join m ρ c) $$ [Hpk Hq0 Hq1 Hq2]
  · unfold partPts
    isplitl [Hpk]; · iexact Hpk
    isplitl [Hq0]; · iexact Hq0
    isplitl [Hq1]; · iexact Hq1
    iexact Hq2
  -- the three filled slots and the rest: the landing buffer is whole again
  ihave Hcomm := (comm_join c (landed m ρ c) (landed m ρ c) (landed m ρ c) fc) $$ [Hl0 Hl1 Hl2 Hrest]
  · unfold slotPts
    isplitl [Hl0]; · iexact Hl0
    isplitl [Hl1]; · iexact Hl1
    isplitl [Hl2]; · iexact Hl2
    iexact Hrest
  -- the six own cells close: their counters at zero are the core's again
  imod (Rounds.cell_close ER (sched m ρ) (Set.mem_univ (K (c, sIx 0))) (fun h => h) (R := 1) (duties_later m ρ (sendCell c 0))) $$ [HaS0] with HzS0
  · isplitr; · iexact HIS0
    iexact HaS0
  imod (Rounds.cell_close ER (sched m ρ) (Set.mem_univ (K (c, sIx 1))) (fun h => h) (R := 1) (duties_later m ρ (sendCell c 1))) $$ [HaS1] with HzS1
  · isplitr; · iexact HIS1
    iexact HaS1
  imod (Rounds.cell_close ER (sched m ρ) (Set.mem_univ (K (c, sIx 2))) (fun h => h) (R := 1) (duties_later m ρ (sendCell c 2))) $$ [HaS2] with HzS2
  · isplitr; · iexact HIS2
    iexact HaS2
  imod (Rounds.cell_close ER (sched m ρ) (Set.mem_univ (K (c, rIx 0))) (fun h => h) (R := 1) (duties_later m ρ (recvCell c 0))) $$ [HaV0] with HzV0
  · isplitr; · iexact HIV0
    iexact HaV0
  imod (Rounds.cell_close ER (sched m ρ) (Set.mem_univ (K (c, rIx 1))) (fun h => h) (R := 1) (duties_later m ρ (recvCell c 1))) $$ [HaV1] with HzV1
  · isplitr; · iexact HIV1
    iexact HaV1
  imod (Rounds.cell_close ER (sched m ρ) (Set.mem_univ (K (c, rIx 2))) (fun h => h) (R := 1) (duties_later m ρ (recvCell c 2))) $$ [HaV2] with HzV2
  · isplitr; · iexact HIV2
    iexact HaV2
  rw [wp_ret]; imodintro
  iapply Hk
  unfold bodyPost Φ₁ scratch semsZero Dat.owesAt Pipeline.owesWithin
  rw [show (dats m ρ 0 c).owed t₀.succ = 0 from rfl]
  isplitl [Hpart Hcomm HzS0 HzS1 HzS2 HzV0 HzV1 HzV2]
  · isplitl [Hpart Hcomm]
    · isplitl [Hpart]; · iexists _; iexact Hpart
      iexact Hcomm
    isplitl [HzS0]; · iexact HzS0
    isplitl [HzS1]; · iexact HzS1
    isplitl [HzS2]; · iexact HzS2
    isplitl [HzV0]; · iexact HzV0
    isplitl [HzV1]; · iexact HzV1
    iexact HzV2
  isplitl [HO]
  · iexists _
    isplitr
    rotate_left
    · iexact HO
    · ipureintro; exact fun _ _ => Or.inl trivial
  isplitl [Hx]
  · iexists _; isplitr; · (ipureintro; rfl)
    iexact Hx
  iexists _; isplitr; · (ipureintro; rfl)
  iexact Hout

/-! ## The library's body obligation -/

set_option maxRecDepth 4000 in
/-- What the pipeline hands the body at the one grid point: the state before the point, what is owed, and the two staged
    windows. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body obligation on device `c`: from that, the kernel runs to the state after the point. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ (theBody (F := F)) (fun _ => bodyPost m ρ c)
  unfold bodyPre' Φ₀ start
  iintro ⟨⟨⟨⟨%K, Hg⟩, Hw, Hlv⟩, Hscr⟩, Ho, Hx, Hout⟩
  iapply (sound_body m ρ K c fun _ => bodyPost m ρ c)
  unfold bodyPre
  isplitr []
  · isplitl [Hg Hw Hlv Hscr]
    · isplitl [Hg]; · iexact Hg
      isplitl [Hw]; · iexact Hw
      isplitl [Hlv]; · iexact Hlv
      iexact Hscr
    isplitl [Ho]; · iexact Ho
    isplitl [Hx] <;> iassumption
  · iintro H; iexact H

/-- info: 'Cert.KernelIdeal.Coll.body_obligation' depends on axioms: [propext, Classical.choice, Quot.sound] -/
#guard_msgs in #print axioms body_obligation

end Cert.KernelIdeal.Coll

end
-- ==== Proof.lean ====
/-
  The all-to-all sum on four devices, against the sum of the whole array.

  Each device holds a block of 1536 rows of a 6144 x 768 array. It signals its three peers' barrier semaphore, stores the
  column sums of its block (its part), waits for the three signals addressed to it, copies its part into one slot of each
  peer's three-slot landing buffer, waits for the three landings and adds the three parts to its own; the reference sums
  all 6144 rows of every column. The two agree at the ideal instance because addition on the extended reals is
  commutative and associative and the zero word is its identity: no precondition is used.

  The protocol is one round per semaphore (Proof/KernelIdeal/Proto.lean): a barrier cell's three unit duties, each handing
  the waiter the slot it is about to fill; a row's credit on each send and receive cell, a landing handing the slot back
  filled, a completed send the read share it borrowed. A device waits on its barrier while it owes three landings, which
  sit above it; on everything else while it owes nothing. One device's body is Proof/KernelIdeal/Body.lean, the launch
  Proof/KernelIdeal/Launch.lean, the run with the values named Proof/KernelIdeal/Final.lean; the same text, with the
  program's name substituted, is the word-level program's (Proof/Kernel/). The value is Proof/ValueAlg.lean (the sum
  regrouped), Proof/KernelIdeal/Reads.lean (what the landing buffer holds) and Proof/Bridge.lean; Proof/Assemble.lean
  puts the five claims together from the two bodies.
-/
import proofs.«901080_g7700000000001081_dist_sum_ax0_shard0_i_m1536_n768_v7x_i4_f32_1_alg».proof.Proof.Assemble
import proofs.«901080_g7700000000001081_dist_sum_ax0_shard0_i_m1536_n768_v7x_i4_f32_1_alg».proof.Proof.Kernel.Body
import proofs.«901080_g7700000000001081_dist_sum_ax0_shard0_i_m1536_n768_v7x_i4_f32_1_alg».proof.Proof.KernelIdeal.Body

noncomputable section

namespace Cert.Proof

open Idealize.ShloMosaic Idealize.SL.Sem

theorem claim : Cert.Claim :=
  claim_of (fun m ρ c => Cert.Kernel.Coll.body_obligation m ρ c) (fun m ρ c => Cert.KernelIdeal.Coll.body_obligation m ρ c)

end Cert.Proof

end
